-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x20 : Shape := ⟨2, ![50000, 20]⟩
abbrev S2x640000 : Shape := ⟨2, ![2, 640000]⟩
abbrev S50000 : Shape := ⟨1, ![50000]⟩
abbrev S128x20 : Shape := ⟨2, ![128, 20]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S50000x20 : S_.BroadcastsInDim S50000x20 (![] : Fin 0 → Fin S50000x20.rank)
  reducesTo_S50000x20_S_d0_1 : S50000x20.ReducesTo [0, 1] S_
  h_S_ : 0 < S_.numel
  bcast_S_S128x20 : S_.BroadcastsInDim S128x20 (![] : Fin 0 → Fin S128x20.rank)
  reducesTo_S128x20_S_d0_1 : S128x20.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2x128 .f32) (main_arg10 : FVec F S2 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S2x128 .f32) (main_arg10 : FVec F S2 .f32) (main_v13 : IVec S_ 1) (main_v16 : IVec S128x20 1) : IVec S_ 1 :=
  let main_c_5 : IVec S_ 1 := constantI S_ 1 1#1
  let main_v17 : IVec S_ 1 := (fun x v => Host.reduce IntOp.andi x v reducesTo_S128x20_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S50000x20 .f32) (main_arg1 : IVec S2x640000 32) (main_arg2 : IVec S50000 32) (main_arg3 : FVec F S128x20 .f32) (main_arg4 : FVec F S128 .f32) (main_arg5 : FVec F S128x20 .f32) (main_arg6 : FVec F S128x128 .f32) (main_arg7 : FVec F S128 .f32) (main_arg8 : FVec F S128x128 .f32) (main_arg9 : FVec F S2x128 .f32) (main_arg10 : FVec F S2 .f32) : IVec S_ 1 :=
  let main_v0 : FVec F S50000x20 .f32 := Host.absf main_arg0
  let main_cst : FVec F S_ .f32 := constant S_ .f32 0x7F800000#32
  let main_v1 : FVec F S50000x20 .f32 := broadcastInDim S50000x20 ![] bcast_S_S50000x20 main_cst
  let main_v2 : IVec S50000x20 1 := cmpf .olt main_v0 main_v1
  let main_c : IVec S_ 1 := constantI S_ 1 1#1
  let main_v3 : IVec S_ 1 := (fun x v => Host.reduce IntOp.andi x v reducesTo_S50000x20_S_d0_1 h_S_) main_v2 main_c
  let main_v4 : FVec F S128x20 .f32 := Host.absf main_arg3
  let main_cst_0 : FVec F S_ .f32 := constant S_ .f32 0x7F800000#32
  let main_v5 : FVec F S128x20 .f32 := broadcastInDim S128x20 ![] bcast_S_S128x20 main_cst_0
  let main_v6 : IVec S128x20 1 := cmpf .olt main_v4 main_v5
  let main_c_1 : IVec S_ 1 := constantI S_ 1 1#1
  let main_v7 : IVec S_ 1 := (fun x v => Host.reduce IntOp.andi x v reducesTo_S128x20_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x20 .f32 := Host.absf main_arg5
  let main_cst_4 : FVec F S_ .f32 := constant S_ .f32 0x7F800000#32
  let main_v15 : FVec F S128x20 .f32 := broadcastInDim S128x20 ![] bcast_S_S128x20 main_cst_4
  let main_v16 : IVec S128x20 1 := cmpf .olt main_v14 main_v15
  fn_part1 (F := F) main_arg6 main_arg7 main_arg8 main_arg9 main_arg10 main_v13 main_v16
-- ==== Kernel.lean ====
abbrev S50000x20 : Shape := ⟨2, ![50000, 20]⟩
abbrev S2x640000 : Shape := ⟨2, ![2, 640000]⟩
abbrev S50000 : Shape := ⟨1, ![50000]⟩
abbrev S128x20 : Shape := ⟨2, ![128, 20]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x1 : Shape := ⟨2, ![50000, 1]⟩
abbrev S20x128 : Shape := ⟨2, ![20, 128]⟩
abbrev S1x128 : Shape := ⟨2, ![1, 128]⟩
abbrev S128x2 : Shape := ⟨2, ![128, 2]⟩
abbrev S1x2 : Shape := ⟨2, ![1, 2]⟩
abbrev S640000x20 : Shape := ⟨2, ![640000, 20]⟩
abbrev S50000x128 : Shape := ⟨2, ![50000, 128]⟩
abbrev S5000x20 : Shape := ⟨2, ![5000, 20]⟩
abbrev S5000x1 : Shape := ⟨2, ![5000, 1]⟩
abbrev S5000x128 : Shape := ⟨2, ![5000, 128]⟩
abbrev S640000x128 : Shape := ⟨2, ![640000, 128]⟩
abbrev S100 : Shape := ⟨1, ![100]⟩
abbrev S1 : Shape := ⟨1, ![1]⟩
abbrev S128x1 : Shape := ⟨2, ![128, 1]⟩
abbrev S100x2 : Shape := ⟨2, ![100, 2]⟩

abbrev nBuf : Space → Nat
  | .hbm => 74
  | .vmem => 27
  | .smem => 0
  | _ => 0

abbrev bufTy : (tb : Table) → Fin (tcTables nBuf tb) → BufTy
  | .hbm, ⟨0, _⟩ => ⟨S50000x20, .f32⟩
  | .hbm, ⟨1, _⟩ => ⟨S2x640000, .i32⟩
  | .hbm, ⟨2, _⟩ => ⟨S50000, .i32⟩
  | .hbm, ⟨3, _⟩ => ⟨S128x20, .f32⟩
  | .hbm, ⟨4, _⟩ => ⟨S128, .f32⟩
  | .hbm, ⟨5, _⟩ => ⟨S128x20, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S2x128, .f32⟩
  | .hbm, ⟨10, _⟩ => ⟨S2, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .f32⟩
  | .hbm, ⟨16, _⟩ => ⟨S640000, .f32⟩
  | .hbm, ⟨17, _⟩ => ⟨S_, .f32⟩
  | .hbm, ⟨18, _⟩ => ⟨S50000, .f32⟩
  | .hbm, ⟨19, _⟩ => ⟨S640000x1, .i32⟩
  | .hbm, ⟨20, _⟩ => ⟨S50000, .f32⟩
  | .hbm, ⟨21, _⟩ => ⟨S50000x1, .f32⟩
  | .hbm, ⟨22, _⟩ => ⟨S20x128, .f32⟩
  | .hbm, ⟨23, _⟩ => ⟨S20x128, .f32⟩
  | .hbm, ⟨24, _⟩ => ⟨S1x128, .f32⟩
  | .hbm, ⟨25, _⟩ => ⟨S128x128, .f32⟩
  | .hbm, ⟨26, _⟩ => ⟨S128x128, .f32⟩
  | .hbm, ⟨27, _⟩ => ⟨S1x128, .f32⟩
  | .hbm, ⟨28, _⟩ => ⟨S128x2, .f32⟩
  | .hbm, ⟨29, _⟩ => ⟨S1x2, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x20, .f32⟩
  | .hbm, ⟨39, _⟩ => ⟨S_, .f32⟩
  | .hbm, ⟨40, _⟩ => ⟨S50000x20, .f32⟩
  | .hbm, ⟨41, _⟩ => ⟨S640000x1, .i32⟩
  | .hbm, ⟨42, _⟩ => ⟨S50000x20, .f32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .bf16⟩
  | .hbm, ⟨54, _⟩ => ⟨S640000x128, .f32⟩
  | .hbm, ⟨55, _⟩ => ⟨S_, .f32⟩
  | .hbm, ⟨56, _⟩ => ⟨S50000x128, .f32⟩
  | .hbm, ⟨57, _⟩ => ⟨S640000x1, .i32⟩
  | .hbm, ⟨58, _⟩ => ⟨S50000x128, .f32⟩
  | .hbm, ⟨59, _⟩ => ⟨S50000x1, .i32⟩
  | .hbm, ⟨60, _⟩ => ⟨S_, .f32⟩
  | .hbm, ⟨61, _⟩ => ⟨S50000, .f32⟩
  | .hbm, ⟨62, _⟩ => ⟨S_, .f32⟩
  | .hbm, ⟨63, _⟩ => ⟨S100, .f32⟩
  | .hbm, ⟨64, _⟩ => ⟨S50000x1, .i32⟩
  | .hbm, ⟨65, _⟩ => ⟨S100, .f32⟩
  | .hbm, ⟨66, _⟩ => ⟨S_, .f32⟩
  | .hbm, ⟨67, _⟩ => ⟨S128, .f32⟩
  | .hbm, ⟨68, _⟩ => ⟨S_, .i32⟩
  | .hbm, ⟨69, _⟩ => ⟨S1, .i32⟩
  | .hbm, ⟨70, _⟩ => ⟨S128, .f32⟩
  | .hbm, ⟨71, _⟩ => ⟨S128x1, .f32⟩
  | .hbm, ⟨72, _⟩ => ⟨S128x2, .f32⟩
  | .hbm, ⟨73, _⟩ => ⟨S100x2, .f32⟩
  | .local _ .vmem, ⟨0, _⟩ => ⟨S5000x20, .f32⟩
  | .local _ .vmem, ⟨1, _⟩ => ⟨S5000x20, .f32⟩
  | .local _ .vmem, ⟨2, _⟩ => ⟨S5000x20, .f32⟩
  | .local _ .vmem, ⟨3, _⟩ => ⟨S5000x20, .f32⟩
  | .local _ .vmem, ⟨4, _⟩ => ⟨S5000x1, .f32⟩
  | .local _ .vmem, ⟨5, _⟩ => ⟨S5000x1, .f32⟩
  | .local _ .vmem, ⟨6, _⟩ => ⟨S20x128, .f32⟩
  | .local _ .vmem, ⟨7, _⟩ => ⟨S1x128, .f32⟩
  | .local _ .vmem, ⟨8, _⟩ => ⟨S20x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x1, .i32⟩
  | .local _ .vmem, ⟨21, _⟩ => ⟨S5000x1, .i32⟩
  | .local _ .vmem, ⟨22, _⟩ => ⟨S128x1, .f32⟩
  | .local _ .vmem, ⟨23, _⟩ => ⟨S128x2, .f32⟩
  | .local _ .vmem, ⟨24, _⟩ => ⟨S1x2, .f32⟩
  | .local _ .vmem, ⟨25, _⟩ => ⟨S128x2, .f32⟩
  | .local _ .vmem, ⟨26, _⟩ => ⟨S128x128, .f32⟩
  | _, _ => ⟨S50000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23
abbrev cc1_sem9_0 : DmaSem sig := 24
abbrev cc1_sem10_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_22 : BitVec 32 := 0#32
  let v41 : BitVec 1 := Scalar.cmpi .ne v40 c0_i32_22
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  shapeCasts_S50000_S50000x1 : S50000.ShapeCasts S50000x1
  transposes_S128x20_S20x128_1_0 : S128x20.Transposes [1, 0] S20x128
  shapeCasts_S128_S1x128 : S128.ShapeCasts S1x128
  transposes_S128x128_S128x128_1_0 : S128x128.Transposes [1, 0] S128x128
  transposes_S2x128_S128x2_1_0 : S2x128.Transposes [1, 0] S128x2
  shapeCasts_S2_S1x2 : S2.ShapeCasts S1x2
  bcast_S_S50000x20 : S_.BroadcastsInDim S50000x20 (![] : Fin 0 → Fin S50000x20.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  broadcasts_S5000x1_S5000x20 : S5000x1.Broadcasts S5000x20
  inb_S20x128_S20x128_0_0 : ∀ a, (![0, 0] : Fin 2 → Nat) a + S20x128.size a ≤ S20x128.size a
  h_S20x128 : 0 < S20x128.numel
  shapeCasts_S20x128_S20x128 : S20x128.ShapeCasts S20x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  bcast_S_S50000x128 : S_.BroadcastsInDim S50000x128 (![] : Fin 0 → Fin S50000x128.rank)
  bcast_S_S100 : S_.BroadcastsInDim S100 (![] : Fin 0 → Fin S100.rank)
  bcast_S50000_S50000x1_0 : S50000.BroadcastsInDim S50000x1 (![0] : Fin 1 → Fin S50000x1.rank)
  bcast_S_S128 : S_.BroadcastsInDim S128 (![] : Fin 0 → Fin S128.rank)
  bcast_S_S1 : S_.BroadcastsInDim S1 (![] : Fin 0 → Fin S1.rank)
  shapeCasts_S128_S128x1 : S128.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  broadcasts_S5000x1_S5000x128 : S5000x1.Broadcasts S5000x128
  iota_S5000x128_d1_w32 : S5000x128.Iotas .tc 32 [1]
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  slices_S128x2_S100x2_0_0 : S128x2.Slices ![0, 0] S100x2
  scatter_S50000_S640000x1_S640000_n_0_0_1_wf : ScatterDims.WF S50000 S640000x1 S640000 [] [0] [0] 1
  gather_S50000x20_S640000x1_S640000x20_1_0_n_n_0_1_120_wf : GatherDims.WF S50000x20 S640000x1 S640000x20 [1] [0] [] [0] [] 1 ![1, 20]
  scatter_S50000x20_S640000x1_S640000x20_1_0_0_1_wf : ScatterDims.WF S50000x20 S640000x1 S640000x20 [1] [0] [0] 1
  dot_S5000x20_S20x128_S5000x128_1_0_0_1_n_n_wf : DotDims.WF S5000x20 S20x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S100_S50000x1_S50000_n_0_0_1_wf : ScatterDims.WF S100 S50000x1 S50000 [] [0] [0] 1
  scatter_S128_S1_S100_0_n_0_0_wf : ScatterDims.WF S128 S1 S100 [0] [] [0] 0
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x20.size a ≤ S50000x20.size a
  hwx0_0 : ∀ i : grid0.Coords, EltTy.bits .f32 = 32 ∨ (Rect.block (s := S50000x20) S5000x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x20.size a ≤ S50000x20.size a
  hwx0_1 : ∀ i : grid0.Coords, EltTy.bits .f32 = 32 ∨ (Rect.block (s := S50000x20) S5000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x128.size a ≤ S20x128.size a
  hwx0_3 : ∀ i : grid0.Coords, EltTy.bits .f32 = 32 ∨ (Rect.block (s := S20x128) S20x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x128.size a ≤ S20x128.size a
  hwx0_5 : ∀ i : grid0.Coords, EltTy.bits .f32 = 32 ∨ (Rect.block (s := S20x128) S20x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .i32 = 32 ∨ (Rect.block (s := S50000x1) S5000x1.size (cc1_transform_6 i) (hinb1_6 i)).WholeWords (EltTy.packing .i32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x2.size a ≤ S128x2.size a
  hwx1_8 : ∀ i : grid1.Coords, EltTy.bits .f32 = 32 ∨ (Rect.block (s := S128x2) S128x2.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2.size a ≤ S1x2.size a
  hwx1_9 : ∀ i : grid1.Coords, EltTy.bits .f32 = 32 ∨ (Rect.block (s := S1x2) S1x2.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x2.size a ≤ S128x2.size a
  hwx1_10 : ∀ i : grid1.Coords, EltTy.bits .f32 = 32 ∨ (Rect.block (s := S128x2) S128x2.size (cc1_transform_10 i) (hinb1_10 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x20_S640000x1_S640000x20_1_0_n_n_0_1_120 : GatherDims S50000x20 S640000x1 S640000x20 where
  offsetDims := [1]
  collapsedSliceDims := [0]
  operandBatchingDims := []
  startIndicesBatchingDims := []
  startIndexMap := [0]
  indexVectorDim := 1
  sliceSizes := ![1, 20]
  wf := gather_S50000x20_S640000x1_S640000x20_1_0_n_n_0_1_120_wf
def scatter_S50000x20_S640000x1_S640000x20_1_0_0_1 : ScatterDims S50000x20 S640000x1 S640000x20 where
  updateWindowDims := [1]
  insertedWindowDims := [0]
  scatterDimsToOperandDims := [0]
  indexVectorDim := 1
  wf := scatter_S50000x20_S640000x1_S640000x20_1_0_0_1_wf
def dot_S5000x20_S20x128_S5000x128_1_0_0_1_n_n : DotDims S5000x20 S20x128 S5000x128 where
  lhsContracting := [1]
  rhsContracting := [0]
  lhsNonContracting := [0]
  rhsNonContracting := [1]
  lhsBatch := []
  rhsBatch := []
  wf := dot_S5000x20_S20x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def scatter_S128_S1_S100_0_n_0_0 : ScatterDims S128 S1 S100 where
  updateWindowDims := [0]
  insertedWindowDims := []
  scatterDimsToOperandDims := [0]
  indexVectorDim := 0
  wf := scatter_S128_S1_S100_0_n_0_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_arg0) S5000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S20x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S20x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v48) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S128x2.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16) S1x2.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v49) S128x2.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

class Facts : Prop extends Facts₀ where

variable [Facts]
-- ==== ReferenceIdeal.lean ====
abbrev S50000x20 : Shape := ⟨2, ![50000, 20]⟩
abbrev S2x640000 : Shape := ⟨2, ![2, 640000]⟩
abbrev S50000 : Shape := ⟨1, ![50000]⟩
abbrev S128x20 : Shape := ⟨2, ![128, 20]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x20 : Shape := ⟨2, ![640000, 20]⟩
abbrev S50000x1 : Shape := ⟨2, ![50000, 1]⟩
abbrev S20x128 : Shape := ⟨2, ![20, 128]⟩
abbrev S50000x128 : Shape := ⟨2, ![50000, 128]⟩
abbrev S1x128 : Shape := ⟨2, ![1, 128]⟩
abbrev S640000x128 : Shape := ⟨2, ![640000, 128]⟩
abbrev S100x128 : Shape := ⟨2, ![100, 128]⟩
abbrev S100 : Shape := ⟨1, ![100]⟩
abbrev S100x1 : Shape := ⟨2, ![100, 1]⟩
abbrev S128x2 : Shape := ⟨2, ![128, 2]⟩
abbrev S100x2 : Shape := ⟨2, ![100, 2]⟩
abbrev S1x2 : Shape := ⟨2, ![1, 2]⟩

abbrev nBuf : Space → Nat
  | .hbm => 108
  | .vmem => 0
  | .smem => 0
  | _ => 0

abbrev bufTy : (tb : Table) → Fin (tcTables nBuf tb) → BufTy
  | .hbm, ⟨0, _⟩ => ⟨S50000x20, .f32⟩
  | .hbm, ⟨1, _⟩ => ⟨S2x640000, .i32⟩
  | .hbm, ⟨2, _⟩ => ⟨S50000, .i32⟩
  | .hbm, ⟨3, _⟩ => ⟨S128x20, .f32⟩
  | .hbm, ⟨4, _⟩ => ⟨S128, .f32⟩
  | .hbm, ⟨5, _⟩ => ⟨S128x20, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S2x128, .f32⟩
  | .hbm, ⟨10, _⟩ => ⟨S2, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x20, .f32⟩
  | .hbm, ⟨24, _⟩ => ⟨S_, .f32⟩
  | .hbm, ⟨25, _⟩ => ⟨S50000x20, .f32⟩
  | .hbm, ⟨26, _⟩ => ⟨S640000x1, .i32⟩
  | .hbm, ⟨27, _⟩ => ⟨S50000x20, .f32⟩
  | .hbm, ⟨28, _⟩ => ⟨S_, .f32⟩
  | .hbm, ⟨29, _⟩ => ⟨S640000, .f32⟩
  | .hbm, ⟨30, _⟩ => ⟨S_, .f32⟩
  | .hbm, ⟨31, _⟩ => ⟨S50000, .f32⟩
  | .hbm, ⟨32, _⟩ => ⟨S640000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x20, .f32⟩
  | .hbm, ⟨39, _⟩ => ⟨S50000x20, .f32⟩
  | .hbm, ⟨40, _⟩ => ⟨S20x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S20x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S50000x128, .f32⟩
  | .hbm, ⟨62, _⟩ => ⟨S640000x1, .i32⟩
  | .hbm, ⟨63, _⟩ => ⟨S50000x128, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S50000, .f32⟩
  | .hbm, ⟨68, _⟩ => ⟨S640000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S100x128, .f32⟩
  | .hbm, ⟨89, _⟩ => ⟨S50000x1, .i32⟩
  | .hbm, ⟨90, _⟩ => ⟨S100x128, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S100, .f32⟩
  | .hbm, ⟨95, _⟩ => ⟨S50000x1, .i32⟩
  | .hbm, ⟨96, _⟩ => ⟨S100, .f32⟩
  | .hbm, ⟨97, _⟩ => ⟨S_, .f32⟩
  | .hbm, ⟨98, _⟩ => ⟨S100, .f32⟩
  | .hbm, ⟨99, _⟩ => ⟨S100, .f32⟩
  | .hbm, ⟨100, _⟩ => ⟨S100x1, .f32⟩
  | .hbm, ⟨101, _⟩ => ⟨S100x128, .f32⟩
  | .hbm, ⟨102, _⟩ => ⟨S100x128, .f32⟩
  | .hbm, ⟨103, _⟩ => ⟨S128x2, .f32⟩
  | .hbm, ⟨104, _⟩ => ⟨S100x2, .f32⟩
  | .hbm, ⟨105, _⟩ => ⟨S1x2, .f32⟩
  | .hbm, ⟨106, _⟩ => ⟨S100x2, .f32⟩
  | .hbm, ⟨107, _⟩ => ⟨S100x2, .f32⟩
  | _, _ => ⟨S50000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x20 : S_.BroadcastsInDim S50000x20 (![] : Fin 0 → Fin S50000x20.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x20_0_1 : S50000x1.BroadcastsInDim S50000x20 (![0, 1] : Fin 2 → Fin S50000x20.rank)
  transposes_S128x20_S20x128_1_0 : S128x20.Transposes [1, 0] S20x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S_S100x128 : S_.BroadcastsInDim S100x128 (![] : Fin 0 → Fin S100x128.rank)
  bcast_S_S100 : S_.BroadcastsInDim S100 (![] : Fin 0 → Fin S100.rank)
  bcast_S100_S100x1_0 : S100.BroadcastsInDim S100x1 (![0] : Fin 1 → Fin S100x1.rank)
  bcast_S100x1_S100x128_0_1 : S100x1.BroadcastsInDim S100x128 (![0, 1] : Fin 2 → Fin S100x128.rank)
  transposes_S2x128_S128x2_1_0 : S2x128.Transposes [1, 0] S128x2
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  gather_S50000x20_S640000x1_S640000x20_1_0_n_n_0_1_120_wf : GatherDims.WF S50000x20 S640000x1 S640000x20 [1] [0] [] [0] [] 1 ![1, 20]
  scatter_S50000x20_S640000x1_S640000x20_1_0_0_1_wf : ScatterDims.WF S50000x20 S640000x1 S640000x20 [1] [0] [0] 1
  scatter_S50000_S640000x1_S640000_n_0_0_1_wf : ScatterDims.WF S50000 S640000x1 S640000 [] [0] [0] 1
  dot_S50000x20_S20x128_S50000x128_1_0_0_1_n_n_wf : DotDims.WF S50000x20 S20x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []
  scatter_S100x128_S50000x1_S50000x128_1_0_0_1_wf : ScatterDims.WF S100x128 S50000x1 S50000x128 [1] [0] [0] 1
  scatter_S100_S50000x1_S50000_n_0_0_1_wf : ScatterDims.WF S100 S50000x1 S50000 [] [0] [0] 1
  dot_S100x128_S128x2_S100x2_1_0_0_1_n_n_wf : DotDims.WF S100x128 S128x2 S100x2 [1] [0] [0] [1] [] []

variable [Facts₀]

def gather_S50000x20_S640000x1_S640000x20_1_0_n_n_0_1_120 : GatherDims S50000x20 S640000x1 S640000x20 where
  offsetDims := [1]
  collapsedSliceDims := [0]
  operandBatchingDims := []
  startIndicesBatchingDims := []
  startIndexMap := [0]
  indexVectorDim := 1
  sliceSizes := ![1, 20]
  wf := gather_S50000x20_S640000x1_S640000x20_1_0_n_n_0_1_120_wf
def scatter_S50000x20_S640000x1_S640000x20_1_0_0_1 : ScatterDims S50000x20 S640000x1 S640000x20 where
  updateWindowDims := [1]
  insertedWindowDims := [0]
  scatterDimsToOperandDims := [0]
  indexVectorDim := 1
  wf := scatter_S50000x20_S640000x1_S640000x20_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x20_S20x128_S50000x128_1_0_0_1_n_n : DotDims S50000x20 S20x128 S50000x128 where
  lhsContracting := [1]
  rhsContracting := [0]
  lhsNonContracting := [0]
  rhsNonContracting := [1]
  lhsBatch := []
  rhsBatch := []
  wf := dot_S50000x20_S20x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S100x128_S50000x1_S50000x128_1_0_0_1 : ScatterDims S100x128 S50000x1 S50000x128 where
  updateWindowDims := [1]
  insertedWindowDims := [0]
  scatterDimsToOperandDims := [0]
  indexVectorDim := 1
  wf := scatter_S100x128_S50000x1_S50000x128_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x128_S128x2_S100x2_1_0_0_1_n_n : DotDims S100x128 S128x2 S100x2 where
  lhsContracting := [1]
  rhsContracting := [0]
  lhsNonContracting := [0]
  rhsNonContracting := [1]
  lhsBatch := []
  rhsBatch := []
  wf := dot_S100x128_S128x2_S100x2_1_0_0_1_n_n_wf

class Facts : Prop extends Facts₀ where

variable [Facts]
-- ==== Proof.Kernel.Region0.lean ====
/-
  The first pallas_call (the dense half of the first SAGE layer), at the contents `V` the TensorCore's buffers hold when
  the region is entered. Grid point t works on rows 5000·t … 5000·t + 4999: its six input windows hold the blocks of
  x, of the summed neighbour features, of the in-degree column, and the two weight matrices and the bias row whole; its
  one store writes relu((agg / max(deg, 1)) · Wlᵀ + b + x · Wrᵀ) for those rows into the output window. Nothing is kept
  between points. This module states what each window's staging buffer holds after the body and proves the body's
  triple at every point.
-/
import proofs.«426971_j26585847562498_2_alg».proof.Proof.Kernel.Launch
import proofs.«426971_j26585847562498_2_alg».proof.Proof.Gen.Kernel.Skeleton
import proofs.«426971_j26585847562498_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output window at point `t`: the layer's rows for that block, from the six input blocks
    (degree column, neighbour sums, left weights, bias row, x, right weights — the order the body loads them in). -/
def out0_6 (c : Dev nD) (t : Fin cfg0.N) : Vec F S5000x128 .f32 :=
  k0_pay1 (iblk0 V c 2 t) (iblk0 V c 1 t) (iblk0 V c 3 t) (iblk0 V c 4 t) (iblk0 V c 0 t) (iblk0 V c 5 t)

/-- The proof data of the first pallas_call on core `c`: the arrays as the region finds them; after the body at point `t`
    each input's buffer at its block and the output's at `out0_6`; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 V c t := by dsimp only [dat0]

/-! ## What each window's buffer holds after the body, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-! ## What the body finds in each input window's buffer

The row blocks of x, of the neighbour sums and of the degree column are fetched at every point; the two weight matrices
and the bias row are fetched at the first point only and their block index never moves. Either way the current buffer
holds the window's block: an input the body leaves in place holds what a fetch at that point would put there. -/

/-- The x rows of point t. -/
theorem before0_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The neighbour-sum rows of point t. -/
theorem before0_agg (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The degree rows of point t. -/
theorem before0_deg (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The left weight matrix, whole, at every point. -/
theorem before0_wl (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The bias row, whole, at every point. -/
theorem before0_bias (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- The right weight matrix, whole, at every point. -/
theorem before0_wr (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body's triple -/

/-- The zero offsets of a two-axis rectangle, as the body's accesses spell them. -/
theorem zeroOffsets2 : (![0, 0] : Fin 2 → Nat) = fun _ => 0 := funext fun a => by fin_cases a <;> rfl

/-- The one store goes through the output buffer's whole rectangle, so it covers every index, whatever it stores. -/
theorem whole_store_covers (w : S5000x128.Idx → Elt F .f32) (y : S5000x128.Idx) :
    ∃ pc ∈ ([⟨Rect.unit (s := S5000x128) ![0, 0] S5000x128.size inb_S5000x128_S5000x128_0_0, w⟩] :
      List (View.Piece (Elt F) S5000x128 .f32)), y ∈ pc.1.set :=
  ⟨_, List.mem_singleton_self _,
    View.mem_set_unit_zero (S := S5000x128) zeroOffsets2 inb_S5000x128_S5000x128_0_0 y⟩

/-- The body's one store, read back: the output buffer, whatever it held, after the store through its whole rectangle
    of the payload of the six whole-buffer loads, reads as the payload of the six buffers' contents. A load through the
    whole rectangle reads the contents; one covering store leaves its payload. -/
theorem stored_reads_payload {κ : Kind} {sp : Space} (v : View sig κ sp S5000x128 .f32) (f : v.ty.Contents (Elt F))
    (x : Vec F S5000x20 .f32) (agg : Vec F S5000x20 .f32) (deg : Vec F S5000x1 .f32)
    (wl : Vec F S20x128 .f32) (bias : Vec F S1x128 .f32) (wr : Vec F S20x128 .f32) :
    v.read (Elt F) (v.writes (Elt F) f
      [⟨Rect.unit (s := S5000x128) ![0, 0] S5000x128.size inb_S5000x128_S5000x128_0_0,
        k0_pay1 (View.ld deg (Rect.unit (s := S5000x1) ![0, 0] S5000x1.size inb_S5000x1_S5000x1_0_0))
          (View.ld agg (Rect.unit (s := S5000x20) ![0, 0] S5000x20.size inb_S5000x20_S5000x20_0_0))
          (View.ld wl (Rect.unit (s := S20x128) ![0, 0] S20x128.size inb_S20x128_S20x128_0_0))
          (View.ld bias (Rect.unit (s := S1x128) ![0, 0] S1x128.size inb_S1x128_S1x128_0_0))
          (View.ld x (Rect.unit (s := S5000x20) ![0, 0] S5000x20.size inb_S5000x20_S5000x20_0_0))
          (View.ld wr (Rect.unit (s := S20x128) ![0, 0] S20x128.size inb_S20x128_S20x128_0_0))⟩])
      = k0_pay1 deg agg wl bias x wr := by
  rw [View.read_writes_eq_canon v f _ (whole_store_covers _)]
  rw [View.canon_unit_zero (S := S5000x128) zeroOffsets2]
  rw [View.ld_unit_zero (S := S5000x1) zeroOffsets2, View.ld_unit_zero (S := S5000x20) zeroOffsets2,
    View.ld_unit_zero (S := S20x128) zeroOffsets2, View.ld_unit_zero (S := S1x128) zeroOffsets2,
    View.ld_unit_zero (S := S5000x20) zeroOffsets2, View.ld_unit_zero (S := S20x128) zeroOffsets2]

set_option maxHeartbeats 1000000 in
/-- The body on whole staging memrefs — the six inputs' at read contents, the output's at anything — runs to the
    continuation holding the inputs' as they were and the output's at the payload of the inputs' contents. -/
theorem dense_body_triple (c : Dev nD) (E : Set ℕ) (i : grid0.Coords)
    (arg1 : Memref sig .tc .vmem S5000x20 .f32) (harg1 : arg1.IsWhole) (arg2 : Memref sig .tc .vmem S5000x20 .f32) (harg2 : arg2.IsWhole)
    (arg3 : Memref sig .tc .vmem S5000x1 .f32) (harg3 : arg3.IsWhole) (arg4 : Memref sig .tc .vmem S20x128 .f32) (harg4 : arg4.IsWhole)
    (arg5 : Memref sig .tc .vmem S1x128 .f32) (harg5 : arg5.IsWhole) (arg6 : Memref sig .tc .vmem S20x128 .f32) (harg6 : arg6.IsWhole)
    (arg7 : Memref sig .tc .vmem S5000x128 .f32) (harg7 : arg7.IsWhole)
    (x : Vec F S5000x20 .f32) (agg : Vec F S5000x20 .f32) (deg : Vec F S5000x1 .f32)
    (wl : Vec F S20x128 .f32) (bias : Vec F S1x128 .f32) (wr : Vec F S20x128 .f32) (K : PUnit → sProp 𝕄) :
    iprop(owns (c : Thread nD τ) arg1 fullShare x ∗ owns (c : Thread nD τ) arg2 fullShare agg
        ∗ owns (c : Thread nD τ) arg3 fullShare deg ∗ owns (c : Thread nD τ) arg4 fullShare wl
        ∗ owns (c : Thread nD τ) arg5 fullShare bias ∗ owns (c : Thread nD τ) arg6 fullShare wr
        ∗ (∃ d, owns (c : Thread nD τ) arg7 fullShare d)
        ∗ (iprop(owns (c : Thread nD τ) arg1 fullShare x ∗ owns (c : Thread nD τ) arg2 fullShare agg
            ∗ owns (c : Thread nD τ) arg3 fullShare deg ∗ owns (c : Thread nD τ) arg4 fullShare wl
            ∗ owns (c : Thread nD τ) arg5 fullShare bias ∗ owns (c : Thread nD τ) arg6 fullShare wr
            ∗ owns (c : Thread nD τ) arg7 fullShare (k0_pay1 deg agg wl bias x wr)) -∗ K ⟨⟩))
      ⊢ wp frame (wpE (defs₀ (F := F)) Variants.none c none) E
          (cc0__sage_dense_kernel i arg1 harg1 arg2 harg2 arg3 harg3 arg4 harg4 arg5 harg5 arg6 harg6 arg7 harg7) K := by
  simp only [cc0__sage_dense_kernel_eq_skeleton]; unfold cc0__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact stored_reads_payload _ _ _ _ _ _ _ _

/-! ## The body obligation, at a generic point -/

/-- What the body is called with at point t: the invariant, nothing owed, and each window's current buffer — the inputs'
    at what the pipeline left there, the output's at anything. -/
def denseBodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant, nothing owed, the inputs' buffers as found and the output's at the layer's rows. -/
def denseBodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies at the six blocks; the
    invariant and what is owed pass through unread. -/
theorem dense_body_at (c : Dev nD) (t : Fin cfg0.N) :
    denseBodyPre V c t ⊢ wp frame (wpE (defs₀ (F := F)) Variants.none c none) Set.univ (bodyAt0 t) (fun _ => denseBodyPost V c t) := by
  unfold denseBodyPre denseBodyPost bodyAt0
  simp only [before0_x, before0_agg, before0_deg, before0_wl, before0_bias, before0_wr]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold out0_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply (dense_body_triple c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the first pallas_call, at every point. -/
theorem body_obligation0 (c : Dev nD) : BodyObligation (dat0 (F := F) V c) (defs₀ (F := F)) Variants.none () Set.univ := by
  intro t
  rw [bigSep_W0, bigSep_W0]
  exact dense_body_at V c t

end Region0

end Cert.Kernel.Hand

end
-- ==== Proof.Kernel.Region1Defs.lean ====
/-
  The second pallas_call (the dense half of the second SAGE layer fused with the mean pool and the classifier), at the
  contents `V` the TensorCore's buffers hold when the region is entered. Grid point t works on rows 5000·t … 5000·t + 4999:
  it forms h2 = relu((agg / max(deg, 1)) · Wlᵀ + b + h · Wrᵀ) for those rows, multiplies the transposed one-hot matrix of
  the rows' graph ids with it, and adds the product to a 128×128 scratch that is zeroed at the first point and carried
  from point to point. At the last point the scratch, divided row by row by max(count, 1), times the classifier's
  weights plus its bias, is stored into the output window; at every other point the output window is left alone.
  This module states what the scratch holds after each point and what the output window holds after the last.
-/
import proofs.«426971_j26585847562498_2_alg».proof.Proof.Kernel.Launch
import proofs.«426971_j26585847562498_2_alg».proof.Proof.Gen.Kernel.Skeleton
import proofs.«426971_j26585847562498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The product the body forms at point `t`: the transposed one-hot matrix of the block's graph ids times the block's
    rows of h2, from the seven input blocks the first part of the body loads (degree column, neighbour sums, left
    weights, bias row, h, right weights, graph ids — the order the body loads them in). -/
def part1 (c : Dev nD) (t : Fin cfg1.N) : FVec F S128x128 .f32 :=
  k1_pay4 (iblk1 V c 2 t) (iblk1 V c 1 t) (iblk1 V c 3 t) (iblk1 V c 4 t) (iblk1 V c 0 t) (iblk1 V c 5 t) (iblk1 V c 6 t)

/-- The same at a position given as a number (the zero matrix past the grid, which nothing reads). -/
def partAt1 (c : Dev nD) (n : ℕ) : FVec F S128x128 .f32 :=
  if h : n < cfg1.N then part1 V c ⟨n, h⟩ else k1_pay3 (F := F)

/-- THE ACCUMULATION. What the scratch holds after the body at position `n`: at the first point the zero matrix plus the
    point's product, afterwards what the point before left plus the point's product. -/
def accAt1 (c : Dev nD) : ℕ → Vec F S128x128 .f32
  | 0 => k1_pay1 (k1_pay3 (F := F)) (partAt1 V c 0)
  | n + 1 => k1_pay1 (accAt1 c n) (partAt1 V c (n + 1))

/-- What the body stores into the output window at the last point (stated at any point; read only at the last): the
    pooled means times the classifier's weights plus its bias, from the scratch after that point and the count column,
    the classifier's weights and its bias row. -/
def out1_10 (c : Dev nD) (t : Fin cfg1.N) : Vec F S128x2 .f32 :=
  k1_pay2 (accAt1 V c t.val) (iblk1 V c 7 t) (iblk1 V c 8 t) (iblk1 V c 9 t)

/-- The scratch the kernel carries between points: a whole scoped buffer of its own. -/
abbrev scM1 : Memref sig .tc .vmem S128x128 .f32 := Memref.whole cc1_scratch0

/-- The region invariant before position `n`: before the first point the scoped rest at anything and the generator
    register; afterwards the scratch at what the point before left in it, the core's other scoped buffers that are no
    staging buffer of this call at anything, and the generator register. -/
def PhiS (c : Dev nD) : ℕ → sProp 𝕄
  | 0 => Pipeline.ΦA spec1 c
  | n + 1 => iprop(owns (c : Thread nD τ) scM1 fullShare (accAt1 V c n)
      ∗ Pipeline.scopedRestBut (Ix := Unit) (Name := ℕ) (U := UR sig nD τ) (Lvl := ℕ) (Val := Elt F) spec1 c [cc1_scratch0]
      ∗ (∃ r, prngReg c r))

/-- The proof data of the second pallas_call on core `c`: the arrays as the region finds them; after the body at point `t`
    each input's buffer at its block and the output's at `out1_10` (consulted at the last point only: elsewhere the window
    is idle and not written back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 V c t
  Φ t := PhiS V c t.val
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 V c t := by dsimp only [dat1]

end Region1

end Cert.Kernel.Hand

end
-- ==== Proof.Kernel.RunDefs.lean ====
/-
  The contents of the TensorCore's buffers at the boundaries between the host operations and the two pallas_calls:
  the launch contents; the host operations' results; in the first call's result array what its ten blocks' write-backs
  leave (the first layer's activations); more host results; in the second call's result array what its one
  write-back at the last point leaves.
-/
import proofs.«426971_j26585847562498_2_alg».proof.Proof.Kernel.Launch
import proofs.«426971_j26585847562498_2_alg».proof.Proof.Gen.Kernel.Skeleton
import proofs.«426971_j26585847562498_2_alg».proof.Proof.Gen.Kernel.Points
import proofs.«426971_j26585847562498_2_alg».proof.Proof.Kernel.Regions
import proofs.«426971_j26585847562498_2_alg».proof.Proof.Kernel.Region0
import proofs.«426971_j26585847562498_2_alg».proof.Proof.Kernel.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the first call is entered, read at the TensorCore's references. -/
abbrev Vr1 (c : Dev nD) (b : Ref sig .tc) : Buf (Elt F) ((c : Thread nD τ).loc b) := V1 m c b

/-- What the first call leaves in its result array: the first layer's activations. -/
def h1Arr (c : Dev nD) : Buf (Elt F) ((c : Thread nD τ).loc main_v27) := (dat0 (Vr1 m) c).arrAt 6 cfg0.N

/-- The buffers after the first call. -/
abbrev W2 (c : Dev nD) : Valuation τ sig (Elt F) := Function.update (V1 m c) main_v27 (h1Arr m c)
/-- The buffers when the second call is entered. -/
abbrev W3 (c : Dev nD) : Valuation τ sig (Elt F) := StableHlo.after hostOps1 (W2 m c)
/-- The same read at the TensorCore's references. -/
abbrev Vr3 (c : Dev nD) (b : Ref sig .tc) : Buf (Elt F) ((c : Thread nD τ).loc b) := W3 m c b

/-- What the second call leaves in its result array: the classifier's output over the 128 padded graph rows. -/
def outArr (c : Dev nD) : Buf (Elt F) ((c : Thread nD τ).loc main_v49) := (dat1 (Vr3 m) c).arrAt 10 cfg1.N

/-- What the two calls leave, as the family the boundary valuations are written over. -/
def outs : Outs (F := F) := fun _ r c =>
  if h : r = main_v27 then h ▸ h1Arr m c
  else if h' : r = main_v49 then h' ▸ outArr m c
  else m ((c : Thread nD τ).loc r)

end Cert.Kernel.Hand

end
-- ==== Proof.Kernel.Run.lean ====
/-
  The whole program as a run. Between the two pallas_calls and the host operations around them the TensorCore's
  buffers hold: the launch contents; then the host operations' results; then, in the first call's result array, the
  first layer's activations (what its ten blocks' write-backs leave); then more host results; then, in the second
  call's result array, what its one write-back at the last point leaves. Each call is entered with the arrays its
  windows read split out of the buffers and left with them put back; the generator register and the core's empty
  debts ride along. Every weakly fair execution terminates, the arguments end as launched, and the result is the last
  host operation's slice of the second call's result array.
-/
import proofs.«426971_j26585847562498_2_alg».proof.Proof.Kernel.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem outs_v27 (j : ℕ) (c : Dev nD) : outs m j main_v27 c = h1Arr m c := by
  unfold outs; rw [dif_pos rfl]

theorem outs_v49 (j : ℕ) (c : Dev nD) : outs m j main_v49 c = outArr m c := by
  unfold outs; rw [dif_neg (by decide), dif_pos rfl]

/-- With that family the generated boundary valuations are the ones above. -/
theorem V2_eq (c : Dev nD) : V2 m (outs m) c = W2 m c := by
  exact congrArg (Function.update (V1 m c) (Proc.devRef .tc main_v27 : DevRef τ sig)) (outs_v27 m 2 c)

theorem V3_eq (c : Dev nD) : V3 m (outs m) c = W3 m c := by
  show StableHlo.after hostOps1 (V2 m (outs m) c) = _
  rw [V2_eq]

/-! ## The proof data of the two calls, and what rides beside the buffers -/

/-- Both calls' proof data, each at the contents its call is entered with. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c

/-- No level is assigned: no core owes another anything. -/
abbrev noLevels : GSem nD τ sig → Finset Unit := fun _ => ∅
abbrev levelZero : GSem nD τ sig → Unit → ℕ := fun _ _ => 0

/-- What rides beside the buffers between any two items: the generator register at some state and the core's debts,
    none. -/
abbrev beside (c : Dev nD) : sProp 𝕄 :=
  iprop((∃ r, prngReg c r) ∗ ∃ W, owes (c : Thread nD τ) (0 : CellTallies nD τ sig Unit) W)

/-! ## What each call leaves in its arrays -/

/-- After the first call each of its arrays holds what the boundary valuation says: an input array what it held when
    the call was entered, the result array the folded write-backs. -/
theorem arrays_after0 (c : Dev nD) (w : Fin cfg0.W) :
    (pdats m 0 c).arrAt w cfg0.N = V2 m (outs m) c (Pipeline.arrRef spec0 w) := by
  show (dat0 (Vr1 m) c).arrAt w cfg0.N = _
  match w with
  | ⟨0, _⟩ => exact (((dat0 (Vr1 m) c).arrAt_in 0 rfl _).trans (A_eq0 (Vr1 m) c 0)).trans (V2_of m (outs m) c _ (by decide)).symm
  | ⟨1, _⟩ => exact (((dat0 (Vr1 m) c).arrAt_in 1 rfl _).trans (A_eq0 (Vr1 m) c 1)).trans (V2_of m (outs m) c _ (by decide)).symm
  | ⟨2, _⟩ => exact (((dat0 (Vr1 m) c).arrAt_in 2 rfl _).trans (A_eq0 (Vr1 m) c 2)).trans (V2_of m (outs m) c _ (by decide)).symm
  | ⟨3, _⟩ => exact (((dat0 (Vr1 m) c).arrAt_in 3 rfl _).trans (A_eq0 (Vr1 m) c 3)).trans (V2_of m (outs m) c _ (by decide)).symm
  | ⟨4, _⟩ => exact (((dat0 (Vr1 m) c).arrAt_in 4 rfl _).trans (A_eq0 (Vr1 m) c 4)).trans (V2_of m (outs m) c _ (by decide)).symm
  | ⟨5, _⟩ => exact (((dat0 (Vr1 m) c).arrAt_in 5 rfl _).trans (A_eq0 (Vr1 m) c 5)).trans (V2_of m (outs m) c _ (by decide)).symm
  | ⟨6, _⟩ =>
    show h1Arr m c = Function.update (V1 m c) main_v27 (outs m 2 main_v27 c) main_v27
    rw [Function.update_self, outs_v27]

/-- Every other buffer is as the first call found it. -/
theorem rest_after0 (c : Dev nD) :
    ∀ b : Ref sig .tc, b ∉ Finset.univ.image (Pipeline.arrRef spec0) → V2 m (outs m) c b = Vr1 m c b :=
  fun b hb => V2_of m (outs m) c b fun h => hb (by
    rw [List.mem_singleton] at h; subst h
    exact Finset.mem_image.mpr ⟨6, Finset.mem_univ _, rfl⟩)

/-- The buffers after the first call, read at the TensorCore's references. -/
abbrev Vr2 (c : Dev nD) (b : Ref sig .tc) : Buf (Elt F) ((c : Thread nD τ).loc b) := V2 m (outs m) c b
/-- The buffers after the second call, read at the TensorCore's references. -/
abbrev Vr4 (c : Dev nD) (b : Ref sig .tc) : Buf (Elt F) ((c : Thread nD τ).loc b) := V4 m (outs m) c b

/-- An input array of the second call holds after it what it held when the call was entered: the boundary valuation
    there, its reference not being the result array's. -/
theorem input_after1 (c : Dev nD) (w : Fin cfg1.W) (hin : (cfg1.win w).isOut = false)
    (hne : Pipeline.arrRef spec1 w ∉ ([main_v49] : List (Ref sig .tc))) :
    (dat1 (Vr3 m) c).arrAt w cfg1.N = V4 m (outs m) c (Pipeline.arrRef spec1 w) :=
  (((dat1 (Vr3 m) c).arrAt_in w hin _).trans (A_eq1 (Vr3 m) c w)).trans
    ((V4_of m (outs m) c _ hne).trans (congrFun (V3_eq m c) _)).symm

/-- After the second call each of its arrays holds what the boundary valuation says: an input array what it held when
    the call was entered, the result array what the one write-back at the last point leaves. -/
theorem arrays_after1 (c : Dev nD) (w : Fin cfg1.W) :
    (pdats m 1 c).arrAt w cfg1.N = V4 m (outs m) c (Pipeline.arrRef spec1 w) := by
  show (dat1 (Vr3 m) c).arrAt w cfg1.N = _
  match w with
  | ⟨0, _⟩ => exact input_after1 m c 0 rfl (by decide)
  | ⟨1, _⟩ => exact input_after1 m c 1 rfl (by decide)
  | ⟨2, _⟩ => exact input_after1 m c 2 rfl (by decide)
  | ⟨3, _⟩ => exact input_after1 m c 3 rfl (by decide)
  | ⟨4, _⟩ => exact input_after1 m c 4 rfl (by decide)
  | ⟨5, _⟩ => exact input_after1 m c 5 rfl (by decide)
  | ⟨6, _⟩ => exact input_after1 m c 6 rfl (by decide)
  | ⟨7, _⟩ => exact input_after1 m c 7 rfl (by decide)
  | ⟨8, _⟩ => exact input_after1 m c 8 rfl (by decide)
  | ⟨9, _⟩ => exact input_after1 m c 9 rfl (by decide)
  | ⟨10, _⟩ =>
    show outArr m c = Function.update (V3 m (outs m) c) main_v49 (outs m 4 main_v49 c) main_v49
    rw [Function.update_self, outs_v49]

/-- Every other buffer is as the second call found it. -/
theorem rest_after1 (c : Dev nD) :
    ∀ b : Ref sig .tc, b ∉ Finset.univ.image (Pipeline.arrRef spec1) → V4 m (outs m) c b = Vr3 m c b :=
  fun b hb => (V4_of m (outs m) c b fun h => hb (by
    rw [List.mem_singleton] at h; subst h
    exact Finset.mem_image.mpr ⟨10, Finset.mem_univ _, rfl⟩)).trans (congrFun (V3_eq m c) _)

/-- The second call is entered from the buffers as the host operations after the first call leave them. -/
theorem enter1 (c : Dev nD) :
    iprop(StableHlo.held (c : Thread nD τ) (Pipeline.ucRefs τ sig) (V3 m (outs m) c) ∗ beside (F := F) c)
      ⊢ iprop(StableHlo.held (c : Thread nD τ) (Pipeline.ucRefs τ sig) (W3 m c) ∗ beside (F := F) c) := by
  rw [V3_eq]

/-! ## The two calls as segments of the run -/

set_option backward.isDefEq.respectTransparency.types false in
/-- THE FIRST CALL: entered from every unscoped buffer at the host operations' results, left with the result array at
    the first layer's activations and every other buffer as entered. Its seven arrays are split out of the buffers at
    entry and put back at exit; the generator register goes into the call's invariant and comes back; nothing is owed;
    the kernel has no semaphore of its own. -/
def reg0 : Pipeline.RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ noLevels levelZero 0 fun _ _ => rfl
  pre c := iprop(StableHlo.held (c : Thread nD τ) (Pipeline.ucRefs τ sig) (V1 m c) ∗ beside c)
  post c := iprop(StableHlo.held (c : Thread nD τ) (Pipeline.ucRefs τ sig) (V2 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (arrays_after0 m c) (rest_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL: entered from every unscoped buffer at the host operations' results over the first call's
    activations, left with the result array at the classifier's output and every other buffer as entered. Its eleven
    arrays are split out of the buffers at entry and put back at exit; the generator register and the scoped rest go
    into the invariant before the first point and come back from the one after the last, where the scratch's named
    contents are forgotten; nothing is owed; the kernel has no semaphore of its own. -/
def reg1
    (hb1 : ∀ (V : (c : Dev nD) → (b : Ref sig .tc) → Buf (Elt F) ((c : Thread nD τ).loc b)) (c : Dev nD),
      BodyObligation (dat1 (F := F) V c) (defs₀ (F := F)) Variants.none () Set.univ)
    (hin1 : ∀ V c, Pipeline.ΦA spec1 c ⊢ (dat1 (F := F) V c).Φ 0)
    (hout1 : ∀ V c, (dat1 (F := F) V c).Φ (Fin.last cfg1.N) ⊢ Pipeline.ΦA spec1 c) :
    Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (hb1 (Vr3 m) c).loose
  hwaits := Pipeline.hwaits_of_owed_zero _ _ _ _ noLevels levelZero 1 fun _ _ => rfl
  pre c := iprop(StableHlo.held (c : Thread nD τ) (Pipeline.ucRefs τ sig) (W3 m c) ∗ beside c)
  post c := iprop(StableHlo.held (c : Thread nD τ) (Pipeline.ucRefs τ sig) (V4 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (Vr3 m) c)
    unfold Pipeline.ΦA
    iintro ⟨Hp, -, Hr⟩
    isplitl [Hr]; · iexact Hr
    iexact Hp
  hout c := by
    rw [Pipeline.ownSems0_none]
    refine (hout1 (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (arrays_after1 m c) (rest_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: every weakly fair execution of the program from memory `m` with zero counters terminates; the result
    buffer holds the last host operation's value over the boundary valuations, and every argument is as launched. -/
theorem run
    (hb1 : ∀ (V : (c : Dev nD) → (b : Ref sig .tc) → Buf (Elt F) ((c : Thread nD τ).loc b)) (c : Dev nD),
      BodyObligation (dat1 (F := F) V c) (defs₀ (F := F)) Variants.none () Set.univ)
    (hin1 : ∀ V c, Pipeline.ΦA spec1 c ⊢ (dat1 (F := F) V c).Φ 0)
    (hout1 : ∀ V c, (dat1 (F := F) V c).Φ (Fin.last cfg1.N) ⊢ Pipeline.ΦA spec1 c) : θ_run defs (onTc (τ := τ) (main (F := F))) ⟨m, fun _ => 0, ρ⟩ (fun r => ∀ c : Dev nD,
      r.2.mem ((c.tc : Thread nD τ).loc main_v50) = V5 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := Variants.none) (L := noLevels) (lv := levelZero) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => beside c)
    (hE0 := by
      refine Pipeline.initEach noLevels levelZero fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m hb1 hin1 hout1) (hpre1 := enter1 m) (hpost1 := fun _ => .rfl)

end Cert.Kernel.Hand

end
-- ==== Proof.Kernel.Region1.lean ====
/-
  The second pallas_call (the dense half of the second SAGE layer fused with the mean pool and the classifier), at the
  contents `V` the TensorCore's buffers hold when the region is entered. Grid point t works on rows 5000·t … 5000·t + 4999:
  it forms h2 = relu((agg / max(deg, 1)) · Wlᵀ + b + h · Wrᵀ) for those rows, multiplies the transposed one-hot matrix of
  the rows' graph ids with it, and adds the product to a 128×128 scratch that is zeroed at the first point and carried
  from point to point. At the last point the scratch, divided row by row by max(count, 1), times the classifier's
  weights plus its bias, is stored into the output window; at every other point the output window is left alone.
  This module proves the body's triple at every point: the body's run in each of its three control cases (first point,
  a middle point, last point), each over whole-buffer loads and stores, and from them the obligation against what the
  scratch holds after each point and what the output window holds after the last.
-/
import proofs.«426971_j26585847562498_2_alg».proof.Proof.Kernel.Region1Defs
import proofs.«426971_j26585847562498_2_alg».proof.Proof.Kernel.Launch
import proofs.«426971_j26585847562498_2_alg».proof.Proof.Gen.Kernel.Skeleton
import proofs.«426971_j26585847562498_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The body's first branch (the scratch is zeroed) is taken where the grid coordinate is 0. -/
abbrev condFirst1 (i : grid1.Coords) : Prop :=
  (Scalar.cmpi .ne (Scalar.extui (Scalar.cmpi .eq (BitVec.ofNat 32 (i 0).val) 0#32)) 0#32) = 1#1
theorem hcondFirst1 : ∀ t : Fin cfg1.N, condFirst1 (grid1.coords t) ↔ t.val = 0 :=
  (by decide +kernel : ∀ t : Fin grid1.N, condFirst1 (grid1.coords t) ↔ t.val = 0)

/-- The body's second branch (the pooled means and the classifier are stored) is taken where the coordinate is 9. -/
abbrev condLast1 (i : grid1.Coords) : Prop := k1_cond2 i = 1#1
theorem hcondLast1 : ∀ t : Fin cfg1.N, condLast1 (grid1.coords t) ↔ t.val = 9 :=
  (by decide +kernel : ∀ t : Fin grid1.N, condLast1 (grid1.coords t) ↔ t.val = 9)

/-- The zero offsets of a rank-two rectangle, as the constant function. -/
theorem off00 : (![0, 0] : Fin 2 → Nat) = fun _ => 0 := by
  funext a; fin_cases a <;> rfl

set_option maxHeartbeats 4000000 in
/-- THE FIRST point (the first branch taken, the second not). From the seven input memrefs at blocks `x0 … x6` and the
    scratch at anything, the body runs to the same inputs and the scratch at the zero matrix plus the point's product:
    the scratch is zeroed whole, read back whole, and stored whole. -/
theorem run1_first (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x1 .i32) (harg7 : arg7.IsWhole) (arg8 : Memref sig .tc .vmem S128x1 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S128x2 .f32) (harg11 : arg11.IsWhole) (arg12 : Memref sig .tc .vmem S128x128 .f32) (harg12 : arg12.IsWhole)
    (hc0 : condFirst1 i) (hc1 : ¬condLast1 i) (x0 : Vec F S5000x128 .f32) (x1 : Vec F S5000x128 .f32) (x2 : Vec F S5000x1 .f32) (x3 : Vec F S128x128 .f32) (x4 : Vec F S1x128 .f32) (x5 : Vec F S128x128 .f32) (x6 : Vec F S5000x1 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg12 fullShare (k1_pay1 (k1_pay3 (F := F)) (k1_pay4 x2 x1 x3 x4 x0 x5 x6))) -∗ K ⟨⟩))
      ⊢ wp frame (wpE (defs₀ (F := F)) Variants.none c none) E (cc1__sage_conv2_pool_kernel i arg1 harg1 arg2 harg2 arg3 harg3 arg4 harg4 arg5 harg5 arg6 harg6 arg7 harg7 arg8 harg8 arg9 harg9 arg10 harg10 arg11 harg11 arg12 harg12) K := by
  simp only [cc1__sage_conv2_pool_kernel_eq_skeleton]; unfold cc1__sage_conv2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS
  ipureintro
  rw [View.read_writes_eq_canon _ _ _ (fun y => ⟨_, List.mem_cons_self, View.mem_set_unit_zero off00 inb_S128x128_S128x128_0_0 y⟩)]
  sl_unfold_words
  rw [View.canon_cons_unit_zero off00, View.readCov_unit_zero _ off00]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]

set_option maxHeartbeats 4000000 in
/-- A MIDDLE point (neither branch taken). From the seven input memrefs of the first part at blocks `x0 … x6` and the
    scratch at `s`, the body runs to the same inputs and the scratch at `s` plus the point's product: its one store into
    the scratch is through the whole-buffer rectangle, and the loads read the buffers whole. -/
theorem run1_mid (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x1 .i32) (harg7 : arg7.IsWhole) (arg8 : Memref sig .tc .vmem S128x1 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S128x2 .f32) (harg11 : arg11.IsWhole) (arg12 : Memref sig .tc .vmem S128x128 .f32) (harg12 : arg12.IsWhole)
    (hc0 : ¬condFirst1 i) (hc1 : ¬condLast1 i) (x0 : Vec F S5000x128 .f32) (x1 : Vec F S5000x128 .f32) (x2 : Vec F S5000x1 .f32) (x3 : Vec F S128x128 .f32) (x4 : Vec F S1x128 .f32) (x5 : Vec F S128x128 .f32) (x6 : Vec F S5000x1 .i32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg12 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg12 fullShare (k1_pay1 s (k1_pay4 x2 x1 x3 x4 x0 x5 x6))) -∗ K ⟨⟩))
      ⊢ wp frame (wpE (defs₀ (F := F)) Variants.none c none) E (cc1__sage_conv2_pool_kernel i arg1 harg1 arg2 harg2 arg3 harg3 arg4 harg4 arg5 harg5 arg6 harg6 arg7 harg7 arg8 harg8 arg9 harg9 arg10 harg10 arg11 harg11 arg12 harg12) K := by
  simp only [cc1__sage_conv2_pool_kernel_eq_skeleton]; unfold cc1__sage_conv2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg12.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS
  ipureintro
  rw [View.read_writes_eq_canon _ _ _ (fun y => ⟨_, List.mem_singleton_self _, View.mem_set_unit_zero off00 inb_S128x128_S128x128_0_0 y⟩)]
  sl_unfold_words
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]

set_option maxHeartbeats 4000000 in
/-- THE LAST point (the first branch not taken, the second taken). From the seven input memrefs at blocks `x0 … x6`, the
    count column, the classifier's weights and its bias row at `x7`, `x8`, `x9`, the output window at anything and the
    scratch at `s`, the body runs to the same inputs, the scratch at `s` plus the point's product, and the output window
    at the pooled means times the classifier's weights plus its bias, formed from the scratch as just stored (the load
    after the whole-buffer store reads the stored value). -/
theorem run1_last (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x1 .i32) (harg7 : arg7.IsWhole) (arg8 : Memref sig .tc .vmem S128x1 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S128x2 .f32) (harg11 : arg11.IsWhole) (arg12 : Memref sig .tc .vmem S128x128 .f32) (harg12 : arg12.IsWhole)
    (hc0 : ¬condFirst1 i) (hc1 : condLast1 i) (x0 : Vec F S5000x128 .f32) (x1 : Vec F S5000x128 .f32) (x2 : Vec F S5000x1 .f32) (x3 : Vec F S128x128 .f32) (x4 : Vec F S1x128 .f32) (x5 : Vec F S128x128 .f32) (x6 : Vec F S5000x1 .i32) (x7 : Vec F S128x1 .f32) (x8 : Vec F S128x2 .f32) (x9 : Vec F S1x2 .f32)
    (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ owns (c : Thread nD τ) arg12 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k1_pay2 (k1_pay1 s (k1_pay4 x2 x1 x3 x4 x0 x5 x6)) x7 x8 x9)
            ∗ owns (c : Thread nD τ) arg12 fullShare (k1_pay1 s (k1_pay4 x2 x1 x3 x4 x0 x5 x6))) -∗ K ⟨⟩))
      ⊢ wp frame (wpE (defs₀ (F := F)) Variants.none c none) E (cc1__sage_conv2_pool_kernel i arg1 harg1 arg2 harg2 arg3 harg3 arg4 harg4 arg5 harg5 arg6 harg6 arg7 harg7 arg8 harg8 arg9 harg9 arg10 harg10 arg11 harg11 arg12 harg12) K := by
  simp only [cc1__sage_conv2_pool_kernel_eq_skeleton]; unfold cc1__sage_conv2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg12.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_words
    rw [View.read_writes_eq_canon _ _ _ (fun y => ⟨_, List.mem_singleton_self _, View.mem_set_unit_zero off00 inb_S128x2_S128x2_0_0 y⟩)]
    rw [View.canon_unit_zero off00, View.readCov_unit_zero _ off00]
    simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]
  iexists _; isplitr
  swap; · iexact HS
  ipureintro
  sl_unfold_words
  rw [View.read_writes_eq_canon _ _ _ (fun y => ⟨_, List.mem_singleton_self _, View.mem_set_unit_zero off00 inb_S128x128_S128x128_0_0 y⟩)]
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]

/-- Each window's current staging memref at point `t`, spelled as the pipeline passes it to the body, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x2 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S128x2 .f32 := win1_10.stage (cfg1.slots t 10)
abbrev hs1_10 (t : Fin cfg1.N) : (ms1_10 t).IsWhole := hstage1_10 ((cfg1.slots t 10).cast nbuf1_10)

/-- What the body leaves in each input window: its block, untouched (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]

/-- Each input window's current staging buffer holds its block at every point, fetched there or not: where it is not
    fetched its block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)

/-- An input window is never idle: the body's post for it is its buffer at what the body leaves, its block. -/
theorem leaves1_0 (c : Dev nD) (t : Fin cfg1.N) :
    (dat1 V c).leavesExact 0 t = owns (c : Thread nD τ) (ms1_0 t) fullShare (iblk1 V c 0 t) := by
  rw [← after1_0 V c t]
theorem leaves1_1 (c : Dev nD) (t : Fin cfg1.N) :
    (dat1 V c).leavesExact 1 t = owns (c : Thread nD τ) (ms1_1 t) fullShare (iblk1 V c 1 t) := by
  rw [← after1_1 V c t]
theorem leaves1_2 (c : Dev nD) (t : Fin cfg1.N) :
    (dat1 V c).leavesExact 2 t = owns (c : Thread nD τ) (ms1_2 t) fullShare (iblk1 V c 2 t) := by
  rw [← after1_2 V c t]
theorem leaves1_3 (c : Dev nD) (t : Fin cfg1.N) :
    (dat1 V c).leavesExact 3 t = owns (c : Thread nD τ) (ms1_3 t) fullShare (iblk1 V c 3 t) := by
  rw [← after1_3 V c t]
theorem leaves1_4 (c : Dev nD) (t : Fin cfg1.N) :
    (dat1 V c).leavesExact 4 t = owns (c : Thread nD τ) (ms1_4 t) fullShare (iblk1 V c 4 t) := by
  rw [← after1_4 V c t]
theorem leaves1_5 (c : Dev nD) (t : Fin cfg1.N) :
    (dat1 V c).leavesExact 5 t = owns (c : Thread nD τ) (ms1_5 t) fullShare (iblk1 V c 5 t) := by
  rw [← after1_5 V c t]
theorem leaves1_6 (c : Dev nD) (t : Fin cfg1.N) :
    (dat1 V c).leavesExact 6 t = owns (c : Thread nD τ) (ms1_6 t) fullShare (iblk1 V c 6 t) := by
  rw [← after1_6 V c t]
theorem leaves1_7 (c : Dev nD) (t : Fin cfg1.N) :
    (dat1 V c).leavesExact 7 t = owns (c : Thread nD τ) (ms1_7 t) fullShare (iblk1 V c 7 t) := by
  rw [← after1_7 V c t]
theorem leaves1_8 (c : Dev nD) (t : Fin cfg1.N) :
    (dat1 V c).leavesExact 8 t = owns (c : Thread nD τ) (ms1_8 t) fullShare (iblk1 V c 8 t) := by
  rw [← after1_8 V c t]
theorem leaves1_9 (c : Dev nD) (t : Fin cfg1.N) :
    (dat1 V c).leavesExact 9 t = owns (c : Thread nD τ) (ms1_9 t) fullShare (iblk1 V c 9 t) := by
  rw [← after1_9 V c t]

/-- Where the second branch is not taken the configuration calls the output window idle, and the pipeline does not write
    its block back there; where it is taken the window is live. Decided over the grid. -/
theorem idleAt1_10 : ∀ t : Fin cfg1.N, ¬condLast1 (grid1.coords t) → cfg1.idle 10 (grid1.coords t) = true := by decide +kernel
theorem noFlush1_10 : ∀ t : Fin cfg1.N, ¬condLast1 (grid1.coords t) → (cfg1.win 10).flush t = false := by decide +kernel
theorem liveAt1_10 : ∀ t : Fin cfg1.N, condLast1 (grid1.coords t) → cfg1.idle 10 (grid1.coords t) = false := by decide +kernel

/-- The core's scoped buffers that are no staging buffer of this call, with the call's scratch split off and owned as a
    memref at some contents; beside them the generator register. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, scM1, owns_whole]; try rfl

/-- The invariant before the first point, and before any later one. -/
theorem PhiS_zero (c : Dev nD) (n : ℕ) (hz : n = 0) : PhiS V c n = Pipeline.ΦA spec1 c := by
  subst hz; rfl
theorem PhiS_succ (c : Dev nD) (n : ℕ) :
    PhiS V c (n + 1) = iprop(owns (c : Thread nD τ) scM1 fullShare (accAt1 V c n)
      ∗ Pipeline.scopedRestBut (Ix := Unit) (Name := ℕ) (U := UR sig nD τ) (Lvl := ℕ) (Val := Elt F) spec1 c [cc1_scratch0]
      ∗ (∃ r, prngReg c r)) := rfl
theorem PhiS_pos (c : Dev nD) (n : ℕ) (hz : n ≠ 0) :
    PhiS V c n = iprop(owns (c : Thread nD τ) scM1 fullShare (accAt1 V c (n - 1))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl
theorem PhiS_castSucc (c : Dev nD) (t : Fin cfg1.N) : (dat1 V c).Φ t.castSucc = PhiS V c t.val := by
  dsimp only [dat1]; simp only [Fin.coe_castSucc]

/-- What the scratch holds after the first point: the zero matrix plus that point's product; -/
theorem accAt1_first (c : Dev nD) (t : Fin cfg1.N) (hz : t.val = 0) :
    accAt1 V c t.val = k1_pay1 (k1_pay3 (F := F)) (part1 V c t) := by
  obtain ⟨n, hn⟩ := t
  obtain rfl : n = 0 := hz
  show k1_pay1 (k1_pay3 (F := F)) (partAt1 V c 0) = _
  unfold partAt1; rw [dif_pos hn]
/-- and after a later point: what the point before left plus this point's product. -/
theorem accAt1_later (c : Dev nD) (t : Fin cfg1.N) (hz : t.val ≠ 0) :
    accAt1 V c t.val = k1_pay1 (accAt1 V c (t.val - 1)) (part1 V c t) := by
  obtain ⟨n, hn⟩ := t
  cases n with
  | zero => exact absurd rfl hz
  | succ n =>
    show k1_pay1 (accAt1 V c n) (partAt1 V c (n + 1)) = k1_pay1 (accAt1 V c n) (part1 V c ⟨n + 1, hn⟩)
    unfold partAt1; rw [dif_pos hn]

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4800000 in
/-- The body at any point. The inputs' memrefs hold their blocks; the two conditions' closed forms say which of the three
    cases the point is in. At the first point the invariant hands the scratch over at anything and takes it back at the zero
    matrix plus the point's product; at a later point it hands it over at what the point before left and takes it back
    with the point's product added; the output window is handed back as found except at the last point, where it is left
    at the classifier's output formed from the scratch as just stored. The other scoped buffers, the generator register
    and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS V c (t.val + 1) from rfl, PhiS_succ, PhiS_castSucc]
  rw [leaves1_0, leaves1_1, leaves1_2, leaves1_3, leaves1_4, leaves1_5, leaves1_6, leaves1_7, leaves1_8, leaves1_9]
  have hN : t.val < 10 := lt_of_lt_of_eq t.isLt (show cfg1.N = 10 from N_1)
  by_cases h0 : t.val = 0
  · have hc0 : condFirst1 (grid1.coords t) := (hcondFirst1 t).mpr h0
    have hc1 : ¬condLast1 (grid1.coords t) := fun h => by have := (hcondLast1 t).mp h; omega
    rw [Dat.leavesExact_idle (dat1 V c) 10 t (idleAt1_10 t hc1) (noFlush1_10 t hc1)]
    rw [PhiS_zero V c _ h0, PhiA1_eq, accAt1_first V c t h0]
    unfold part1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run1_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) hc0 hc1 (iblk1 V c 0 t) (iblk1 V c 1 t) (iblk1 V c 2 t) (iblk1 V c 3 t) (iblk1 V c 4 t) (iblk1 V c 5 t) (iblk1 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h9 : t.val = 9
    · have hc0 : ¬condFirst1 (grid1.coords t) := fun h => h0 ((hcondFirst1 t).mp h)
      have hc1 : condLast1 (grid1.coords t) := (hcondLast1 t).mpr h9
      rw [show (dat1 V c).leavesExact 10 t = owns (c : Thread nD τ) (ms1_10 t) fullShare ((dat1 V c).after 10 t) from by
        unfold Dat.leavesExact; rw [liveAt1_10 t hc1], after1_10]
      unfold out1_10
      rw [PhiS_pos V c _ h0, accAt1_later V c t h0]
      unfold part1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (accAt1 V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬condFirst1 (grid1.coords t) := fun h => h0 ((hcondFirst1 t).mp h)
      have hc1 : ¬condLast1 (grid1.coords t) := fun h => h9 ((hcondLast1 t).mp h)
      rw [Dat.leavesExact_idle (dat1 V c) 10 t (idleAt1_10 t hc1) (noFlush1_10 t hc1)]
      rw [PhiS_pos V c _ h0, accAt1_later V c t h0]
      unfold part1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run1_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) hc0 hc1 (iblk1 V c 0 t) (iblk1 V c 1 t) (iblk1 V c 2 t) (iblk1 V c 3 t) (iblk1 V c 4 t) (iblk1 V c 5 t) (iblk1 V c 6 t) (accAt1 V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body obligation of the second pallas_call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 from rfl, PhiS_zero V c 0 rfl]
  try exact Idealize.SL.BI.Entails.refl _

/-- After the last point the invariant gives the scoped rest and the generator register back: the scratch's named
    contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val from rfl,
    PhiS_pos V c _ (by rw [Fin.val_last]; have : cfg1.N = 10 := N_1; omega), PhiA1_eq]
  iintro ⟨HS, HR, Hg⟩
  isplitl [HS HR]
  · isplitl [HS]
    · iexists _; iexact HS
    iexact HR
  iexact Hg

end Region1

end Cert.Kernel.Hand

end
-- ==== Proof.Kernel.Frame.lean ====
/-
  The program's run with the second call's body obligation and invariant ends supplied: every weakly fair execution
  terminates, the result buffer holds the last host operation's slice of the second call's result array, and every
  argument is as launched.
-/
import proofs.«426971_j26585847562498_2_alg».proof.Proof.Kernel.Run
import proofs.«426971_j26585847562498_2_alg».proof.Proof.Kernel.Region1

noncomputable section

namespace Cert.Kernel.Hand

open Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run of the whole program. -/
theorem run_main : θ_run defs (onTc (τ := τ) (main (F := F))) ⟨m, fun _ => 0, ρ⟩ (fun r => ∀ c : Dev nD,
      r.2.mem ((c.tc : Thread nD τ).loc main_v50) = V5 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run m ρ (fun V c => body_obligation1 V c) (fun V c => hin1 V c) (fun V c => hout1 V c)

end Cert.Kernel.Hand

end
-- ==== Proof.KernelIdeal.Region0.lean ====
/-
  The first pallas_call (the dense half of the first SAGE layer), at the contents `V` the TensorCore's buffers hold when
  the region is entered. Grid point t works on rows 5000·t … 5000·t + 4999: its six input windows hold the blocks of
  x, of the summed neighbour features, of the in-degree column, and the two weight matrices and the bias row whole; its
  one store writes relu((agg / max(deg, 1)) · Wlᵀ + b + x · Wrᵀ) for those rows into the output window. Nothing is kept
  between points. This module states what each window's staging buffer holds after the body and proves the body's
  triple at every point.
-/
import proofs.«426971_j26585847562498_2_alg».proof.Proof.KernelIdeal.Launch
import proofs.«426971_j26585847562498_2_alg».proof.Proof.Gen.KernelIdeal.Skeleton
import proofs.«426971_j26585847562498_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the output window at point `t`: the layer's rows for that block, from the six input blocks
    (degree column, neighbour sums, left weights, bias row, x, right weights — the order the body loads them in). -/
def out0_6 (c : Dev nD) (t : Fin cfg0.N) : Vec F S5000x128 .f32 :=
  k0_pay1 (iblk0 V c 2 t) (iblk0 V c 1 t) (iblk0 V c 3 t) (iblk0 V c 4 t) (iblk0 V c 0 t) (iblk0 V c 5 t)

/-- The proof data of the first pallas_call on core `c`: the arrays as the region finds them; after the body at point `t`
    each input's buffer at its block and the output's at `out0_6`; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 V c t := by dsimp only [dat0]

/-! ## What each window's buffer holds after the body, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

/-! ## What the body finds in each input window's buffer

The row blocks of x, of the neighbour sums and of the degree column are fetched at every point; the two weight matrices
and the bias row are fetched at the first point only and their block index never moves. Either way the current buffer
holds the window's block: an input the body leaves in place holds what a fetch at that point would put there. -/

/-- The x rows of point t. -/
theorem before0_x (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The neighbour-sum rows of point t. -/
theorem before0_agg (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The degree rows of point t. -/
theorem before0_deg (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- The left weight matrix, whole, at every point. -/
theorem before0_wl (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The bias row, whole, at every point. -/
theorem before0_bias (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-- The right weight matrix, whole, at every point. -/
theorem before0_wr (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body's triple -/

/-- The zero offsets of a two-axis rectangle, as the body's accesses spell them. -/
theorem zeroOffsets2 : (![0, 0] : Fin 2 → Nat) = fun _ => 0 := funext fun a => by fin_cases a <;> rfl

/-- The one store goes through the output buffer's whole rectangle, so it covers every index, whatever it stores. -/
theorem whole_store_covers (w : S5000x128.Idx → Elt F .f32) (y : S5000x128.Idx) :
    ∃ pc ∈ ([⟨Rect.unit (s := S5000x128) ![0, 0] S5000x128.size inb_S5000x128_S5000x128_0_0, w⟩] :
      List (View.Piece (Elt F) S5000x128 .f32)), y ∈ pc.1.set :=
  ⟨_, List.mem_singleton_self _,
    View.mem_set_unit_zero (S := S5000x128) zeroOffsets2 inb_S5000x128_S5000x128_0_0 y⟩

/-- The body's one store, read back: the output buffer, whatever it held, after the store through its whole rectangle
    of the payload of the six whole-buffer loads, reads as the payload of the six buffers' contents. A load through the
    whole rectangle reads the contents; one covering store leaves its payload. -/
theorem stored_reads_payload {κ : Kind} {sp : Space} (v : View sig κ sp S5000x128 .f32) (f : v.ty.Contents (Elt F))
    (x : Vec F S5000x20 .f32) (agg : Vec F S5000x20 .f32) (deg : Vec F S5000x1 .f32)
    (wl : Vec F S20x128 .f32) (bias : Vec F S1x128 .f32) (wr : Vec F S20x128 .f32) :
    v.read (Elt F) (v.writes (Elt F) f
      [⟨Rect.unit (s := S5000x128) ![0, 0] S5000x128.size inb_S5000x128_S5000x128_0_0,
        k0_pay1 (View.ld deg (Rect.unit (s := S5000x1) ![0, 0] S5000x1.size inb_S5000x1_S5000x1_0_0))
          (View.ld agg (Rect.unit (s := S5000x20) ![0, 0] S5000x20.size inb_S5000x20_S5000x20_0_0))
          (View.ld wl (Rect.unit (s := S20x128) ![0, 0] S20x128.size inb_S20x128_S20x128_0_0))
          (View.ld bias (Rect.unit (s := S1x128) ![0, 0] S1x128.size inb_S1x128_S1x128_0_0))
          (View.ld x (Rect.unit (s := S5000x20) ![0, 0] S5000x20.size inb_S5000x20_S5000x20_0_0))
          (View.ld wr (Rect.unit (s := S20x128) ![0, 0] S20x128.size inb_S20x128_S20x128_0_0))⟩])
      = k0_pay1 deg agg wl bias x wr := by
  rw [View.read_writes_eq_canon v f _ (whole_store_covers _)]
  rw [View.canon_unit_zero (S := S5000x128) zeroOffsets2]
  rw [View.ld_unit_zero (S := S5000x1) zeroOffsets2, View.ld_unit_zero (S := S5000x20) zeroOffsets2,
    View.ld_unit_zero (S := S20x128) zeroOffsets2, View.ld_unit_zero (S := S1x128) zeroOffsets2,
    View.ld_unit_zero (S := S5000x20) zeroOffsets2, View.ld_unit_zero (S := S20x128) zeroOffsets2]

set_option maxHeartbeats 1000000 in
/-- The body on whole staging memrefs — the six inputs' at read contents, the output's at anything — runs to the
    continuation holding the inputs' as they were and the output's at the payload of the inputs' contents. -/
theorem dense_body_triple (c : Dev nD) (E : Set ℕ) (i : grid0.Coords)
    (arg1 : Memref sig .tc .vmem S5000x20 .f32) (harg1 : arg1.IsWhole) (arg2 : Memref sig .tc .vmem S5000x20 .f32) (harg2 : arg2.IsWhole)
    (arg3 : Memref sig .tc .vmem S5000x1 .f32) (harg3 : arg3.IsWhole) (arg4 : Memref sig .tc .vmem S20x128 .f32) (harg4 : arg4.IsWhole)
    (arg5 : Memref sig .tc .vmem S1x128 .f32) (harg5 : arg5.IsWhole) (arg6 : Memref sig .tc .vmem S20x128 .f32) (harg6 : arg6.IsWhole)
    (arg7 : Memref sig .tc .vmem S5000x128 .f32) (harg7 : arg7.IsWhole)
    (x : Vec F S5000x20 .f32) (agg : Vec F S5000x20 .f32) (deg : Vec F S5000x1 .f32)
    (wl : Vec F S20x128 .f32) (bias : Vec F S1x128 .f32) (wr : Vec F S20x128 .f32) (K : PUnit → sProp 𝕄) :
    iprop(owns (c : Thread nD τ) arg1 fullShare x ∗ owns (c : Thread nD τ) arg2 fullShare agg
        ∗ owns (c : Thread nD τ) arg3 fullShare deg ∗ owns (c : Thread nD τ) arg4 fullShare wl
        ∗ owns (c : Thread nD τ) arg5 fullShare bias ∗ owns (c : Thread nD τ) arg6 fullShare wr
        ∗ (∃ d, owns (c : Thread nD τ) arg7 fullShare d)
        ∗ (iprop(owns (c : Thread nD τ) arg1 fullShare x ∗ owns (c : Thread nD τ) arg2 fullShare agg
            ∗ owns (c : Thread nD τ) arg3 fullShare deg ∗ owns (c : Thread nD τ) arg4 fullShare wl
            ∗ owns (c : Thread nD τ) arg5 fullShare bias ∗ owns (c : Thread nD τ) arg6 fullShare wr
            ∗ owns (c : Thread nD τ) arg7 fullShare (k0_pay1 deg agg wl bias x wr)) -∗ K ⟨⟩))
      ⊢ wp frame (wpE (defs₀ (F := F)) Variants.none c none) E
          (cc0__sage_dense_kernel i arg1 harg1 arg2 harg2 arg3 harg3 arg4 harg4 arg5 harg5 arg6 harg6 arg7 harg7) K := by
  simp only [cc0__sage_dense_kernel_eq_skeleton]; unfold cc0__sage_dense_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact stored_reads_payload _ _ _ _ _ _ _ _

/-! ## The body obligation, at a generic point -/

/-- What the body is called with at point t: the invariant, nothing owed, and each window's current buffer — the inputs'
    at what the pipeline left there, the output's at anything. -/
def denseBodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant, nothing owed, the inputs' buffers as found and the output's at the layer's rows. -/
def denseBodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies at the six blocks; the
    invariant and what is owed pass through unread. -/
theorem dense_body_at (c : Dev nD) (t : Fin cfg0.N) :
    denseBodyPre V c t ⊢ wp frame (wpE (defs₀ (F := F)) Variants.none c none) Set.univ (bodyAt0 t) (fun _ => denseBodyPost V c t) := by
  unfold denseBodyPre denseBodyPost bodyAt0
  simp only [before0_x, before0_agg, before0_deg, before0_wl, before0_bias, before0_wr]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  unfold out0_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply (dense_body_triple c Set.univ (grid0.coords t) _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the first pallas_call, at every point. -/
theorem body_obligation0 (c : Dev nD) : BodyObligation (dat0 (F := F) V c) (defs₀ (F := F)) Variants.none () Set.univ := by
  intro t
  rw [bigSep_W0, bigSep_W0]
  exact dense_body_at V c t

end Region0

end Cert.KernelIdeal.Hand

end
-- ==== Proof.KernelIdeal.Region1Defs.lean ====
/-
  The second pallas_call (the dense half of the second SAGE layer fused with the mean pool and the classifier), at the
  contents `V` the TensorCore's buffers hold when the region is entered. Grid point t works on rows 5000·t … 5000·t + 4999:
  it forms h2 = relu((agg / max(deg, 1)) · Wlᵀ + b + h · Wrᵀ) for those rows, multiplies the transposed one-hot matrix of
  the rows' graph ids with it, and adds the product to a 128×128 scratch that is zeroed at the first point and carried
  from point to point. At the last point the scratch, divided row by row by max(count, 1), times the classifier's
  weights plus its bias, is stored into the output window; at every other point the output window is left alone.
  This module states what the scratch holds after each point and what the output window holds after the last.
-/
import proofs.«426971_j26585847562498_2_alg».proof.Proof.KernelIdeal.Launch
import proofs.«426971_j26585847562498_2_alg».proof.Proof.Gen.KernelIdeal.Skeleton
import proofs.«426971_j26585847562498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The product the body forms at point `t`: the transposed one-hot matrix of the block's graph ids times the block's
    rows of h2, from the seven input blocks the first part of the body loads (degree column, neighbour sums, left
    weights, bias row, h, right weights, graph ids — the order the body loads them in). -/
def part1 (c : Dev nD) (t : Fin cfg1.N) : FVec F S128x128 .f32 :=
  k1_pay4 (iblk1 V c 2 t) (iblk1 V c 1 t) (iblk1 V c 3 t) (iblk1 V c 4 t) (iblk1 V c 0 t) (iblk1 V c 5 t) (iblk1 V c 6 t)

/-- The same at a position given as a number (the zero matrix past the grid, which nothing reads). -/
def partAt1 (c : Dev nD) (n : ℕ) : FVec F S128x128 .f32 :=
  if h : n < cfg1.N then part1 V c ⟨n, h⟩ else k1_pay3 (F := F)

/-- THE ACCUMULATION. What the scratch holds after the body at position `n`: at the first point the zero matrix plus the
    point's product, afterwards what the point before left plus the point's product. -/
def accAt1 (c : Dev nD) : ℕ → Vec F S128x128 .f32
  | 0 => k1_pay1 (k1_pay3 (F := F)) (partAt1 V c 0)
  | n + 1 => k1_pay1 (accAt1 c n) (partAt1 V c (n + 1))

/-- What the body stores into the output window at the last point (stated at any point; read only at the last): the
    pooled means times the classifier's weights plus its bias, from the scratch after that point and the count column,
    the classifier's weights and its bias row. -/
def out1_10 (c : Dev nD) (t : Fin cfg1.N) : Vec F S128x2 .f32 :=
  k1_pay2 (accAt1 V c t.val) (iblk1 V c 7 t) (iblk1 V c 8 t) (iblk1 V c 9 t)

/-- The scratch the kernel carries between points: a whole scoped buffer of its own. -/
abbrev scM1 : Memref sig .tc .vmem S128x128 .f32 := Memref.whole cc1_scratch0

/-- The region invariant before position `n`: before the first point the scoped rest at anything and the generator
    register; afterwards the scratch at what the point before left in it, the core's other scoped buffers that are no
    staging buffer of this call at anything, and the generator register. -/
def PhiS (c : Dev nD) : ℕ → sProp 𝕄
  | 0 => Pipeline.ΦA spec1 c
  | n + 1 => iprop(owns (c : Thread nD τ) scM1 fullShare (accAt1 V c n)
      ∗ Pipeline.scopedRestBut (Ix := Unit) (Name := ℕ) (U := UR sig nD τ) (Lvl := ℕ) (Val := Elt F) spec1 c [cc1_scratch0]
      ∗ (∃ r, prngReg c r))

/-- The proof data of the second pallas_call on core `c`: the arrays as the region finds them; after the body at point `t`
    each input's buffer at its block and the output's at `out1_10` (consulted at the last point only: elsewhere the window
    is idle and not written back); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 V c t
  Φ t := PhiS V c t.val
  q _ := fullShare
  owed _ := 0

theorem A_eq1 (c : Dev nD) (w : Fin cfg1.W) : (dat1 V c).A w = V c (Pipeline.arrRef spec1 w) := by
  dsimp only [dat1]

theorem after1_10 (c : Dev nD) (t : Fin cfg1.N) : (dat1 V c).after 10 t = out1_10 V c t := by dsimp only [dat1]

end Region1

end Cert.KernelIdeal.Hand

end
-- ==== Proof.KernelIdeal.RunDefs.lean ====
/-
  The contents of the TensorCore's buffers at the boundaries between the host operations and the two pallas_calls:
  the launch contents; the host operations' results; in the first call's result array what its ten blocks' write-backs
  leave (the first layer's activations); more host results; in the second call's result array what its one
  write-back at the last point leaves.
-/
import proofs.«426971_j26585847562498_2_alg».proof.Proof.KernelIdeal.Launch
import proofs.«426971_j26585847562498_2_alg».proof.Proof.Gen.KernelIdeal.Skeleton
import proofs.«426971_j26585847562498_2_alg».proof.Proof.Gen.KernelIdeal.Points
import proofs.«426971_j26585847562498_2_alg».proof.Proof.KernelIdeal.Regions
import proofs.«426971_j26585847562498_2_alg».proof.Proof.KernelIdeal.Region0
import proofs.«426971_j26585847562498_2_alg».proof.Proof.KernelIdeal.Region1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the first call is entered, read at the TensorCore's references. -/
abbrev Vr1 (c : Dev nD) (b : Ref sig .tc) : Buf (Elt F) ((c : Thread nD τ).loc b) := V1 m c b

/-- What the first call leaves in its result array: the first layer's activations. -/
def h1Arr (c : Dev nD) : Buf (Elt F) ((c : Thread nD τ).loc main_v27) := (dat0 (Vr1 m) c).arrAt 6 cfg0.N

/-- The buffers after the first call. -/
abbrev W2 (c : Dev nD) : Valuation τ sig (Elt F) := Function.update (V1 m c) main_v27 (h1Arr m c)
/-- The buffers when the second call is entered. -/
abbrev W3 (c : Dev nD) : Valuation τ sig (Elt F) := StableHlo.after hostOps1 (W2 m c)
/-- The same read at the TensorCore's references. -/
abbrev Vr3 (c : Dev nD) (b : Ref sig .tc) : Buf (Elt F) ((c : Thread nD τ).loc b) := W3 m c b

/-- What the second call leaves in its result array: the classifier's output over the 128 padded graph rows. -/
def outArr (c : Dev nD) : Buf (Elt F) ((c : Thread nD τ).loc main_v49) := (dat1 (Vr3 m) c).arrAt 10 cfg1.N

/-- What the two calls leave, as the family the boundary valuations are written over. -/
def outs : Outs (F := F) := fun _ r c =>
  if h : r = main_v27 then h ▸ h1Arr m c
  else if h' : r = main_v49 then h' ▸ outArr m c
  else m ((c : Thread nD τ).loc r)

end Cert.KernelIdeal.Hand

end
-- ==== Proof.KernelIdeal.Run.lean ====
/-
  The whole program as a run. Between the two pallas_calls and the host operations around them the TensorCore's
  buffers hold: the launch contents; then the host operations' results; then, in the first call's result array, the
  first layer's activations (what its ten blocks' write-backs leave); then more host results; then, in the second
  call's result array, what its one write-back at the last point leaves. Each call is entered with the arrays its
  windows read split out of the buffers and left with them put back; the generator register and the core's empty
  debts ride along. Every weakly fair execution terminates, the arguments end as launched, and the result is the last
  host operation's slice of the second call's result array.
-/
import proofs.«426971_j26585847562498_2_alg».proof.Proof.KernelIdeal.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem outs_v27 (j : ℕ) (c : Dev nD) : outs m j main_v27 c = h1Arr m c := by
  unfold outs; rw [dif_pos rfl]

theorem outs_v49 (j : ℕ) (c : Dev nD) : outs m j main_v49 c = outArr m c := by
  unfold outs; rw [dif_neg (by decide), dif_pos rfl]

/-- With that family the generated boundary valuations are the ones above. -/
theorem V2_eq (c : Dev nD) : V2 m (outs m) c = W2 m c := by
  exact congrArg (Function.update (V1 m c) (Proc.devRef .tc main_v27 : DevRef τ sig)) (outs_v27 m 2 c)

theorem V3_eq (c : Dev nD) : V3 m (outs m) c = W3 m c := by
  show StableHlo.after hostOps1 (V2 m (outs m) c) = _
  rw [V2_eq]

/-! ## The proof data of the two calls, and what rides beside the buffers -/

/-- Both calls' proof data, each at the contents its call is entered with. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr3 m) c

/-- No level is assigned: no core owes another anything. -/
abbrev noLevels : GSem nD τ sig → Finset Unit := fun _ => ∅
abbrev levelZero : GSem nD τ sig → Unit → ℕ := fun _ _ => 0

/-- What rides beside the buffers between any two items: the generator register at some state and the core's debts,
    none. -/
abbrev beside (c : Dev nD) : sProp 𝕄 :=
  iprop((∃ r, prngReg c r) ∗ ∃ W, owes (c : Thread nD τ) (0 : CellTallies nD τ sig Unit) W)

/-! ## What each call leaves in its arrays -/

/-- After the first call each of its arrays holds what the boundary valuation says: an input array what it held when
    the call was entered, the result array the folded write-backs. -/
theorem arrays_after0 (c : Dev nD) (w : Fin cfg0.W) :
    (pdats m 0 c).arrAt w cfg0.N = V2 m (outs m) c (Pipeline.arrRef spec0 w) := by
  show (dat0 (Vr1 m) c).arrAt w cfg0.N = _
  match w with
  | ⟨0, _⟩ => exact (((dat0 (Vr1 m) c).arrAt_in 0 rfl _).trans (A_eq0 (Vr1 m) c 0)).trans (V2_of m (outs m) c _ (by decide)).symm
  | ⟨1, _⟩ => exact (((dat0 (Vr1 m) c).arrAt_in 1 rfl _).trans (A_eq0 (Vr1 m) c 1)).trans (V2_of m (outs m) c _ (by decide)).symm
  | ⟨2, _⟩ => exact (((dat0 (Vr1 m) c).arrAt_in 2 rfl _).trans (A_eq0 (Vr1 m) c 2)).trans (V2_of m (outs m) c _ (by decide)).symm
  | ⟨3, _⟩ => exact (((dat0 (Vr1 m) c).arrAt_in 3 rfl _).trans (A_eq0 (Vr1 m) c 3)).trans (V2_of m (outs m) c _ (by decide)).symm
  | ⟨4, _⟩ => exact (((dat0 (Vr1 m) c).arrAt_in 4 rfl _).trans (A_eq0 (Vr1 m) c 4)).trans (V2_of m (outs m) c _ (by decide)).symm
  | ⟨5, _⟩ => exact (((dat0 (Vr1 m) c).arrAt_in 5 rfl _).trans (A_eq0 (Vr1 m) c 5)).trans (V2_of m (outs m) c _ (by decide)).symm
  | ⟨6, _⟩ =>
    show h1Arr m c = Function.update (V1 m c) main_v27 (outs m 2 main_v27 c) main_v27
    rw [Function.update_self, outs_v27]

/-- Every other buffer is as the first call found it. -/
theorem rest_after0 (c : Dev nD) :
    ∀ b : Ref sig .tc, b ∉ Finset.univ.image (Pipeline.arrRef spec0) → V2 m (outs m) c b = Vr1 m c b :=
  fun b hb => V2_of m (outs m) c b fun h => hb (by
    rw [List.mem_singleton] at h; subst h
    exact Finset.mem_image.mpr ⟨6, Finset.mem_univ _, rfl⟩)

/-- The buffers after the first call, read at the TensorCore's references. -/
abbrev Vr2 (c : Dev nD) (b : Ref sig .tc) : Buf (Elt F) ((c : Thread nD τ).loc b) := V2 m (outs m) c b
/-- The buffers after the second call, read at the TensorCore's references. -/
abbrev Vr4 (c : Dev nD) (b : Ref sig .tc) : Buf (Elt F) ((c : Thread nD τ).loc b) := V4 m (outs m) c b

/-- An input array of the second call holds after it what it held when the call was entered: the boundary valuation
    there, its reference not being the result array's. -/
theorem input_after1 (c : Dev nD) (w : Fin cfg1.W) (hin : (cfg1.win w).isOut = false)
    (hne : Pipeline.arrRef spec1 w ∉ ([main_v49] : List (Ref sig .tc))) :
    (dat1 (Vr3 m) c).arrAt w cfg1.N = V4 m (outs m) c (Pipeline.arrRef spec1 w) :=
  (((dat1 (Vr3 m) c).arrAt_in w hin _).trans (A_eq1 (Vr3 m) c w)).trans
    ((V4_of m (outs m) c _ hne).trans (congrFun (V3_eq m c) _)).symm

/-- After the second call each of its arrays holds what the boundary valuation says: an input array what it held when
    the call was entered, the result array what the one write-back at the last point leaves. -/
theorem arrays_after1 (c : Dev nD) (w : Fin cfg1.W) :
    (pdats m 1 c).arrAt w cfg1.N = V4 m (outs m) c (Pipeline.arrRef spec1 w) := by
  show (dat1 (Vr3 m) c).arrAt w cfg1.N = _
  match w with
  | ⟨0, _⟩ => exact input_after1 m c 0 rfl (by decide)
  | ⟨1, _⟩ => exact input_after1 m c 1 rfl (by decide)
  | ⟨2, _⟩ => exact input_after1 m c 2 rfl (by decide)
  | ⟨3, _⟩ => exact input_after1 m c 3 rfl (by decide)
  | ⟨4, _⟩ => exact input_after1 m c 4 rfl (by decide)
  | ⟨5, _⟩ => exact input_after1 m c 5 rfl (by decide)
  | ⟨6, _⟩ => exact input_after1 m c 6 rfl (by decide)
  | ⟨7, _⟩ => exact input_after1 m c 7 rfl (by decide)
  | ⟨8, _⟩ => exact input_after1 m c 8 rfl (by decide)
  | ⟨9, _⟩ => exact input_after1 m c 9 rfl (by decide)
  | ⟨10, _⟩ =>
    show outArr m c = Function.update (V3 m (outs m) c) main_v49 (outs m 4 main_v49 c) main_v49
    rw [Function.update_self, outs_v49]

/-- Every other buffer is as the second call found it. -/
theorem rest_after1 (c : Dev nD) :
    ∀ b : Ref sig .tc, b ∉ Finset.univ.image (Pipeline.arrRef spec1) → V4 m (outs m) c b = Vr3 m c b :=
  fun b hb => (V4_of m (outs m) c b fun h => hb (by
    rw [List.mem_singleton] at h; subst h
    exact Finset.mem_image.mpr ⟨10, Finset.mem_univ _, rfl⟩)).trans (congrFun (V3_eq m c) _)

/-- The second call is entered from the buffers as the host operations after the first call leave them. -/
theorem enter1 (c : Dev nD) :
    iprop(StableHlo.held (c : Thread nD τ) (Pipeline.ucRefs τ sig) (V3 m (outs m) c) ∗ beside (F := F) c)
      ⊢ iprop(StableHlo.held (c : Thread nD τ) (Pipeline.ucRefs τ sig) (W3 m c) ∗ beside (F := F) c) := by
  rw [V3_eq]

/-! ## The two calls as segments of the run -/

set_option backward.isDefEq.respectTransparency.types false in
/-- THE FIRST CALL: entered from every unscoped buffer at the host operations' results, left with the result array at
    the first layer's activations and every other buffer as entered. Its seven arrays are split out of the buffers at
    entry and put back at exit; the generator register goes into the call's invariant and comes back; nothing is owed;
    the kernel has no semaphore of its own. -/
def reg0 : Pipeline.RegionSeg (pcfgs (F := F)) adm (pdats m) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ noLevels levelZero 0 fun _ _ => rfl
  pre c := iprop(StableHlo.held (c : Thread nD τ) (Pipeline.ucRefs τ sig) (V1 m c) ∗ beside c)
  post c := iprop(StableHlo.held (c : Thread nD τ) (Pipeline.ucRefs τ sig) (V2 m (outs m) c) ∗ beside c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (arrays_after0 m c) (rest_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL: entered from every unscoped buffer at the host operations' results over the first call's
    activations, left with the result array at the classifier's output and every other buffer as entered. Its eleven
    arrays are split out of the buffers at entry and put back at exit; the generator register and the scoped rest go
    into the invariant before the first point and come back from the one after the last, where the scratch's named
    contents are forgotten; nothing is owed; the kernel has no semaphore of its own. -/
def reg1
    (hb1 : ∀ (V : (c : Dev nD) → (b : Ref sig .tc) → Buf (Elt F) ((c : Thread nD τ).loc b)) (c : Dev nD),
      BodyObligation (dat1 (F := F) V c) (defs₀ (F := F)) Variants.none () Set.univ)
    (hin1 : ∀ V c, Pipeline.ΦA spec1 c ⊢ (dat1 (F := F) V c).Φ 0)
    (hout1 : ∀ V c, (dat1 (F := F) V c).Φ (Fin.last cfg1.N) ⊢ Pipeline.ΦA spec1 c) :
    Pipeline.RegionSeg (pcfgs (F := F)) adm (pdats m) () defs₀ Variants.none noLevels levelZero 1 where
  win := launch1.win.to₀
  block_pos := launch1.block_pos
  stage_whole := launch1.stage_whole
  K := PEmpty
  osem k := k.elim
  ho := Pipeline.OwnSemFacts.none _
  hbody c := (hb1 (Vr3 m) c).loose
  hwaits := Pipeline.hwaits_of_owed_zero _ _ _ _ noLevels levelZero 1 fun _ _ => rfl
  pre c := iprop(StableHlo.held (c : Thread nD τ) (Pipeline.ucRefs τ sig) (W3 m c) ∗ beside c)
  post c := iprop(StableHlo.held (c : Thread nD τ) (Pipeline.ucRefs τ sig) (V4 m (outs m) c) ∗ beside c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (hin1 (Vr3 m) c)
    unfold Pipeline.ΦA
    iintro ⟨Hp, -, Hr⟩
    isplitl [Hr]; · iexact Hr
    iexact Hp
  hout c := by
    rw [Pipeline.ownSems0_none]
    refine (hout1 (Vr3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr3 m c) (Vr4 m c) ((pdats m 1 c).arrAt · cfg1.N) (arrays_after1 m c) (rest_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: every weakly fair execution of the program from memory `m` with zero counters terminates; the result
    buffer holds the last host operation's value over the boundary valuations, and every argument is as launched. -/
theorem run
    (hb1 : ∀ (V : (c : Dev nD) → (b : Ref sig .tc) → Buf (Elt F) ((c : Thread nD τ).loc b)) (c : Dev nD),
      BodyObligation (dat1 (F := F) V c) (defs₀ (F := F)) Variants.none () Set.univ)
    (hin1 : ∀ V c, Pipeline.ΦA spec1 c ⊢ (dat1 (F := F) V c).Φ 0)
    (hout1 : ∀ V c, (dat1 (F := F) V c).Φ (Fin.last cfg1.N) ⊢ Pipeline.ΦA spec1 c) : θ_run defs (onTc (τ := τ) (main (F := F))) ⟨m, fun _ => 0, ρ⟩ (fun r => ∀ c : Dev nD,
      r.2.mem ((c.tc : Thread nD τ).loc main_v50) = V5 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m (EP := emb₁) (ι := ()) (𝒱₀ := Variants.none) (L := noLevels) (lv := levelZero) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => beside c)
    (hE0 := by
      refine Pipeline.initEach noLevels levelZero fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m hb1 hin1 hout1) (hpre1 := enter1 m) (hpost1 := fun _ => .rfl)

end Cert.KernelIdeal.Hand

end
-- ==== Proof.KernelIdeal.Region1.lean ====
/-
  The second pallas_call (the dense half of the second SAGE layer fused with the mean pool and the classifier), at the
  contents `V` the TensorCore's buffers hold when the region is entered. Grid point t works on rows 5000·t … 5000·t + 4999:
  it forms h2 = relu((agg / max(deg, 1)) · Wlᵀ + b + h · Wrᵀ) for those rows, multiplies the transposed one-hot matrix of
  the rows' graph ids with it, and adds the product to a 128×128 scratch that is zeroed at the first point and carried
  from point to point. At the last point the scratch, divided row by row by max(count, 1), times the classifier's
  weights plus its bias, is stored into the output window; at every other point the output window is left alone.
  This module proves the body's triple at every point: the body's run in each of its three control cases (first point,
  a middle point, last point), each over whole-buffer loads and stores, and from them the obligation against what the
  scratch holds after each point and what the output window holds after the last.
-/
import proofs.«426971_j26585847562498_2_alg».proof.Proof.KernelIdeal.Region1Defs
import proofs.«426971_j26585847562498_2_alg».proof.Proof.KernelIdeal.Launch
import proofs.«426971_j26585847562498_2_alg».proof.Proof.Gen.KernelIdeal.Skeleton
import proofs.«426971_j26585847562498_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The body's first branch (the scratch is zeroed) is taken where the grid coordinate is 0. -/
abbrev condFirst1 (i : grid1.Coords) : Prop :=
  (Scalar.cmpi .ne (Scalar.extui (Scalar.cmpi .eq (BitVec.ofNat 32 (i 0).val) 0#32)) 0#32) = 1#1
theorem hcondFirst1 : ∀ t : Fin cfg1.N, condFirst1 (grid1.coords t) ↔ t.val = 0 :=
  (by decide +kernel : ∀ t : Fin grid1.N, condFirst1 (grid1.coords t) ↔ t.val = 0)

/-- The body's second branch (the pooled means and the classifier are stored) is taken where the coordinate is 9. -/
abbrev condLast1 (i : grid1.Coords) : Prop := k1_cond2 i = 1#1
theorem hcondLast1 : ∀ t : Fin cfg1.N, condLast1 (grid1.coords t) ↔ t.val = 9 :=
  (by decide +kernel : ∀ t : Fin grid1.N, condLast1 (grid1.coords t) ↔ t.val = 9)

/-- The zero offsets of a rank-two rectangle, as the constant function. -/
theorem off00 : (![0, 0] : Fin 2 → Nat) = fun _ => 0 := by
  funext a; fin_cases a <;> rfl

set_option maxHeartbeats 4000000 in
/-- THE FIRST point (the first branch taken, the second not). From the seven input memrefs at blocks `x0 … x6` and the
    scratch at anything, the body runs to the same inputs and the scratch at the zero matrix plus the point's product:
    the scratch is zeroed whole, read back whole, and stored whole. -/
theorem run1_first (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x1 .i32) (harg7 : arg7.IsWhole) (arg8 : Memref sig .tc .vmem S128x1 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S128x2 .f32) (harg11 : arg11.IsWhole) (arg12 : Memref sig .tc .vmem S128x128 .f32) (harg12 : arg12.IsWhole)
    (hc0 : condFirst1 i) (hc1 : ¬condLast1 i) (x0 : Vec F S5000x128 .f32) (x1 : Vec F S5000x128 .f32) (x2 : Vec F S5000x1 .f32) (x3 : Vec F S128x128 .f32) (x4 : Vec F S1x128 .f32) (x5 : Vec F S128x128 .f32) (x6 : Vec F S5000x1 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg12 fullShare (k1_pay1 (k1_pay3 (F := F)) (k1_pay4 x2 x1 x3 x4 x0 x5 x6))) -∗ K ⟨⟩))
      ⊢ wp frame (wpE (defs₀ (F := F)) Variants.none c none) E (cc1__sage_conv2_pool_kernel i arg1 harg1 arg2 harg2 arg3 harg3 arg4 harg4 arg5 harg5 arg6 harg6 arg7 harg7 arg8 harg8 arg9 harg9 arg10 harg10 arg11 harg11 arg12 harg12) K := by
  simp only [cc1__sage_conv2_pool_kernel_eq_skeleton]; unfold cc1__sage_conv2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS
  ipureintro
  rw [View.read_writes_eq_canon _ _ _ (fun y => ⟨_, List.mem_cons_self, View.mem_set_unit_zero off00 inb_S128x128_S128x128_0_0 y⟩)]
  sl_unfold_words
  rw [View.canon_cons_unit_zero off00, View.readCov_unit_zero _ off00]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]

set_option maxHeartbeats 4000000 in
/-- A MIDDLE point (neither branch taken). From the seven input memrefs of the first part at blocks `x0 … x6` and the
    scratch at `s`, the body runs to the same inputs and the scratch at `s` plus the point's product: its one store into
    the scratch is through the whole-buffer rectangle, and the loads read the buffers whole. -/
theorem run1_mid (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x1 .i32) (harg7 : arg7.IsWhole) (arg8 : Memref sig .tc .vmem S128x1 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S128x2 .f32) (harg11 : arg11.IsWhole) (arg12 : Memref sig .tc .vmem S128x128 .f32) (harg12 : arg12.IsWhole)
    (hc0 : ¬condFirst1 i) (hc1 : ¬condLast1 i) (x0 : Vec F S5000x128 .f32) (x1 : Vec F S5000x128 .f32) (x2 : Vec F S5000x1 .f32) (x3 : Vec F S128x128 .f32) (x4 : Vec F S1x128 .f32) (x5 : Vec F S128x128 .f32) (x6 : Vec F S5000x1 .i32) (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg12 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg12 fullShare (k1_pay1 s (k1_pay4 x2 x1 x3 x4 x0 x5 x6))) -∗ K ⟨⟩))
      ⊢ wp frame (wpE (defs₀ (F := F)) Variants.none c none) E (cc1__sage_conv2_pool_kernel i arg1 harg1 arg2 harg2 arg3 harg3 arg4 harg4 arg5 harg5 arg6 harg6 arg7 harg7 arg8 harg8 arg9 harg9 arg10 harg10 arg11 harg11 arg12 harg12) K := by
  simp only [cc1__sage_conv2_pool_kernel_eq_skeleton]; unfold cc1__sage_conv2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg12.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr
  swap; · iexact HS
  ipureintro
  rw [View.read_writes_eq_canon _ _ _ (fun y => ⟨_, List.mem_singleton_self _, View.mem_set_unit_zero off00 inb_S128x128_S128x128_0_0 y⟩)]
  sl_unfold_words
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]

set_option maxHeartbeats 4000000 in
/-- THE LAST point (the first branch not taken, the second taken). From the seven input memrefs at blocks `x0 … x6`, the
    count column, the classifier's weights and its bias row at `x7`, `x8`, `x9`, the output window at anything and the
    scratch at `s`, the body runs to the same inputs, the scratch at `s` plus the point's product, and the output window
    at the pooled means times the classifier's weights plus its bias, formed from the scratch as just stored (the load
    after the whole-buffer store reads the stored value). -/
theorem run1_last (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x1 .i32) (harg7 : arg7.IsWhole) (arg8 : Memref sig .tc .vmem S128x1 .f32) (harg8 : arg8.IsWhole) (arg9 : Memref sig .tc .vmem S128x2 .f32) (harg9 : arg9.IsWhole) (arg10 : Memref sig .tc .vmem S1x2 .f32) (harg10 : arg10.IsWhole) (arg11 : Memref sig .tc .vmem S128x2 .f32) (harg11 : arg11.IsWhole) (arg12 : Memref sig .tc .vmem S128x128 .f32) (harg12 : arg12.IsWhole)
    (hc0 : ¬condFirst1 i) (hc1 : condLast1 i) (x0 : Vec F S5000x128 .f32) (x1 : Vec F S5000x128 .f32) (x2 : Vec F S5000x1 .f32) (x3 : Vec F S128x128 .f32) (x4 : Vec F S1x128 .f32) (x5 : Vec F S128x128 .f32) (x6 : Vec F S5000x1 .i32) (x7 : Vec F S128x1 .f32) (x8 : Vec F S128x2 .f32) (x9 : Vec F S1x2 .f32)
    (s : Vec F S128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ owns (c : Thread nD τ) arg12 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (k1_pay2 (k1_pay1 s (k1_pay4 x2 x1 x3 x4 x0 x5 x6)) x7 x8 x9)
            ∗ owns (c : Thread nD τ) arg12 fullShare (k1_pay1 s (k1_pay4 x2 x1 x3 x4 x0 x5 x6))) -∗ K ⟨⟩))
      ⊢ wp frame (wpE (defs₀ (F := F)) Variants.none c none) E (cc1__sage_conv2_pool_kernel i arg1 harg1 arg2 harg2 arg3 harg3 arg4 harg4 arg5 harg5 arg6 harg6 arg7 harg7 arg8 harg8 arg9 harg9 arg10 harg10 arg11 harg11 arg12 harg12) K := by
  simp only [cc1__sage_conv2_pool_kernel_eq_skeleton]; unfold cc1__sage_conv2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg12.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    sl_unfold_words
    rw [View.read_writes_eq_canon _ _ _ (fun y => ⟨_, List.mem_singleton_self _, View.mem_set_unit_zero off00 inb_S128x2_S128x2_0_0 y⟩)]
    rw [View.canon_unit_zero off00, View.readCov_unit_zero _ off00]
    simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]
  iexists _; isplitr
  swap; · iexact HS
  ipureintro
  sl_unfold_words
  rw [View.read_writes_eq_canon _ _ _ (fun y => ⟨_, List.mem_singleton_self _, View.mem_set_unit_zero off00 inb_S128x128_S128x128_0_0 y⟩)]
  rw [View.canon_unit_zero off00]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S5000x128) off00, View.ld_unit_zero (S := S5000x1) off00, View.ld_unit_zero (S := S128x128) off00, View.ld_unit_zero (S := S1x128) off00, View.ld_unit_zero (S := S128x1) off00, View.ld_unit_zero (S := S128x2) off00, View.ld_unit_zero (S := S1x2) off00]

/-- Each window's current staging memref at point `t`, spelled as the pipeline passes it to the body, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x2 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x2 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S128x2 .f32 := win1_10.stage (cfg1.slots t 10)
abbrev hs1_10 (t : Fin cfg1.N) : (ms1_10 t).IsWhole := hstage1_10 ((cfg1.slots t 10).cast nbuf1_10)

/-- What the body leaves in each input window: its block, untouched (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]

/-- Each input window's current staging buffer holds its block at every point, fetched there or not: where it is not
    fetched its block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)

/-- An input window is never idle: the body's post for it is its buffer at what the body leaves, its block. -/
theorem leaves1_0 (c : Dev nD) (t : Fin cfg1.N) :
    (dat1 V c).leavesExact 0 t = owns (c : Thread nD τ) (ms1_0 t) fullShare (iblk1 V c 0 t) := by
  rw [← after1_0 V c t]
theorem leaves1_1 (c : Dev nD) (t : Fin cfg1.N) :
    (dat1 V c).leavesExact 1 t = owns (c : Thread nD τ) (ms1_1 t) fullShare (iblk1 V c 1 t) := by
  rw [← after1_1 V c t]
theorem leaves1_2 (c : Dev nD) (t : Fin cfg1.N) :
    (dat1 V c).leavesExact 2 t = owns (c : Thread nD τ) (ms1_2 t) fullShare (iblk1 V c 2 t) := by
  rw [← after1_2 V c t]
theorem leaves1_3 (c : Dev nD) (t : Fin cfg1.N) :
    (dat1 V c).leavesExact 3 t = owns (c : Thread nD τ) (ms1_3 t) fullShare (iblk1 V c 3 t) := by
  rw [← after1_3 V c t]
theorem leaves1_4 (c : Dev nD) (t : Fin cfg1.N) :
    (dat1 V c).leavesExact 4 t = owns (c : Thread nD τ) (ms1_4 t) fullShare (iblk1 V c 4 t) := by
  rw [← after1_4 V c t]
theorem leaves1_5 (c : Dev nD) (t : Fin cfg1.N) :
    (dat1 V c).leavesExact 5 t = owns (c : Thread nD τ) (ms1_5 t) fullShare (iblk1 V c 5 t) := by
  rw [← after1_5 V c t]
theorem leaves1_6 (c : Dev nD) (t : Fin cfg1.N) :
    (dat1 V c).leavesExact 6 t = owns (c : Thread nD τ) (ms1_6 t) fullShare (iblk1 V c 6 t) := by
  rw [← after1_6 V c t]
theorem leaves1_7 (c : Dev nD) (t : Fin cfg1.N) :
    (dat1 V c).leavesExact 7 t = owns (c : Thread nD τ) (ms1_7 t) fullShare (iblk1 V c 7 t) := by
  rw [← after1_7 V c t]
theorem leaves1_8 (c : Dev nD) (t : Fin cfg1.N) :
    (dat1 V c).leavesExact 8 t = owns (c : Thread nD τ) (ms1_8 t) fullShare (iblk1 V c 8 t) := by
  rw [← after1_8 V c t]
theorem leaves1_9 (c : Dev nD) (t : Fin cfg1.N) :
    (dat1 V c).leavesExact 9 t = owns (c : Thread nD τ) (ms1_9 t) fullShare (iblk1 V c 9 t) := by
  rw [← after1_9 V c t]

/-- Where the second branch is not taken the configuration calls the output window idle, and the pipeline does not write
    its block back there; where it is taken the window is live. Decided over the grid. -/
theorem idleAt1_10 : ∀ t : Fin cfg1.N, ¬condLast1 (grid1.coords t) → cfg1.idle 10 (grid1.coords t) = true := by decide +kernel
theorem noFlush1_10 : ∀ t : Fin cfg1.N, ¬condLast1 (grid1.coords t) → (cfg1.win 10).flush t = false := by decide +kernel
theorem liveAt1_10 : ∀ t : Fin cfg1.N, condLast1 (grid1.coords t) → cfg1.idle 10 (grid1.coords t) = false := by decide +kernel

/-- The core's scoped buffers that are no staging buffer of this call, with the call's scratch split off and owned as a
    memref at some contents; beside them the generator register. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [bigSepL_singleton, scM1, owns_whole]; try rfl

/-- The invariant before the first point, and before any later one. -/
theorem PhiS_zero (c : Dev nD) (n : ℕ) (hz : n = 0) : PhiS V c n = Pipeline.ΦA spec1 c := by
  subst hz; rfl
theorem PhiS_succ (c : Dev nD) (n : ℕ) :
    PhiS V c (n + 1) = iprop(owns (c : Thread nD τ) scM1 fullShare (accAt1 V c n)
      ∗ Pipeline.scopedRestBut (Ix := Unit) (Name := ℕ) (U := UR sig nD τ) (Lvl := ℕ) (Val := Elt F) spec1 c [cc1_scratch0]
      ∗ (∃ r, prngReg c r)) := rfl
theorem PhiS_pos (c : Dev nD) (n : ℕ) (hz : n ≠ 0) :
    PhiS V c n = iprop(owns (c : Thread nD τ) scM1 fullShare (accAt1 V c (n - 1))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl
theorem PhiS_castSucc (c : Dev nD) (t : Fin cfg1.N) : (dat1 V c).Φ t.castSucc = PhiS V c t.val := by
  dsimp only [dat1]; simp only [Fin.coe_castSucc]

/-- What the scratch holds after the first point: the zero matrix plus that point's product; -/
theorem accAt1_first (c : Dev nD) (t : Fin cfg1.N) (hz : t.val = 0) :
    accAt1 V c t.val = k1_pay1 (k1_pay3 (F := F)) (part1 V c t) := by
  obtain ⟨n, hn⟩ := t
  obtain rfl : n = 0 := hz
  show k1_pay1 (k1_pay3 (F := F)) (partAt1 V c 0) = _
  unfold partAt1; rw [dif_pos hn]
/-- and after a later point: what the point before left plus this point's product. -/
theorem accAt1_later (c : Dev nD) (t : Fin cfg1.N) (hz : t.val ≠ 0) :
    accAt1 V c t.val = k1_pay1 (accAt1 V c (t.val - 1)) (part1 V c t) := by
  obtain ⟨n, hn⟩ := t
  cases n with
  | zero => exact absurd rfl hz
  | succ n =>
    show k1_pay1 (accAt1 V c n) (partAt1 V c (n + 1)) = k1_pay1 (accAt1 V c n) (part1 V c ⟨n + 1, hn⟩)
    unfold partAt1; rw [dif_pos hn]

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t)

set_option maxHeartbeats 4800000 in
/-- The body at any point. The inputs' memrefs hold their blocks; the two conditions' closed forms say which of the three
    cases the point is in. At the first point the invariant hands the scratch over at anything and takes it back at the zero
    matrix plus the point's product; at a later point it hands it over at what the point before left and takes it back
    with the point's product added; the output window is handed back as found except at the last point, where it is left
    at the classifier's output formed from the scratch as just stored. The other scoped buffers, the generator register
    and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS V c (t.val + 1) from rfl, PhiS_succ, PhiS_castSucc]
  rw [leaves1_0, leaves1_1, leaves1_2, leaves1_3, leaves1_4, leaves1_5, leaves1_6, leaves1_7, leaves1_8, leaves1_9]
  have hN : t.val < 10 := lt_of_lt_of_eq t.isLt (show cfg1.N = 10 from N_1)
  by_cases h0 : t.val = 0
  · have hc0 : condFirst1 (grid1.coords t) := (hcondFirst1 t).mpr h0
    have hc1 : ¬condLast1 (grid1.coords t) := fun h => by have := (hcondLast1 t).mp h; omega
    rw [Dat.leavesExact_idle (dat1 V c) 10 t (idleAt1_10 t hc1) (noFlush1_10 t hc1)]
    rw [PhiS_zero V c _ h0, PhiA1_eq, accAt1_first V c t h0]
    unfold part1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run1_first c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) hc0 hc1 (iblk1 V c 0 t) (iblk1 V c 1 t) (iblk1 V c 2 t) (iblk1 V c 3 t) (iblk1 V c 4 t) (iblk1 V c 5 t) (iblk1 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h9 : t.val = 9
    · have hc0 : ¬condFirst1 (grid1.coords t) := fun h => h0 ((hcondFirst1 t).mp h)
      have hc1 : condLast1 (grid1.coords t) := (hcondLast1 t).mpr h9
      rw [show (dat1 V c).leavesExact 10 t = owns (c : Thread nD τ) (ms1_10 t) fullShare ((dat1 V c).after 10 t) from by
        unfold Dat.leavesExact; rw [liveAt1_10 t hc1], after1_10]
      unfold out1_10
      rw [PhiS_pos V c _ h0, accAt1_later V c t h0]
      unfold part1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run1_last c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (accAt1 V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc0 : ¬condFirst1 (grid1.coords t) := fun h => h0 ((hcondFirst1 t).mp h)
      have hc1 : ¬condLast1 (grid1.coords t) := fun h => h9 ((hcondLast1 t).mp h)
      rw [Dat.leavesExact_idle (dat1 V c) 10 t (idleAt1_10 t hc1) (noFlush1_10 t hc1)]
      rw [PhiS_pos V c _ h0, accAt1_later V c t h0]
      unfold part1
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run1_mid c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1 (Memref.isWhole_whole _) hc0 hc1 (iblk1 V c 0 t) (iblk1 V c 1 t) (iblk1 V c 2 t) (iblk1 V c 3 t) (iblk1 V c 4 t) (iblk1 V c 5 t) (iblk1 V c 6 t) (accAt1 V c (t.val - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body obligation of the second pallas_call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 from rfl, PhiS_zero V c 0 rfl]
  try exact Idealize.SL.BI.Entails.refl _

/-- After the last point the invariant gives the scoped rest and the generator register back: the scratch's named
    contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val from rfl,
    PhiS_pos V c _ (by rw [Fin.val_last]; have : cfg1.N = 10 := N_1; omega), PhiA1_eq]
  iintro ⟨HS, HR, Hg⟩
  isplitl [HS HR]
  · isplitl [HS]
    · iexists _; iexact HS
    iexact HR
  iexact Hg

end Region1

end Cert.KernelIdeal.Hand

end
-- ==== Proof.KernelIdeal.Frame.lean ====
/-
  The program's run with the second call's body obligation and invariant ends supplied: every weakly fair execution
  terminates, the result buffer holds the last host operation's slice of the second call's result array, and every
  argument is as launched.
-/
import proofs.«426971_j26585847562498_2_alg».proof.Proof.KernelIdeal.Run
import proofs.«426971_j26585847562498_2_alg».proof.Proof.KernelIdeal.Region1

noncomputable section

namespace Cert.KernelIdeal.Hand

open Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run of the whole program. -/
theorem run_main : θ_run defs (onTc (τ := τ) (main (F := F))) ⟨m, fun _ => 0, ρ⟩ (fun r => ∀ c : Dev nD,
      r.2.mem ((c.tc : Thread nD τ).loc main_v50) = V5 m (outs m) c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run m ρ (fun V c => body_obligation1 V c) (fun V c => hin1 V c) (fun V c => hout1 V c)

end Cert.KernelIdeal.Hand

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.Spec.lean ====
/-
  The network's values, entry by entry, on the extended reals.

  A SAGE layer's dense half gives node r, channel h the value
      max( Σ_k (agg(r,k) / max(deg(r), 1)) · Wl(k,h) + b(h) + Σ_k x(r,k) · Wr(k,h), 0 ).
  The pool adds up, for graph g and channel h, the rows of the second layer's activations whose graph id reads g; the
  classifier gives graph g, class o the value Σ_h (pooled(g,h) / max(count(g), 1)) · Wlin(h,o) + blin(o).
  Both programs compute exactly these entries; they differ in how the rows are grouped when they are added up (the
  kernel adds ten blocks of 5000 rows one after the other, and selects a graph's rows by multiplying with a one-hot
  matrix), which the sums below do not see: addition of extended reals is commutative and associative, zero times
  anything is zero and one times anything is itself.
-/
import Idealize.ShloMosaic.PureOps.Ideal.Laws
import Idealize.ShloMosaic.Lib.ValueIdx

noncomputable section

namespace Cert.Sage

open Idealize.ShloMosaic Idealize.ShloMosaic.ValueIdx
open scoped BigOperators

/-- The float words the two programs share: one and zero. -/
abbrev one : EReal := Ideal.ofBits .f32 0x3F800000#32
abbrev zero : EReal := Ideal.ofBits .f32 0x00000000#32

/-- A vector laid out as a column, as a row, and a matrix transposed: the forms the kernel's windows take the weights, the
    bias, the degrees and the graph ids in. -/
def colOf {α : Type} {n : ℕ} (v : (⟨1, ![n]⟩ : Shape).Idx → α) : (⟨2, ![n, 1]⟩ : Shape).Idx → α := fun i => v (ix1 (i 0))
def rowOf {α : Type} {n : ℕ} (v : (⟨1, ![n]⟩ : Shape).Idx → α) : (⟨2, ![1, n]⟩ : Shape).Idx → α := fun i => v (ix1 (i 1))
def transposeOf {α : Type} {a b : ℕ} (M : (⟨2, ![a, b]⟩ : Shape).Idx → α) : (⟨2, ![b, a]⟩ : Shape).Idx → α :=
  fun i => M (ix2 (i 1) (i 0))

/-- The 100 graph counts padded with zeros to a column of 128. -/
def padCnt (cnt : (⟨1, ![100]⟩ : Shape).Idx → EReal) : (⟨2, ![128, 1]⟩ : Shape).Idx → EReal :=
  fun i => if h : (i 0).val < 100 then cnt (ix1 ⟨(i 0).val, h⟩) else zero

/-- A layer's dense half at node `r`, channel `h`: `x` and `agg` are N×K, `deg` an N×1 column, the weights K×128 (already
    transposed), the bias a 1×128 row. -/
def layerAt {N K : ℕ} (x agg : (⟨2, ![N, K]⟩ : Shape).Idx → EReal) (deg : (⟨2, ![N, 1]⟩ : Shape).Idx → EReal)
    (wl wr : (⟨2, ![K, 128]⟩ : Shape).Idx → EReal) (b : (⟨2, ![1, 128]⟩ : Shape).Idx → EReal) (r : Fin N) (h : Fin 128) : EReal :=
  max (((∑ k : Fin K, Ideal.div (agg (ix2 r k)) (max (deg (ix2 r (0 : Fin 1))) one) * wl (ix2 k h)) + b (ix2 (0 : Fin 1) h))
      + ∑ k : Fin K, x (ix2 r k) * wr (ix2 k h)) zero

/-- The layer's activations as an N×128 array. -/
def layer {N K : ℕ} (x agg : (⟨2, ![N, K]⟩ : Shape).Idx → EReal) (deg : (⟨2, ![N, 1]⟩ : Shape).Idx → EReal)
    (wl wr : (⟨2, ![K, 128]⟩ : Shape).Idx → EReal) (b : (⟨2, ![1, 128]⟩ : Shape).Idx → EReal) :
    (⟨2, ![N, 128]⟩ : Shape).Idx → EReal :=
  fun i => layerAt x agg deg wl wr b (i 0) (i 1)

/-- Row `n`'s share of graph `g`'s pooled sum in channel `h`: the activation if the row's graph id reads `g`, else nothing. -/
def share {N : ℕ} (act : (⟨2, ![N, 128]⟩ : Shape).Idx → EReal) (ids : IVec ⟨2, ![N, 1]⟩ 32) (g h : Fin 128) (n : Fin N) : EReal :=
  if (ids (ix2 n (0 : Fin 1))).toInt = (g.val : ℤ) then act (ix2 n h) else 0

/-- Graph `g`'s pooled sum in channel `h`: over all rows at once. -/
def pooled {N : ℕ} (act : (⟨2, ![N, 128]⟩ : Shape).Idx → EReal) (ids : IVec ⟨2, ![N, 1]⟩ 32) (g h : Fin 128) : EReal :=
  ∑ n : Fin N, share act ids g h n

/-- The classifier at graph `g`, class `o`, from pooled sums `P`, a count column, the weights 128×2 (already transposed) and
    the bias row. -/
def classAt (P : Fin 128 → Fin 128 → EReal) (cnt : (⟨2, ![128, 1]⟩ : Shape).Idx → EReal)
    (wlin : (⟨2, ![128, 2]⟩ : Shape).Idx → EReal) (bl : (⟨2, ![1, 2]⟩ : Shape).Idx → EReal) (g : Fin 128) (o : Fin 2) : EReal :=
  (∑ h : Fin 128, Ideal.div (P g h) (max (cnt (ix2 g (0 : Fin 1))) one) * wlin (ix2 h o)) + bl (ix2 (0 : Fin 1) o)

/-- The pooled sums as the kernel forms them: zero, then ten blocks of 5000 rows added one after the other. -/
def pooledBlocks (act : (⟨2, ![50000, 128]⟩ : Shape).Idx → EReal) (ids : IVec ⟨2, ![50000, 1]⟩ 32) (g h : Fin 128) : ℕ → EReal
  | 0 => zero + ∑ j : Fin 5000, if hn : 5000 * 0 + j.val < 50000 then share act ids g h ⟨5000 * 0 + j.val, hn⟩ else 0
  | t + 1 => pooledBlocks act ids g h t
      + ∑ j : Fin 5000, if hn : 5000 * (t + 1) + j.val < 50000 then share act ids g h ⟨5000 * (t + 1) + j.val, hn⟩ else 0

end Cert.Sage

end
-- ==== Proof.KernelIdeal.Value0.lean ====
/-
  What the first pallas_call leaves in its result array, at the ideal values. Grid point t writes back the block of rows
  5000·t … 5000·t + 4999; the ten blocks tile the 50000 rows, and the entry the block's store puts at row r, channel h
  is the layer's value there, from rows of the arrays the windows read: so the whole array is the layer's activations.
-/
import proofs.«426971_j26585847562498_2_alg».proof.Proof.KernelIdeal.Region0
import proofs.«426971_j26585847562498_2_alg».proof.Proof.LibDenseLayer
import proofs.«426971_j26585847562498_2_alg».proof.Proof.LibRowOps
import proofs.«426971_j26585847562498_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- One product of the block, at row p, channel q: the row of the left factor against the column of the right one. -/
theorem blockProduct_apply (A : FVec Ideal S5000x20 .f32) (B : FVec Ideal S20x128 .f32) (p : Fin 5000) (q : Fin 128) :
    matmul dot_S5000x20_S20x128_S5000x128_1_0_0_1_n_n none A B (constant (F := Ideal) S5000x128 .f32 0x00000000#32) (ix2 p q)
      = ∑ l : Fin 20, A (ix2 p l) * B (ix2 l q) :=
  DenseLayer.matmul_rows_apply dot_S5000x20_S20x128_S5000x128_1_0_0_1_n_n_wf none A B p q

/-- The block's store at row p, channel q is the layer's value there, from the six loaded blocks. -/
theorem pay_apply (v0 : Vec Ideal S5000x1 .f32) (v4 v15 : Vec Ideal S5000x20 .f32) (v8 v16 : Vec Ideal S20x128 .f32)
    (v11 : Vec Ideal S1x128 .f32) (p : Fin 5000) (q : Fin 128) :
    k0_pay1 v0 v4 v8 v11 v15 v16 (ix2 p q) = Cert.Sage.layerAt (N := 5000) (K := 20) v15 v4 v0 v8 v16 v11 p q := by
  unfold k0_pay1 Cert.Sage.layerAt
  simp only [shapeCast_self]
  rw [maximumf_apply, addf_apply, addf_apply, broadcast_apply, blockProduct_apply, blockProduct_apply,
    broadcastTo_1b_ab_apply]
  simp only [divf_apply, RowOps.broadcastTo_a1_ab_apply, maximumf_apply, broadcast_apply]
  rfl

/-- The printed index maps, decided over the grid: the row windows (x, the neighbour sums, the degrees, the output) sit
    at block (t, 0) at point t; the weights and the bias at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is its block of the layer's activations over the arrays the windows read: the entry the
    store leaves at row p, channel q of the block is the layer's value at row 5000·t + p, channel q, each input block
    being read at the rows (or, for the weights and the bias, at the whole array) the output's block names. -/
theorem flushed_eq (c : Dev nD) (t : Fin cfg0.N) :
    (dat0 (F := Ideal) V c).flushed 6 t
      = ((cfg0.win 6).blk t).view.read (Elt Ideal)
          (Cert.Sage.layer (V c main_arg0) (V c main_v26) (V c main_v8) (V c main_v9) (V c main_v10) (V c main_v11)) := by
  show (cfg0.win 6).cut (grid0.coords t) ((dat0 V c).after 6 t) = _
  rw [after0_6]
  funext j
  obtain ⟨p, q, rfl⟩ : ∃ (p : Fin 5000) (q : Fin 128), j = ix2 p q := ⟨j 0, j 1, eq_ix2 j⟩
  show out0_6 V c t (ix2 p q) = Cert.Sage.layer (V c main_arg0) (V c main_v26) (V c main_v8) (V c main_v9) (V c main_v10) (V c main_v11) (((cfg0.win 6).blk t).view.emb (ix2 p q))
  unfold out0_6
  rw [pay_apply]
  unfold Cert.Sage.layer Cert.Sage.layerAt
  obtain ⟨a00, a01, a10, a11, a20, a21, a30, a31, a40, a41, a50, a51, a60, a61⟩ := idx_facts t
  have ex : ∀ k : Fin 20, iblk0 V c 0 t (ix2 p k) = V c main_arg0 (ix2 (((cfg0.win 6).blk t).view.emb (ix2 p q) 0) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 20 + 1 * k.val = k.val; omega
  have eagg : ∀ k : Fin 20, iblk0 V c 1 t (ix2 p k) = V c main_v26 (ix2 (((cfg0.win 6).blk t).view.emb (ix2 p q) 0) k) := fun k => by
    show V c main_v26 (((cfg0.win 1).blk t).view.emb (ix2 p k)) = _
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 20 + 1 * k.val = k.val; omega
  have edeg : iblk0 V c 2 t (ix2 p (0 : Fin 1)) = V c main_v8 (ix2 (((cfg0.win 6).blk t).view.emb (ix2 p q) 0) (0 : Fin 1)) := by
    show V c main_v8 (((cfg0.win 2).blk t).view.emb (ix2 p (0 : Fin 1))) = _
    refine congrArg _ (funext fun a => Fin.ext ?_)
    match a with
    | ⟨0, _⟩ => show win0_2.index t (0 : Fin 2) * 5000 + 1 * p.val = win0_6.index t (0 : Fin 2) * 5000 + 1 * p.val; omega
    | ⟨1, _⟩ => show win0_2.index t (1 : Fin 2) * 1 + 1 * 0 = 0; omega
  have ewl : ∀ k : Fin 20, iblk0 V c 3 t (ix2 k q) = V c main_v9 (ix2 k (((cfg0.win 6).blk t).view.emb (ix2 p q) 1)) := fun k => by
    show V c main_v9 (((cfg0.win 3).blk t).view.emb (ix2 k q)) = _
    refine congrArg _ (funext fun a => Fin.ext ?_)
    match a with
    | ⟨0, _⟩ => show win0_3.index t (0 : Fin 2) * 20 + 1 * k.val = k.val; omega
    | ⟨1, _⟩ => show win0_3.index t (1 : Fin 2) * 128 + 1 * q.val = win0_6.index t (1 : Fin 2) * 128 + 1 * q.val; omega
  have eb : iblk0 V c 4 t (ix2 (0 : Fin 1) q) = V c main_v11 (ix2 (0 : Fin 1) (((cfg0.win 6).blk t).view.emb (ix2 p q) 1)) := by
    show V c main_v11 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_6.index t (1 : Fin 2) * 128 + 1 * q.val; omega
  have ewr : ∀ k : Fin 20, iblk0 V c 5 t (ix2 k q) = V c main_v10 (ix2 k (((cfg0.win 6).blk t).view.emb (ix2 p q) 1)) := fun k => by
    show V c main_v10 (((cfg0.win 5).blk t).view.emb (ix2 k q)) = _
    refine congrArg _ (funext fun a => Fin.ext ?_)
    match a with
    | ⟨0, _⟩ => show win0_5.index t (0 : Fin 2) * 20 + 1 * k.val = k.val; omega
    | ⟨1, _⟩ => show win0_5.index t (1 : Fin 2) * 128 + 1 * q.val = win0_6.index t (1 : Fin 2) * 128 + 1 * q.val; omega
  simp only [ex, eagg, edeg, ewl, eb, ewr]

/-- An index of the result array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v27).slice (win0_6.rect t)).set ↔ _
  rw [View.set_slice_whole, Rect.mem_set_unit]
  exact Iff.rfl

/-- The ten blocks of 5000 rows tile the 50000 rows: row r lies in the block of point r / 5000, and every point writes
    its block back. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_6 t, ?_⟩
  rw [mem_blk]
  obtain ⟨a00, a01, a10, a11, a20, a21, a30, a31, a40, a41, a50, a51, a60, a61⟩ := idx_facts t
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- The first call's result array is the first layer's activations over the arrays its windows read (named by
    equations, so that they are never unfolded): x, the neighbour sums, the degree column, the two transposed weight
    matrices and the bias row. -/
theorem arr0_eq (c : Dev nD) (x agg : S50000x20.Idx → EReal) (deg : S50000x1.Idx → EReal) (wl wr : S20x128.Idx → EReal)
    (b : S1x128.Idx → EReal)
    (hx : V c main_arg0 = x) (hagg : V c main_v26 = agg) (hdeg : V c main_v8 = deg) (hwl : V c main_v9 = wl)
    (hb : V c main_v11 = b) (hwr : V c main_v10 = wr) :
    (dat0 (F := Ideal) V c).arrAt 6 cfg0.N = Cert.Sage.layer x agg deg wl wr b := by
  subst hx hagg hdeg hwl hb hwr
  exact (dat0 (F := Ideal) V c).arrAt_eq_of_cover 6 _ (fun t _ => flushed_eq V c t) covered

end Cert.KernelIdeal.HandValue

end
-- ==== Proof.LibMatmulColsByCols.lean ====
/-
  The matrix product that contracts the FIRST axis of both operands, read at an index, at the ideal values.

  A k×m matrix A and a k×n matrix B, both contracted along their rows' axis, give the m×n matrix whose entry (r, h) is
  the sum over the contracted coordinate l of A(l, r)·B(l, h): the product of the transpose of A with B. Into a zero
  accumulator, and at the ideal values, where no rounding and no order of summation is left, the product read at (r, h)
  is exactly that sum. The four coordinate lemmas say where each operand is read: the contracted axis takes the
  contraction's one coordinate, the other axis the matching coordinate of the result.
-/
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

/-- The dimension numbers `[0] × [0]`, kept axes `[1]` and `[1]`, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

/-- The left operand's contracted axis reads the contraction's coordinate. -/
theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

/-- The left operand's kept axis reads the result's first coordinate. -/
theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

/-- The right operand's contracted axis reads the contraction's coordinate. -/
theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- A kernel's product of the transpose of a k×m matrix with a k×n matrix into the zero accumulator, read at `(r, h)`. -/
theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.KernelIdeal.Value1.lean ====
/-
  What the second pallas_call leaves in its result array, at the ideal values. The scratch after grid point t holds,
  at (g, h), zero plus the blocks' sums up to t of the rows' shares (a row's second-layer activation in channel h where
  its graph id reads g: the one-hot entry is one there and zero elsewhere, and one times a value is the value, zero
  times it zero). The result array is written back once, after the last point, whole: the classifier's value from the
  scratch after that point.
-/
import proofs.«426971_j26585847562498_2_alg».proof.Proof.KernelIdeal.Region1Defs
import proofs.«426971_j26585847562498_2_alg».proof.Proof.LibDenseLayer
import proofs.«426971_j26585847562498_2_alg».proof.Proof.LibMatmulColsByCols
import proofs.«426971_j26585847562498_2_alg».proof.Proof.LibRowOps
import proofs.«426971_j26585847562498_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem pair_zero : (![0, 0] : Fin 2 → Nat) = fun _ => 0 := funext fun a => by fin_cases a <;> rfl

/-- The one write-back, at the last point, writes what the body stored there, whole: block (0, 0) of the 128×2 array
    read through zero offsets is the array. -/
theorem flushed1_eq (c : Dev nD) (t : Fin cfg1.N) (hf : (cfg1.win 10).flush t = true) :
    (dat1 (F := Ideal) V c).flushed 10 t = ((cfg1.win 10).blk t).view.read (Elt Ideal) (out1_10 V c t1_9) := by
  have hN : cfg1.N = 10 := N_1
  have h9 : t.val = 9 := by have := (flush1_10 t).mp hf; have := t.isLt; omega
  obtain rfl : t = t1_9 := Fin.ext h9
  show (cfg1.win 10).cut (grid1.coords t1_9) ((dat1 V c).after 10 t1_9) = _
  rw [after1_10]
  have hz' : (fun a => win1_10.index t1_9 a * main_v49.ty.shape.size a) = fun _ => 0 := funext fun a => by fin_cases a <;> decide
  exact (Memref.read_access_unit_zero (Elt Ideal) main_v49 hz' (fun a => by rw [congrFun hz' a]; simp) (out1_10 V c t1_9)).symm

/-- So the result array ends holding what the body stored at the last point: that point's block covers it. -/
theorem final1 (c : Dev nD) : (dat1 (F := Ideal) V c).arrAt 10 cfg1.N = out1_10 V c t1_9 :=
  (dat1 (F := Ideal) V c).arrAt_eq_of_cover 10 (out1_10 V c t1_9) (flushed1_eq V c) fun i =>
    ⟨t1_9, (flush1_10 t1_9).mpr rfl, by
      show i ∈ ((View.whole main_v49).slice (win1_10.rect t1_9)).set
      rw [View.set_slice_whole, Rect.mem_set_unit]
      intro a
      have h0 : (i 0 : Nat) < 128 := (i 0).isLt
      have h1 : (i 1 : Nat) < 2 := (i 1).isLt
      match a with
      | ⟨0, _⟩ =>
        show win1_10.index t1_9 0 * win1_10.size 0 ≤ (i 0 : Nat) ∧ (i 0 : Nat) < win1_10.index t1_9 0 * win1_10.size 0 + win1_10.xsize (grid1.coords t1_9) 0
        rw [show win1_10.index t1_9 0 * win1_10.size 0 = 0 from by decide +kernel, show win1_10.xsize (grid1.coords t1_9) 0 = 128 from by decide +kernel]; omega
      | ⟨1, _⟩ =>
        show win1_10.index t1_9 1 * win1_10.size 1 ≤ (i 1 : Nat) ∧ (i 1 : Nat) < win1_10.index t1_9 1 * win1_10.size 1 + win1_10.xsize (grid1.coords t1_9) 1
        rw [show win1_10.index t1_9 1 * win1_10.size 1 = 0 from by decide +kernel, show win1_10.xsize (grid1.coords t1_9) 1 = 2 from by decide +kernel]; omega⟩

/-- The classifier's store at (g, o), over any scratch contents, count column, weights and bias row: the pooled sums of
    row g divided by max(count, 1), times the weights' column o, plus the bias. -/
theorem pay2_apply (acc : S128x128.Idx → EReal) (cnt : S128x1.Idx → EReal) (wlin : S128x2.Idx → EReal) (bl : S1x2.Idx → EReal)
    (g : Fin 128) (o : Fin 2) :
    (k1_pay2 (F := Ideal) acc cnt wlin bl : S128x2.Idx → EReal) (ix2 g o)
      = Cert.Sage.classAt (fun g' h => acc (ix2 g' h)) cnt wlin bl g o := by
  unfold k1_pay2 Cert.Sage.classAt
  simp only [shapeCast_self]
  rw [addf_apply, broadcastTo_1b_ab_apply]
  refine congrArg (· + bl (ix2 (0 : Fin 1) o)) ?_
  unfold dot_S128x128_S128x2_S128x2_1_0_0_1_n_n
  refine (DenseLayer.matmul_rows_apply _ none _ wlin g o).trans ?_
  refine Finset.sum_congr rfl fun h _ => ?_
  rw [divf_apply, RowOps.broadcastTo_a1_ab_apply, maximumf_apply, broadcast_apply]
  rfl

/-- A block's rows of the second layer's activations at (l, h), over any blocks of the degree column, the neighbour
    sums, the first layer's activations, the two weight matrices and the bias row: the layer's value at row l. -/
theorem h2_apply (deg : FVec Ideal S5000x1 .f32) (agg x : FVec Ideal S5000x128 .f32) (wl wr : FVec Ideal S128x128 .f32)
    (b : FVec Ideal S1x128 .f32) (l : Fin 5000) (h : Fin 128) :
    (maximumf (addf (addf
        (matmul dot_S5000x128_S128x128_S5000x128_1_0_0_1_n_n none
          (divf agg (broadcastTo S5000x128 (maximumf deg (broadcast S5000x1 (Scalar.ofBits (F := Ideal) .f32 0x3F800000#32))) broadcasts_S5000x1_S5000x128))
          wl (constant S5000x128 .f32 0x00000000#32))
        (broadcastTo S5000x128 b broadcasts_S1x128_S5000x128))
        (matmul dot_S5000x128_S128x128_S5000x128_1_0_0_1_n_n none x wr (constant S5000x128 .f32 0x00000000#32)))
      (broadcast S5000x128 (Scalar.ofBits (F := Ideal) .f32 0x00000000#32)) : FVec Ideal S5000x128 .f32) (ix2 l h)
      = Cert.Sage.layerAt x agg deg wl wr b l h := by
  unfold Cert.Sage.layerAt dot_S5000x128_S128x128_S5000x128_1_0_0_1_n_n
  rw [maximumf_apply, addf_apply, addf_apply, broadcast_apply, broadcastTo_1b_ab_apply]
  refine congrArg₂ max (congrArg₂ (· + ·) (congrArg (· + b (ix2 (0 : Fin 1) h)) ?_) ?_) rfl
  · refine (DenseLayer.matmul_rows_apply _ none _ wl l h).trans ?_
    refine Finset.sum_congr rfl fun k _ => ?_
    rw [divf_apply, RowOps.broadcastTo_a1_ab_apply, maximumf_apply, broadcast_apply]
    rfl
  · exact DenseLayer.matmul_rows_apply _ none x wr l h

/-- A 32-bit word is the word of a graph number below 128 exactly when it reads, signed, that number. -/
theorem word_eq_iff (w : BitVec 32) (g : Fin 128) : w = BitVec.ofNat 32 g.val ↔ w.toInt = (g.val : ℤ) := by
  have hg := g.isLt
  have hw := w.isLt
  constructor
  · rintro rfl
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

/-- The one-hot entry: the comparison bit of a row's id word with the word g, widened and read as a number, is one
    where the id reads g and zero elsewhere. -/
theorem onehot_entry (w : BitVec 32) (g : Fin 128) :
    (FloatOps.sitofp (F := Ideal) .f32 ((IntOp.cmpi .eq w (BitVec.ofNat 32 g.val)).setWidth 32) : EReal)
      = if w.toInt = (g.val : ℤ) then 1 else 0 := by
  have one_word : ((BitVec.ofBool true).setWidth 32).toInt = 1 := by decide
  have zero_word : ((BitVec.ofBool false).setWidth 32).toInt = 0 := by decide
  by_cases hw : w = BitVec.ofNat 32 g.val
  · rw [if_pos ((word_eq_iff w g).mp hw), hw]
    show (((((BitVec.ofBool (BitVec.ofNat 32 g.val == BitVec.ofNat 32 g.val)).setWidth 32).toInt : ℝ)) : EReal) = 1
    rw [beq_self_eq_true, one_word, Int.cast_one, EReal.coe_one]
  · rw [if_neg (fun h => hw ((word_eq_iff w g).mpr h))]
    show (((((BitVec.ofBool (w == BitVec.ofNat 32 g.val)).setWidth 32).toInt : ℝ)) : EReal) = 0
    rw [beq_false_of_ne hw, zero_word, Int.cast_zero, EReal.coe_zero]

/-- The block's product at (g, h), over any blocks: the sum over the block's rows of each row's share, the second
    layer's activation in channel h where the row's graph id reads g. -/
theorem pay4_apply (deg : FVec Ideal S5000x1 .f32) (agg : FVec Ideal S5000x128 .f32) (wl : FVec Ideal S128x128 .f32)
    (b : FVec Ideal S1x128 .f32) (x : FVec Ideal S5000x128 .f32) (wr : FVec Ideal S128x128 .f32) (ids : IVec S5000x1 32)
    (g h : Fin 128) :
    (k1_pay4 (F := Ideal) deg agg wl b x wr ids : FVec Ideal S128x128 .f32) (ix2 g h)
      = ∑ l : Fin 5000, Cert.Sage.share (Cert.Sage.layer x agg deg wl wr b) ids g h l := by
  unfold k1_pay4 dot_S5000x128_S5000x128_S128x128_0_0_1_1_n_n
  simp only [shapeCast_self]
  refine (MatmulColsByCols.matmul_cols_apply _ (some .fp32) _ _ g h).trans ?_
  refine Finset.sum_congr rfl fun l _ => ?_
  rw [h2_apply, sitofp_apply, extui_apply]
  show FloatOps.sitofp (F := Ideal) .f32 ((IntOp.cmpi .eq (broadcastTo S5000x128 ids broadcasts_S5000x1_S5000x128 (ix2 l g))
      (iota .tc S5000x128 32 [1] iota_S5000x128_d1_w32 (ix2 l g))).setWidth 32) * _ = _
  rw [RowOps.broadcastTo_a1_ab_apply, iota_single_apply]
  show FloatOps.sitofp (F := Ideal) .f32 ((IntOp.cmpi .eq (ids (ix2 l (0 : Fin 1))) (BitVec.ofNat 32 g.val)).setWidth 32) * _ = _
  rw [onehot_entry]
  unfold Cert.Sage.share
  split
  · rw [one_mul]; rfl
  · rw [zero_mul]

/-- The block index of the four row-blocked windows at point t is (t, 0). -/
theorem index_rows (t : Fin cfg1.N) :
    (win1_0.index t 0 = t.val ∧ win1_0.index t 1 = 0) ∧ (win1_1.index t 0 = t.val ∧ win1_1.index t 1 = 0)
      ∧ (win1_2.index t 0 = t.val ∧ win1_2.index t 1 = 0) ∧ (win1_6.index t 0 = t.val ∧ win1_6.index t 1 = 0) := by
  rcases fin_N1 t with rfl | rfl | rfl | rfl | rfl | rfl | rfl | rfl | rfl | rfl <;> decide

/-- Window 0's block at point t, at (l, k), is the first layer's activations at row 5000·t + l. -/
theorem iblk1_0_apply (c : Dev nD) (t : Fin cfg1.N) (l : Fin 5000) (k : Fin 128) (hr : 5000 * t.val + l.val < 50000) :
    (iblk1 (F := Ideal) V c 0 t : FVec Ideal S5000x128 .f32) (ix2 l k)
      = (V c main_v27 : FVec Ideal S50000x128 .f32) (ix2 ⟨5000 * t.val + l.val, hr⟩ k) := by
  have hi := (index_rows t).1
  unfold iblk1
  rw [View.read_apply]
  show V c main_v27 _ = V c main_v27 _
  congr 1
  funext a
  apply Fin.ext
  match a with
  | ⟨0, _⟩ => show win1_0.index t 0 * 5000 + 1 * l.val = 5000 * t.val + l.val; rw [hi.1]; omega
  | ⟨1, _⟩ => show win1_0.index t 1 * 128 + 1 * k.val = k.val; rw [hi.2]; omega

/-- Window 1's block at point t, at (l, k), is the neighbour sums at row 5000·t + l. -/
theorem iblk1_1_apply (c : Dev nD) (t : Fin cfg1.N) (l : Fin 5000) (k : Fin 128) (hr : 5000 * t.val + l.val < 50000) :
    (iblk1 (F := Ideal) V c 1 t : FVec Ideal S5000x128 .f32) (ix2 l k)
      = (V c main_v39 : FVec Ideal S50000x128 .f32) (ix2 ⟨5000 * t.val + l.val, hr⟩ k) := by
  have hi := (index_rows t).2.1
  unfold iblk1
  rw [View.read_apply]
  show V c main_v39 _ = V c main_v39 _
  congr 1
  funext a
  apply Fin.ext
  match a with
  | ⟨0, _⟩ => show win1_1.index t 0 * 5000 + 1 * l.val = 5000 * t.val + l.val; rw [hi.1]; omega
  | ⟨1, _⟩ => show win1_1.index t 1 * 128 + 1 * k.val = k.val; rw [hi.2]; omega

/-- Window 2's block at point t, at (l, 0), is the degree column at row 5000·t + l. -/
theorem iblk1_2_apply (c : Dev nD) (t : Fin cfg1.N) (l : Fin 5000) (u : Fin 1) (hr : 5000 * t.val + l.val < 50000) :
    (iblk1 (F := Ideal) V c 2 t : FVec Ideal S5000x1 .f32) (ix2 l u)
      = (V c main_v8 : FVec Ideal S50000x1 .f32) (ix2 ⟨5000 * t.val + l.val, hr⟩ u) := by
  have hi := (index_rows t).2.2.1
  unfold iblk1
  rw [View.read_apply]
  show V c main_v8 _ = V c main_v8 _
  congr 1
  funext a
  apply Fin.ext
  match a with
  | ⟨0, _⟩ => show win1_2.index t 0 * 5000 + 1 * l.val = 5000 * t.val + l.val; rw [hi.1]; omega
  | ⟨1, _⟩ => show win1_2.index t 1 * 1 + 1 * u.val = u.val; rw [hi.2]; omega

/-- Window 6's block at point t, at (l, 0), is the graph-id column at row 5000·t + l. -/
theorem iblk1_6_apply (c : Dev nD) (t : Fin cfg1.N) (l : Fin 5000) (u : Fin 1) (hr : 5000 * t.val + l.val < 50000) :
    (iblk1 (F := Ideal) V c 6 t : IVec S5000x1 32) (ix2 l u)
      = (V c main_v40 : IVec S50000x1 32) (ix2 ⟨5000 * t.val + l.val, hr⟩ u) := by
  have hi := (index_rows t).2.2.2
  unfold iblk1
  rw [View.read_apply]
  show V c main_v40 _ = V c main_v40 _
  congr 1
  funext a
  apply Fin.ext
  match a with
  | ⟨0, _⟩ => show win1_6.index t 0 * 5000 + 1 * l.val = 5000 * t.val + l.val; rw [hi.1]; omega
  | ⟨1, _⟩ => show win1_6.index t 1 * 1 + 1 * u.val = u.val; rw [hi.2]; omega

/-- The windows whose block is their whole array, at every point: the two weight matrices and the bias row of the
    second layer, the count column, the classifier's weights and its bias row. -/
theorem iblk1_3_eq (c : Dev nD) (t : Fin cfg1.N) : (iblk1 (F := Ideal) V c 3 t : FVec Ideal S128x128 .f32) = V c main_v12 := by
  have hz' : (fun a => win1_3.index t a * main_v12.ty.shape.size a) = fun _ => 0 := funext fun a => by fin_cases a <;> rfl
  exact Memref.read_access_unit_zero (Elt Ideal) main_v12 hz' (fun a => by rw [congrFun hz' a]; simp) (V c main_v12)

theorem iblk1_4_eq (c : Dev nD) (t : Fin cfg1.N) : (iblk1 (F := Ideal) V c 4 t : FVec Ideal S1x128 .f32) = V c main_v14 := by
  have hz' : (fun a => win1_4.index t a * main_v14.ty.shape.size a) = fun _ => 0 := funext fun a => by fin_cases a <;> rfl
  exact Memref.read_access_unit_zero (Elt Ideal) main_v14 hz' (fun a => by rw [congrFun hz' a]; simp) (V c main_v14)

theorem iblk1_5_eq (c : Dev nD) (t : Fin cfg1.N) : (iblk1 (F := Ideal) V c 5 t : FVec Ideal S128x128 .f32) = V c main_v13 := by
  have hz' : (fun a => win1_5.index t a * main_v13.ty.shape.size a) = fun _ => 0 := funext fun a => by fin_cases a <;> rfl
  exact Memref.read_access_unit_zero (Elt Ideal) main_v13 hz' (fun a => by rw [congrFun hz' a]; simp) (V c main_v13)

theorem iblk1_7_eq (c : Dev nD) (t : Fin cfg1.N) : (iblk1 (F := Ideal) V c 7 t : FVec Ideal S128x1 .f32) = V c main_v48 := by
  have hz' : (fun a => win1_7.index t a * main_v48.ty.shape.size a) = fun _ => 0 := funext fun a => by fin_cases a <;> rfl
  exact Memref.read_access_unit_zero (Elt Ideal) main_v48 hz' (fun a => by rw [congrFun hz' a]; simp) (V c main_v48)

theorem iblk1_8_eq (c : Dev nD) (t : Fin cfg1.N) : (iblk1 (F := Ideal) V c 8 t : FVec Ideal S128x2 .f32) = V c main_v15 := by
  have hz' : (fun a => win1_8.index t a * main_v15.ty.shape.size a) = fun _ => 0 := funext fun a => by fin_cases a <;> rfl
  exact Memref.read_access_unit_zero (Elt Ideal) main_v15 hz' (fun a => by rw [congrFun hz' a]; simp) (V c main_v15)

theorem iblk1_9_eq (c : Dev nD) (t : Fin cfg1.N) : (iblk1 (F := Ideal) V c 9 t : FVec Ideal S1x2 .f32) = V c main_v16 := by
  have hz' : (fun a => win1_9.index t a * main_v16.ty.shape.size a) = fun _ => 0 := funext fun a => by fin_cases a <;> rfl
  exact Memref.read_access_unit_zero (Elt Ideal) main_v16 hz' (fun a => by rw [congrFun hz' a]; simp) (V c main_v16)

/-- The scratch's update at an entry: what it held there plus the product's entry. -/
theorem pay1_apply (a p : S128x128.Idx → EReal) (i : S128x128.Idx) :
    (k1_pay1 (F := Ideal) a p : S128x128.Idx → EReal) i = a i + p i := by
  unfold k1_pay1
  simp only [shapeCast_self]
  rw [addf_apply]

/-- The matrix the scratch starts from holds the zero word at every entry. -/
theorem pay3_apply (i : S128x128.Idx) : (k1_pay3 (F := Ideal) : S128x128.Idx → EReal) i = Cert.Sage.zero := by
  unfold k1_pay3
  simp only [shapeCast_self]
  rw [broadcast_apply]
  rfl

/-- A row's share computed from a block equals its share computed from the whole arrays, once the block's row l is the
    arrays' row r in the activations, the neighbour sums, the degree column and the graph-id column (the weights and the
    bias row are shared). -/
theorem share_rows (xB aggB : S5000x128.Idx → EReal) (degB : S5000x1.Idx → EReal) (idsB : IVec S5000x1 32)
    (x agg : S50000x128.Idx → EReal) (deg : S50000x1.Idx → EReal) (ids : IVec S50000x1 32)
    (wl wr : S128x128.Idx → EReal) (b : S1x128.Idx → EReal) (l : Fin 5000) (r : Fin 50000)
    (hx : ∀ k : Fin 128, xB (ix2 l k) = x (ix2 r k)) (hagg : ∀ k : Fin 128, aggB (ix2 l k) = agg (ix2 r k))
    (hdeg : degB (ix2 l (0 : Fin 1)) = deg (ix2 r (0 : Fin 1))) (hids : idsB (ix2 l (0 : Fin 1)) = ids (ix2 r (0 : Fin 1)))
    (g h : Fin 128) :
    Cert.Sage.share (Cert.Sage.layer xB aggB degB wl wr b) idsB g h l
      = Cert.Sage.share (Cert.Sage.layer x agg deg wl wr b) ids g h r := by
  unfold Cert.Sage.share
  rw [hids]
  split
  · show Cert.Sage.layerAt xB aggB degB wl wr b l h = Cert.Sage.layerAt x agg deg wl wr b r h
    unfold Cert.Sage.layerAt
    rw [hdeg]
    simp only [hx, hagg]
  · rfl

/-- The product the body forms at position n < 10, at (g, h): the sum over the block's 5000 rows of the shares of the
    whole arrays' rows 5000·n + l. -/
theorem partAt1_apply (c : Dev nD) (h1 agg : S50000x128.Idx → EReal) (deg : S50000x1.Idx → EReal) (wl wr : S128x128.Idx → EReal)
    (b : S1x128.Idx → EReal) (ids : IVec S50000x1 32)
    (e0 : V c main_v27 = h1) (e1 : V c main_v39 = agg) (e2 : V c main_v8 = deg) (e3 : V c main_v12 = wl) (e4 : V c main_v14 = b)
    (e5 : V c main_v13 = wr) (e6 : V c main_v40 = ids) (g h : Fin 128) (n : ℕ) (hn : n < 10) :
    (partAt1 (F := Ideal) V c n : S128x128.Idx → EReal) (ix2 g h)
      = ∑ l : Fin 5000, if hr : 5000 * n + l.val < 50000 then
          Cert.Sage.share (Cert.Sage.layer h1 agg deg wl wr b) ids g h ⟨5000 * n + l.val, hr⟩ else 0 := by
  have hN : n < cfg1.N := by rw [show cfg1.N = 10 from N_1]; exact hn
  unfold partAt1
  rw [dif_pos hN]
  unfold part1
  refine (pay4_apply (iblk1 (F := Ideal) V c 2 ⟨n, hN⟩) (iblk1 (F := Ideal) V c 1 ⟨n, hN⟩) (iblk1 (F := Ideal) V c 3 ⟨n, hN⟩)
    (iblk1 (F := Ideal) V c 4 ⟨n, hN⟩) (iblk1 (F := Ideal) V c 0 ⟨n, hN⟩) (iblk1 (F := Ideal) V c 5 ⟨n, hN⟩)
    (iblk1 (F := Ideal) V c 6 ⟨n, hN⟩) g h).trans ?_
  refine Finset.sum_congr rfl fun l _ => ?_
  have hr : 5000 * n + l.val < 50000 := by have := l.isLt; omega
  rw [dif_pos hr]
  have w3 : (iblk1 (F := Ideal) V c 3 ⟨n, hN⟩ : FVec Ideal S128x128 .f32) = wl := (iblk1_3_eq V c ⟨n, hN⟩).trans e3
  have w4 : (iblk1 (F := Ideal) V c 4 ⟨n, hN⟩ : FVec Ideal S1x128 .f32) = b := (iblk1_4_eq V c ⟨n, hN⟩).trans e4
  have w5 : (iblk1 (F := Ideal) V c 5 ⟨n, hN⟩ : FVec Ideal S128x128 .f32) = wr := (iblk1_5_eq V c ⟨n, hN⟩).trans e5
  refine (congrArg (fun w : FVec Ideal S128x128 .f32 => Cert.Sage.share (Cert.Sage.layer (iblk1 (F := Ideal) V c 0 ⟨n, hN⟩ : FVec Ideal S5000x128 .f32)
      (iblk1 (F := Ideal) V c 1 ⟨n, hN⟩ : FVec Ideal S5000x128 .f32) (iblk1 (F := Ideal) V c 2 ⟨n, hN⟩ : FVec Ideal S5000x1 .f32) w
      (iblk1 (F := Ideal) V c 5 ⟨n, hN⟩ : FVec Ideal S128x128 .f32) (iblk1 (F := Ideal) V c 4 ⟨n, hN⟩ : FVec Ideal S1x128 .f32))
      (iblk1 (F := Ideal) V c 6 ⟨n, hN⟩ : IVec S5000x1 32) g h l) w3).trans ?_
  refine (congrArg (fun w : FVec Ideal S128x128 .f32 => Cert.Sage.share (Cert.Sage.layer (iblk1 (F := Ideal) V c 0 ⟨n, hN⟩ : FVec Ideal S5000x128 .f32)
      (iblk1 (F := Ideal) V c 1 ⟨n, hN⟩ : FVec Ideal S5000x128 .f32) (iblk1 (F := Ideal) V c 2 ⟨n, hN⟩ : FVec Ideal S5000x1 .f32) wl
      w (iblk1 (F := Ideal) V c 4 ⟨n, hN⟩ : FVec Ideal S1x128 .f32))
      (iblk1 (F := Ideal) V c 6 ⟨n, hN⟩ : IVec S5000x1 32) g h l) w5).trans ?_
  refine (congrArg (fun w : FVec Ideal S1x128 .f32 => Cert.Sage.share (Cert.Sage.layer (iblk1 (F := Ideal) V c 0 ⟨n, hN⟩ : FVec Ideal S5000x128 .f32)
      (iblk1 (F := Ideal) V c 1 ⟨n, hN⟩ : FVec Ideal S5000x128 .f32) (iblk1 (F := Ideal) V c 2 ⟨n, hN⟩ : FVec Ideal S5000x1 .f32) wl
      wr w)
      (iblk1 (F := Ideal) V c 6 ⟨n, hN⟩ : IVec S5000x1 32) g h l) w4).trans ?_
  exact share_rows (iblk1 (F := Ideal) V c 0 ⟨n, hN⟩) (iblk1 (F := Ideal) V c 1 ⟨n, hN⟩) (iblk1 (F := Ideal) V c 2 ⟨n, hN⟩)
    (iblk1 (F := Ideal) V c 6 ⟨n, hN⟩) h1 agg deg ids wl wr b l ⟨5000 * n + l.val, hr⟩
    (fun k => (iblk1_0_apply V c ⟨n, hN⟩ l k hr).trans (congrFun e0 _))
    (fun k => (iblk1_1_apply V c ⟨n, hN⟩ l k hr).trans (congrFun e1 _))
    ((iblk1_2_apply V c ⟨n, hN⟩ l (0 : Fin 1) hr).trans (congrFun e2 _))
    ((iblk1_6_apply V c ⟨n, hN⟩ l (0 : Fin 1) hr).trans (congrFun e6 _)) g h

/-- THE SCRATCH. After the body at position n < 10 the scratch holds, at (g, h), the pooled sums formed block by block up
    to block n: by induction on n, each step adding the position's product to what the step before left. -/
theorem accAt1_apply (c : Dev nD) (h1 agg : S50000x128.Idx → EReal) (deg : S50000x1.Idx → EReal) (wl wr : S128x128.Idx → EReal)
    (b : S1x128.Idx → EReal) (ids : IVec S50000x1 32)
    (e0 : V c main_v27 = h1) (e1 : V c main_v39 = agg) (e2 : V c main_v8 = deg) (e3 : V c main_v12 = wl) (e4 : V c main_v14 = b)
    (e5 : V c main_v13 = wr) (e6 : V c main_v40 = ids) (g h : Fin 128) :
    ∀ n : ℕ, n < 10 → (accAt1 (F := Ideal) V c n : S128x128.Idx → EReal) (ix2 g h)
      = Cert.Sage.pooledBlocks (Cert.Sage.layer h1 agg deg wl wr b) ids g h n := by
  intro n
  induction n with
  | zero =>
    intro hn
    rw [accAt1, Cert.Sage.pooledBlocks]
    refine (pay1_apply (k1_pay3 (F := Ideal)) (partAt1 (F := Ideal) V c 0) (ix2 g h)).trans ?_
    rw [pay3_apply (ix2 g h), partAt1_apply V c h1 agg deg wl wr b ids e0 e1 e2 e3 e4 e5 e6 g h 0 hn]
  | succ m ih =>
    intro hn
    rw [accAt1, Cert.Sage.pooledBlocks]
    refine (pay1_apply (accAt1 (F := Ideal) V c m) (partAt1 (F := Ideal) V c (m + 1)) (ix2 g h)).trans ?_
    rw [ih (by omega), partAt1_apply V c h1 agg deg wl wr b ids e0 e1 e2 e3 e4 e5 e6 g h (m + 1) hn]

/-- The second call's result array at graph row g (of the 128 padded rows), class o: the classifier over the pooled
    sums formed block by block from the second layer's activations, over the arrays its windows read. The array ends
    holding what the body stored at the last point; that store is the classifier's value over the scratch after the
    last point, which holds the pooled sums up to block 9, and over the count column, the classifier's weights and its
    bias row, whose windows are their whole arrays. -/
theorem arr1_eq (c : Dev nD) (h1 agg : S50000x128.Idx → EReal) (deg : S50000x1.Idx → EReal) (wl wr : S128x128.Idx → EReal)
    (b : S1x128.Idx → EReal) (ids : IVec S50000x1 32) (cnt : S128x1.Idx → EReal) (wlin : S128x2.Idx → EReal) (bl : S1x2.Idx → EReal)
    (e0 : V c main_v27 = h1) (e1 : V c main_v39 = agg) (e2 : V c main_v8 = deg) (e3 : V c main_v12 = wl) (e4 : V c main_v14 = b)
    (e5 : V c main_v13 = wr) (e6 : V c main_v40 = ids) (e7 : V c main_v48 = cnt) (e8 : V c main_v15 = wlin) (e9 : V c main_v16 = bl)
    (g : Fin 128) (o : Fin 2) :
    ((dat1 (F := Ideal) V c).arrAt 10 cfg1.N : S128x2.Idx → EReal) (ix2 g o)
      = Cert.Sage.classAt (fun g' h => Cert.Sage.pooledBlocks (Cert.Sage.layer h1 agg deg wl wr b) ids g' h 9) cnt wlin bl g o := by
  rw [final1]
  unfold out1_10
  refine (pay2_apply (accAt1 (F := Ideal) V c t1_9.val) (iblk1 (F := Ideal) V c 7 t1_9) (iblk1 (F := Ideal) V c 8 t1_9)
    (iblk1 (F := Ideal) V c 9 t1_9) g o).trans ?_
  have w7 : (iblk1 (F := Ideal) V c 7 t1_9 : FVec Ideal S128x1 .f32) = cnt := (iblk1_7_eq V c t1_9).trans e7
  have w8 : (iblk1 (F := Ideal) V c 8 t1_9 : FVec Ideal S128x2 .f32) = wlin := (iblk1_8_eq V c t1_9).trans e8
  have w9 : (iblk1 (F := Ideal) V c 9 t1_9 : FVec Ideal S1x2 .f32) = bl := (iblk1_9_eq V c t1_9).trans e9
  have hacc : (fun (g' h : Fin 128) => (accAt1 (F := Ideal) V c t1_9.val : S128x128.Idx → EReal) (ix2 g' h))
      = fun g' h => Cert.Sage.pooledBlocks (Cert.Sage.layer h1 agg deg wl wr b) ids g' h 9 :=
    funext fun g' => funext fun h => accAt1_apply V c h1 agg deg wl wr b ids e0 e1 e2 e3 e4 e5 e6 g' h 9 (by omega)
  rw [hacc, w7, w8, w9]

end Cert.KernelIdeal.HandValue

end
-- ==== Proof.RefShared.lean ====
/-
  The second layer's neighbour sums as a function of the first layer's activations: the rows the edges' source ids name
  are gathered, and added up at the rows the edges' target ids name. Both programs form it with the same two host
  operations from the same index columns; it is carried as one function and never opened.
-/
import proofs.«426971_j26585847562498_2_alg».proof.Proof.Gen.ReferenceIdeal.Read

noncomputable section

namespace Cert.Sage

open Idealize.ShloMosaic

/-- The neighbour sums of an activation array `h` along the edges `x1`. -/
def agg2Of (h : FVec Ideal Cert.ReferenceIdeal.S50000x128 .f32)
    (x1 : (⟨Cert.ReferenceIdeal.S2x640000, .i32⟩ : BufTy).Contents (Elt Ideal)) :
    FVec Ideal Cert.ReferenceIdeal.S50000x128 .f32 :=
  Host.scatterAdd (F := Ideal) (φ := .f32) Cert.ReferenceIdeal.scatter_S50000x128_S640000x1_S640000x128_1_0_0_1
    (Cert.ReferenceIdeal.Read.val_main_v39 (F := Ideal)) (Cert.ReferenceIdeal.Read.val_main_v40 (F := Ideal) x1)
    (Host.gather Cert.ReferenceIdeal.gather_S50000x128_S640000x1_S640000x128_1_0_n_n_0_1_1128 h
      (Cert.ReferenceIdeal.Read.val_main_v37 (F := Ideal) x1))

/-- The reference's own neighbour sums of the second layer are that function of its first-layer activations. -/
theorem ref_agg2 (x0 : (⟨Cert.ReferenceIdeal.S50000x20, .f32⟩ : BufTy).Contents (Elt Ideal))
    (x1 : (⟨Cert.ReferenceIdeal.S2x640000, .i32⟩ : BufTy).Contents (Elt Ideal))
    (x3 : (⟨Cert.ReferenceIdeal.S128x20, .f32⟩ : BufTy).Contents (Elt Ideal))
    (x4 : (⟨Cert.ReferenceIdeal.S128, .f32⟩ : BufTy).Contents (Elt Ideal))
    (x5 : (⟨Cert.ReferenceIdeal.S128x20, .f32⟩ : BufTy).Contents (Elt Ideal)) :
    Cert.ReferenceIdeal.Read.val_main_v41 (F := Ideal) x0 x1 x3 x4 x5
      = agg2Of (Cert.ReferenceIdeal.Read.val_main_v31 (F := Ideal) x0 x1 x3 x4 x5) x1 := by
  unfold Cert.ReferenceIdeal.Read.val_main_v41 Cert.ReferenceIdeal.Read.val_main_v38 agg2Of
  rfl

end Cert.Sage

end
-- ==== Proof.LibScatterSet.lean ====
/-
  The host's replacing scatter read at an entry, for any dimension numbers.

  The host's scatter whose body returns the update's element is a left fold over the update indices in row-major order:
  each step sends its update index to an operand index (the window's start plus the window coordinate, when that is
  inside the operand on every axis) and replaces the entry there by the update's element; an update whose operand index
  falls outside the operand is dropped. So where several updates land on one entry the LATER one in row-major order
  stays. Read at an entry i this gives two cases: either some update lands at i, and then the result at i is the element
  of the LAST update (in row-major order) that lands there; or no update lands at i, and the result at i is the
  operand's entry.

  The road: first a fold over any list whose step replaces the value at the step's target. By induction from the right,
  its value at i is the value of an element n with target i in a splitting l = l₁ ++ n :: l₂ where nothing in l₂ has
  target i, or the initial value at i when nothing in l has target i. The list of all positions below a bound is strictly
  increasing and holds every position, so in such a splitting of it every position above n lies in l₂; that turns the
  splitting into "no later position has target i".
-/
import Idealize.ShloMosaic.PureOps.ShapeOps
import Mathlib.Data.List.Sort

namespace Idealize.ShloMosaic.ScatterSet

open Idealize.ShloMosaic

/-- A left fold whose step, at an element with target i, replaces the value at i by that element's value, and at any
    other element leaves the value at i alone: its value at i is the value of the last element of the list with
    target i, or the initial value at i when the list has no such element. -/
theorem foldl_set_cases {ι I α : Type} (tgt : ι → Option I) (val : ι → α) (i : I)
    (step : (I → α) → ι → (I → α))
    (hhit : ∀ r n, tgt n = some i → step r n i = val n)
    (hmiss : ∀ r n, tgt n ≠ some i → step r n i = r i)
    (x : I → α) (l : List ι) :
    (∃ l₁ n l₂, l = l₁ ++ n :: l₂ ∧ tgt n = some i ∧ (∀ m ∈ l₂, tgt m ≠ some i) ∧ l.foldl step x i = val n)
      ∨ ((∀ m ∈ l, tgt m ≠ some i) ∧ l.foldl step x i = x i) := by
  induction l using List.reverseRecOn with
  | nil => exact Or.inr ⟨by simp, rfl⟩
  | append_singleton l n ih =>
    rw [List.foldl_append, List.foldl_cons, List.foldl_nil]
    by_cases hn : tgt n = some i
    · exact Or.inl ⟨l, n, [], rfl, hn, by simp, hhit _ n hn⟩
    · rw [hmiss _ n hn]
      rcases ih with ⟨l₁, m, l₂, hl, hm, hl₂, hv⟩ | ⟨hno, hv⟩
      · refine Or.inl ⟨l₁, m, l₂ ++ [n], by rw [hl]; simp, hm, ?_, hv⟩
        intro k hk
        rcases List.mem_append.1 hk with hk | hk
        · exact hl₂ k hk
        · rw [List.mem_singleton.1 hk]; exact hn
      · refine Or.inr ⟨?_, hv⟩
        intro k hk
        rcases List.mem_append.1 hk with hk | hk
        · exact hno k hk
        · rw [List.mem_singleton.1 hk]; exact hn

/-- The same fold over all positions below N, in increasing order: its value at i is the value of the LAST position
    with target i, or the initial value at i when no position has target i. -/
theorem foldl_finRange_set_cases {N : ℕ} {I α : Type} (tgt : Fin N → Option I) (val : Fin N → α) (i : I)
    (step : (I → α) → Fin N → (I → α))
    (hhit : ∀ r n, tgt n = some i → step r n i = val n)
    (hmiss : ∀ r n, tgt n ≠ some i → step r n i = r i)
    (x : I → α) :
    (∃ n : Fin N, tgt n = some i ∧ (∀ n' : Fin N, n < n' → tgt n' ≠ some i)
        ∧ (List.finRange N).foldl step x i = val n)
      ∨ ((∀ n : Fin N, tgt n ≠ some i) ∧ (List.finRange N).foldl step x i = x i) := by
  rcases foldl_set_cases tgt val i step hhit hmiss x (List.finRange N) with ⟨l₁, n, l₂, hl, hn, hl₂, hv⟩ | ⟨hno, hv⟩
  · refine Or.inl ⟨n, hn, ?_, hv⟩
    intro n' hlt
    have hsorted : (l₁ ++ n :: l₂).Pairwise (· < ·) := hl ▸ (List.sortedLT_finRange N).pairwise
    have hmem : n' ∈ l₁ ++ n :: l₂ := hl ▸ List.mem_finRange n'
    rcases List.mem_append.1 hmem with h | h
    · exact absurd ((List.pairwise_append.1 hsorted).2.2 n' h n (List.mem_cons_self ..)) (lt_asymm hlt)
    · rcases List.mem_cons.1 h with h | h
      · exact absurd h (ne_of_gt hlt)
      · exact hl₂ n' h
  · exact Or.inr ⟨fun n => hno n (List.mem_finRange n), hv⟩

/-- The replacing scatter read at an entry i: either some update index lands at i, and the result at i is the element
    of the last such update index in row-major order; or no update index lands at i, and the result at i is the operand's
    entry. -/
theorem scatter_set_cases {α : Type} {s si u : Shape} {w : ℕ} (d : ScatterDims s si u)
    (x : s.Idx → α) (idx : IVec si w) (upd : u.Idx → α) (i : s.Idx) :
    (∃ n : Fin u.numel, d.resultIdx? (u.rowMajor.symm n) idx = some i
        ∧ (∀ n' : Fin u.numel, n < n' → d.resultIdx? (u.rowMajor.symm n') idx ≠ some i)
        ∧ Host.scatter d (fun _ b => b) x idx upd i = upd (u.rowMajor.symm n))
    ∨ ((∀ n : Fin u.numel, d.resultIdx? (u.rowMajor.symm n) idx ≠ some i)
        ∧ Host.scatter d (fun _ b => b) x idx upd i = x i) := by
  unfold Host.scatter
  refine foldl_finRange_set_cases (fun n => d.resultIdx? (u.rowMajor.symm n) idx) (fun n => upd (u.rowMajor.symm n)) i
    _ ?_ ?_ x
  · intro r n hn
    have hn' : d.resultIdx? (u.rowMajor.symm n) idx = some i := hn
    simp only [hn', if_true]
  · intro r n hn
    have hn' : d.resultIdx? (u.rowMajor.symm n) idx ≠ some i := hn
    cases h₀ : d.resultIdx? (u.rowMajor.symm n) idx with
    | none => simp only [h₀]
    | some i₀ =>
      have hne : i ≠ i₀ := fun h => hn' (h₀.trans (congrArg some h.symm))
      simp only [h₀, if_neg hne]

end Idealize.ShloMosaic.ScatterSet
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.KernelIdeal.HostSide.lean ====
/-
  The arrays the two pallas_calls' windows read, as functions of the program's arguments, at the ideal values. Before
  the first call the host operations have formed the neighbour sums of x and the in-degrees along the edges and have
  laid the weights out transposed and the bias as a row; before the second call they have formed the neighbour sums of
  the first layer's activations (through a change of float format and back, which is the identity on extended reals),
  the graph ids as a column and the graph sizes padded with zeros to 128 rows; after it the result's first 100 rows
  are sliced out. The gathers and the additions along the edges are the very operations the reference applies: they are
  carried as the reference's own stage functions and never opened.
-/
import proofs.«426971_j26585847562498_2_alg».proof.Proof.KernelIdeal.RunDefs
import proofs.«426971_j26585847562498_2_alg».proof.Proof.RefShared
import proofs.«426971_j26585847562498_2_alg».proof.Proof.LibRowOps
import proofs.«426971_j26585847562498_2_alg».proof.Proof.LibScatterSet
import proofs.«426971_j26585847562498_2_alg».proof.Proof.LibScatterAddRows
import Idealize.ShloMosaic.Lib.StableHlo.Run
import proofs.«426971_j26585847562498_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HostSide

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- Argument 0 as launched. -/
abbrev A0 := m ((c.tc : Thread nD τ).loc main_arg0)
/-- Argument 1 as launched. -/
abbrev A1 := m ((c.tc : Thread nD τ).loc main_arg1)
/-- Argument 2 as launched. -/
abbrev A2 := m ((c.tc : Thread nD τ).loc main_arg2)
/-- Argument 3 as launched. -/
abbrev A3 := m ((c.tc : Thread nD τ).loc main_arg3)
/-- Argument 4 as launched. -/
abbrev A4 := m ((c.tc : Thread nD τ).loc main_arg4)
/-- Argument 5 as launched. -/
abbrev A5 := m ((c.tc : Thread nD τ).loc main_arg5)
/-- Argument 6 as launched. -/
abbrev A6 := m ((c.tc : Thread nD τ).loc main_arg6)
/-- Argument 7 as launched. -/
abbrev A7 := m ((c.tc : Thread nD τ).loc main_arg7)
/-- Argument 8 as launched. -/
abbrev A8 := m ((c.tc : Thread nD τ).loc main_arg8)
/-- Argument 9 as launched. -/
abbrev A9 := m ((c.tc : Thread nD τ).loc main_arg9)
/-- Argument 10 as launched. -/
abbrev A10 := m ((c.tc : Thread nD τ).loc main_arg10)

/-! ## Layout operations as the specification's forms -/

/-- A matrix transposed by the permutation [1, 0] is the specification's transpose. -/
theorem transpose_eq_transposeOf {α : Type} {a b : ℕ} (x : (⟨2, ![a, b]⟩ : Shape).Idx → α)
    (h : (⟨2, ![a, b]⟩ : Shape).Transposes [1, 0] ⟨2, ![b, a]⟩) :
    transpose ⟨2, ![b, a]⟩ [1, 0] x h = Cert.Sage.transposeOf x := by
  funext i
  obtain ⟨p, q, rfl⟩ : ∃ (p : Fin b) (q : Fin a), i = ix2 p q := ⟨i 0, i 1, eq_ix2 i⟩
  exact transpose_ix2_apply x h p q

/-- A vector cast to one row is the specification's row. -/
theorem shapeCast_eq_rowOf {α : Type} {a : ℕ} (x : (⟨1, ![a]⟩ : Shape).Idx → α)
    (h : (⟨1, ![a]⟩ : Shape).ShapeCasts ⟨2, ![1, a]⟩) :
    shapeCast ⟨2, ![1, a]⟩ x h = Cert.Sage.rowOf x := by
  funext i
  obtain ⟨u, q, rfl⟩ : ∃ (u : Fin 1) (q : Fin a), i = ix2 u q := ⟨i 0, i 1, eq_ix2 i⟩
  exact shapeCast_a_1a_apply x h u q

/-- A vector cast to one column is the specification's column. -/
theorem shapeCast_eq_colOf {α : Type} {a : ℕ} (x : (⟨1, ![a]⟩ : Shape).Idx → α)
    (h : (⟨1, ![a]⟩ : Shape).ShapeCasts ⟨2, ![a, 1]⟩) :
    shapeCast ⟨2, ![a, 1]⟩ x h = Cert.Sage.colOf x := by
  funext i
  obtain ⟨p, u, rfl⟩ : ∃ (p : Fin a) (u : Fin 1), i = ix2 p u := ⟨i 0, i 1, eq_ix2 i⟩
  exact RowOps.shapeCast_a_a1_apply x h p u

/-! ## A replacing scatter of a vector at the one window start 0 -/

section SetAtZero
variable {C N : ℕ} (wf : ScatterDims.WF ⟨1, ![C]⟩ ⟨1, ![1]⟩ ⟨1, ![N]⟩ [0] [] [0] 0)

/-- The one index word every update reads. -/
private theorem set0_siIdx (j : (⟨1, ![N]⟩ : Shape).Idx) (cc) :
    (⟨[0], [], [0], 0, wf⟩ : ScatterDims ⟨1, ![C]⟩ ⟨1, ![1]⟩ ⟨1, ![N]⟩).siIdx j cc = ix1 (0 : Fin 1) := by
  funext b
  match b with
  | ⟨0, _⟩ =>
    apply Fin.ext
    have hc : cc.val < 1 := cc.isLt
    show cc.val = 0
    omega

/-- The window starts at the one index word, read signed. -/
private theorem set0_start {w : ℕ} (j : (⟨1, ![N]⟩ : Shape).Idx) (idx : IVec ⟨1, ![1]⟩ w) :
    (⟨[0], [], [0], 0, wf⟩ : ScatterDims ⟨1, ![C]⟩ ⟨1, ![1]⟩ ⟨1, ![N]⟩).start j idx 0
      = (idx (ix1 (0 : Fin 1))).toInt := by
  unfold ScatterDims.start
  rw [dif_pos (List.mem_cons_self ..), set0_siIdx] <;> rfl

/-- The window coordinate is the update's position. -/
private theorem set0_window (j : (⟨1, ![N]⟩ : Shape).Idx) :
    (⟨[0], [], [0], 0, wf⟩ : ScatterDims ⟨1, ![C]⟩ ⟨1, ![1]⟩ ⟨1, ![N]⟩).window j 0 = (j 0).val := by
  rfl

/-- Update j lands at entry k exactly when the index word plus j's position is k. -/
theorem set0_resultIdx?_iff {w : ℕ} (j : (⟨1, ![N]⟩ : Shape).Idx) (idx : IVec ⟨1, ![1]⟩ w) (k : Fin C) :
    (⟨[0], [], [0], 0, wf⟩ : ScatterDims ⟨1, ![C]⟩ ⟨1, ![1]⟩ ⟨1, ![N]⟩).resultIdx? j idx = some (ix1 k)
      ↔ (idx (ix1 (0 : Fin 1))).toInt + ((j 0).val : ℤ) = (k.val : ℤ) := by
  rw [ScatterAddRows.resultIdx?_eq_some_iff, Fin.forall_fin_one, set0_start, set0_window]

/-- With the index word 0, entry g of the result is update g when g is below the number of updates, and the
    operand's entry otherwise. -/
theorem scatter_set_at_zero {α : Type} {w : ℕ} (x : (⟨1, ![C]⟩ : Shape).Idx → α) (idx : IVec ⟨1, ![1]⟩ w)
    (hidx : (idx (ix1 (0 : Fin 1))).toInt = 0) (upd : (⟨1, ![N]⟩ : Shape).Idx → α) (g : Fin C) :
    Host.scatter (⟨[0], [], [0], 0, wf⟩ : ScatterDims ⟨1, ![C]⟩ ⟨1, ![1]⟩ ⟨1, ![N]⟩) (fun _ b => b) x idx upd (ix1 g)
      = if h : g.val < N then upd (ix1 ⟨g.val, h⟩) else x (ix1 g) := by
  rcases ScatterSet.scatter_set_cases (⟨[0], [], [0], 0, wf⟩ : ScatterDims ⟨1, ![C]⟩ ⟨1, ![1]⟩ ⟨1, ![N]⟩) x idx upd (ix1 g)
    with ⟨n, hn, _, hv⟩ | ⟨hno, hv⟩
  · rw [hv]
    have h1 := (set0_resultIdx?_iff wf _ idx g).1 hn
    rw [hidx] at h1
    generalize (⟨1, ![N]⟩ : Shape).rowMajor.symm n = j at h1
    have hlt : (j 0).val < N := (j 0).isLt
    have hg : (j 0).val = g.val := by omega
    have hgN : g.val < N := by omega
    rw [dif_pos hgN, eq_ix1 j]
    exact congrArg (fun t => upd (ix1 t)) (Fin.ext hg)
  · rw [hv]
    by_cases h : g.val < N
    · exfalso
      refine hno ((⟨1, ![N]⟩ : Shape).rowMajor (ix1 ⟨g.val, h⟩)) ?_
      rw [Equiv.symm_apply_apply]
      refine (set0_resultIdx?_iff wf _ idx g).2 ?_
      rw [hidx]
      show (0 : ℤ) + ((g.val : ℕ) : ℤ) = _
      omega
    · rw [dif_neg h]

end SetAtZero

open Cert.ReferenceIdeal.Read in
theorem k_v1 : Vr1 m c main_v1 = val_main_v1 (F := Ideal) (A1 m c) := by
  show StableHlo.after hostOps0 (fun b => m (c, b)) (Proc.devRef .tc main_v1) = _
  after_results
  unfold val_main_v1 val_main_v0
  rfl
/-! ## The neighbour sums, operand by operand -/

/-- A scatter-add is determined by its dimension numbers, operand, index column and updates. -/
theorem scatterAdd_congr {s si u : Shape} {w : ℕ} {φ : FTy} {d d' : ScatterDims s si u}
    {x x' : FVec Ideal s φ} {i i' : IVec si w} {y y' : FVec Ideal u φ}
    (hd : d = d') (hx : x = x') (hi : i = i') (hy : y = y') :
    Host.scatterAdd d x i y = Host.scatterAdd d' x' i' y' := by
  subst hd hx hi hy; rfl

/-- A gather is determined by its dimension numbers, operand and index column. -/
theorem gather_congr {α : Type} {s si t : Shape} {w : ℕ} {d d' : GatherDims s si t}
    {x x' : s.Idx → α} {i i' : IVec si w} (hd : d = d') (hx : x = x') (hi : i = i') :
    Host.gather d x i = Host.gather d' x' i' := by
  subst hd hx hi; rfl

/-- A broadcast along given axes is determined by its operand. -/
theorem broadcastInDim_congr {α : Type} {s t : Shape} {dims : Fin s.rank → Fin t.rank}
    {h h' : s.BroadcastsInDim t dims} {x x' : s.Idx → α} (hx : x = x') :
    broadcastInDim t dims h x = broadcastInDim t dims h' x' := by
  subst hx; rfl

/-- On extended reals a widening change of float format leaves a vector as it is. -/
theorem extf_eq_self {s : Shape} {φ ψ : FTy} (a : FVec Ideal s φ) (h : φ.bits < ψ.bits) :
    (extf ψ a h : FVec Ideal s ψ) = (a : s.Idx → EReal) := rfl

/-- On extended reals a narrowing change of float format leaves a vector as it is. -/
theorem truncf_eq_self {s : Shape} {φ ψ : FTy} (a : FVec Ideal s φ) (h : ψ.bits < φ.bits) :
    (truncf ψ a h : FVec Ideal s ψ) = (a : s.Idx → EReal) := rfl

open Cert.ReferenceIdeal.Read in
theorem k_v3 : Vr1 m c main_v3 = val_main_v3 (F := Ideal) (A1 m c) := by
  show StableHlo.after hostOps0 (fun b => m (c, b)) (Proc.devRef .tc main_v3) = _
  after_results
  unfold val_main_v3 val_main_v2
  rfl

/-! ## Entering the first call -/

theorem v1_x : Vr1 m c main_arg0 = (A0 m c) :=
  (V1_of m c main_arg0 (by decide)).trans rfl

open Cert.ReferenceIdeal.Read in
set_option maxHeartbeats 2000000 in
/-- The neighbour sums of x: the reference's own stage. The zero operand, the target column and the gathered rows are
    each the reference's own; the source column is the same wrap-around of the same ids. -/
theorem v1_agg : Vr1 m c main_v26 = Cert.ReferenceIdeal.Read.val_main_v13 (F := Ideal) (A0 m c) (A1 m c) := by
  show StableHlo.after hostOps0 (fun b => m (c, b)) (Proc.devRef .tc main_v26) = _
  after_results
  unfold val_main_v13
  refine scatterAdd_congr rfl ?_ ?_ ?_
  · unfold val_main_v11 val_main_cst
    rfl
  · unfold val_main_v12 val_main_v3 val_main_v2
    rfl
  · unfold val_main_v10
    refine gather_congr rfl rfl ?_
    unfold val_main_v9
    refine broadcastInDim_congr ?_
    unfold val_main_v8 val_main_v7 val_main_v6 val_main_c_0 val_main_v5 val_main_v4 val_main_c val_main_v1 val_main_v0
    rfl

open Cert.ReferenceIdeal.Read in
theorem v1_deg : Vr1 m c main_v8 = Cert.Sage.colOf (Cert.ReferenceIdeal.Read.val_main_v17 (F := Ideal) (A1 m c)) := by
  have e : (Vr1 m c main_v8 : S50000x1.Idx → EReal)
      = shapeCast S50000x1 (val_main_v17 (F := Ideal) (A1 m c)) shapeCasts_S50000_S50000x1 := by
    show StableHlo.after hostOps0 (fun b => m (c, b)) (Proc.devRef .tc main_v8) = _
    after_results
    unfold val_main_v17 val_main_v16 val_main_v15 val_main_v14 val_main_v3 val_main_v2 val_main_cst_1 val_main_cst_2
    rfl
  exact e.trans (shapeCast_eq_colOf _ _)

theorem v1_wl : Vr1 m c main_v9 = Cert.Sage.transposeOf ((A3 m c) : S128x20.Idx → EReal) := by
  have e : (Vr1 m c main_v9 : S20x128.Idx → EReal)
      = transpose S20x128 [1, 0] (A3 m c) transposes_S128x20_S20x128_1_0 := by
    show StableHlo.after hostOps0 (fun b => m (c, b)) (Proc.devRef .tc main_v9) = _
    after_results <;> rfl
  exact e.trans (transpose_eq_transposeOf _ _)
theorem v1_wr : Vr1 m c main_v10 = Cert.Sage.transposeOf ((A5 m c) : S128x20.Idx → EReal) := by
  have e : (Vr1 m c main_v10 : S20x128.Idx → EReal)
      = transpose S20x128 [1, 0] (A5 m c) transposes_S128x20_S20x128_1_0 := by
    show StableHlo.after hostOps0 (fun b => m (c, b)) (Proc.devRef .tc main_v10) = _
    after_results <;> rfl
  exact e.trans (transpose_eq_transposeOf _ _)
theorem v1_b : Vr1 m c main_v11 = Cert.Sage.rowOf ((A4 m c) : S128.Idx → EReal) := by
  have e : (Vr1 m c main_v11 : S1x128.Idx → EReal)
      = shapeCast S1x128 (A4 m c) shapeCasts_S128_S1x128 := by
    show StableHlo.after hostOps0 (fun b => m (c, b)) (Proc.devRef .tc main_v11) = _
    after_results <;> rfl
  exact e.trans (shapeCast_eq_rowOf _ _)

/-! ## Entering the second call -/

/-- A reference the second stretch of host operations does not write, other than the first call's result, still
    holds what it held when the first call was entered. -/
theorem Vr3_of (r : Ref sig .tc) (h : r ∉ hostOps1_W) (h' : r ≠ main_v27) : Vr3 m c r = Vr1 m c r :=
  (StableHlo.after_of_writes_sub hostOps1 _ hostOps1_writes h).trans
    (Function.update_of_ne (StableHlo.devRef_ne_of_ne h') _ _)

/-- After the first call a reference other than its result holds what it held before. -/
theorem W2_of (r : Ref sig .tc) (h' : r ≠ main_v27) : W2 m c r = Vr1 m c r :=
  Function.update_of_ne (StableHlo.devRef_ne_of_ne h') _ _

theorem v3_h1 : Vr3 m c main_v27 = h1Arr m c :=
  (StableHlo.after_of_writes_sub hostOps1 _ hostOps1_writes (by decide)).trans (Function.update_self _ _ _)

theorem v3_wl : Vr3 m c main_v12 = Cert.Sage.transposeOf ((A6 m c) : S128x128.Idx → EReal) := by
  have e : (Vr1 m c main_v12 : S128x128.Idx → EReal)
      = transpose S128x128 [1, 0] (A6 m c) transposes_S128x128_S128x128_1_0 := by
    show StableHlo.after hostOps0 (fun b => m (c, b)) (Proc.devRef .tc main_v12) = _
    after_results <;> rfl
  exact (Vr3_of m c main_v12 (by decide) (by decide)).trans (e.trans (transpose_eq_transposeOf _ _))
theorem v3_wr : Vr3 m c main_v13 = Cert.Sage.transposeOf ((A8 m c) : S128x128.Idx → EReal) := by
  have e : (Vr1 m c main_v13 : S128x128.Idx → EReal)
      = transpose S128x128 [1, 0] (A8 m c) transposes_S128x128_S128x128_1_0 := by
    show StableHlo.after hostOps0 (fun b => m (c, b)) (Proc.devRef .tc main_v13) = _
    after_results <;> rfl
  exact (Vr3_of m c main_v13 (by decide) (by decide)).trans (e.trans (transpose_eq_transposeOf _ _))
theorem v3_b : Vr3 m c main_v14 = Cert.Sage.rowOf ((A7 m c) : S128.Idx → EReal) := by
  have e : (Vr1 m c main_v14 : S1x128.Idx → EReal)
      = shapeCast S1x128 (A7 m c) shapeCasts_S128_S1x128 := by
    show StableHlo.after hostOps0 (fun b => m (c, b)) (Proc.devRef .tc main_v14) = _
    after_results <;> rfl
  exact (Vr3_of m c main_v14 (by decide) (by decide)).trans (e.trans (shapeCast_eq_rowOf _ _))
theorem v3_ids : Vr3 m c main_v40 = Cert.Sage.colOf ((A2 m c) : S50000.Idx → BitVec 32) := by
  have e : (Vr3 m c main_v40 : S50000x1.Idx → BitVec 32)
      = shapeCast S50000x1 (W2 m c main_arg2) shapeCasts_S50000_S50000x1 := by
    show StableHlo.after hostOps1 (W2 m c) (Proc.devRef .tc main_v40) = _
    after_results <;> rfl
  have a : W2 m c main_arg2 = A2 m c :=
    (W2_of m c main_arg2 (by decide)).trans ((V1_of m c main_arg2 (by decide)).trans rfl)
  exact e.trans ((congrArg (fun x => shapeCast S50000x1 x shapeCasts_S50000_S50000x1) a).trans
    (shapeCast_eq_colOf _ _))
theorem v3_wlin : Vr3 m c main_v15 = Cert.Sage.transposeOf ((A9 m c) : S2x128.Idx → EReal) := by
  have e : (Vr1 m c main_v15 : S128x2.Idx → EReal)
      = transpose S128x2 [1, 0] (A9 m c) transposes_S2x128_S128x2_1_0 := by
    show StableHlo.after hostOps0 (fun b => m (c, b)) (Proc.devRef .tc main_v15) = _
    after_results <;> rfl
  exact (Vr3_of m c main_v15 (by decide) (by decide)).trans (e.trans (transpose_eq_transposeOf _ _))
theorem v3_blin : Vr3 m c main_v16 = Cert.Sage.rowOf ((A10 m c) : S2.Idx → EReal) := by
  have e : (Vr1 m c main_v16 : S1x2.Idx → EReal)
      = shapeCast S1x2 (A10 m c) shapeCasts_S2_S1x2 := by
    show StableHlo.after hostOps0 (fun b => m (c, b)) (Proc.devRef .tc main_v16) = _
    after_results <;> rfl
  exact (Vr3_of m c main_v16 (by decide) (by decide)).trans (e.trans (shapeCast_eq_rowOf _ _))

open Cert.ReferenceIdeal.Read in
set_option maxHeartbeats 2000000 in
/-- The neighbour sums of the first layer's activations: the shared function of them. The id columns are read back to
    what the first stretch of host operations left; the two changes of float format are the identity. -/
theorem v3_agg : Vr3 m c main_v39 = Cert.Sage.agg2Of (h1Arr m c) (A1 m c) := by
  have a1 : W2 m c main_v1 = val_main_v1 (F := Ideal) (A1 m c) := (W2_of m c main_v1 (by decide)).trans (k_v1 m c)
  have a3 : W2 m c main_v3 = val_main_v3 (F := Ideal) (A1 m c) := (W2_of m c main_v3 (by decide)).trans (k_v3 m c)
  have a27 : W2 m c main_v27 = h1Arr m c := Function.update_self _ _ _
  show StableHlo.after hostOps1 (W2 m c) (Proc.devRef .tc main_v39) = _
  after_results
  rw [a1, a3, a27]
  unfold Cert.Sage.agg2Of
  refine scatterAdd_congr rfl ?_ ?_ ?_
  · unfold val_main_v39 val_main_cst_6
    rfl
  · unfold val_main_v40
    rfl
  · refine (extf_eq_self (φ := .bf16) (ψ := .f32) _ _).trans ?_
    refine gather_congr rfl (truncf_eq_self (φ := .f32) (ψ := .bf16) _ _) ?_
    unfold val_main_v37
    refine broadcastInDim_congr ?_
    unfold val_main_v36 val_main_v35 val_main_v34 val_main_c_5 val_main_v33 val_main_v32 val_main_c_4
    rfl
theorem v3_deg : Vr3 m c main_v8 = Cert.Sage.colOf (Cert.ReferenceIdeal.Read.val_main_v17 (F := Ideal) (A1 m c)) :=
  (Vr3_of m c main_v8 (by decide) (by decide)).trans (v1_deg m c)
/-- The graph sizes padded to 128 rows: the reference's own stage, padded. -/
theorem v3_cnt : Vr3 m c main_v48 = Cert.Sage.padCnt (Cert.ReferenceIdeal.Read.val_main_v66 (F := Ideal) (A2 m c)) := by
  -- What the host operations leave in the buffer: the sizes, set into 128 zeros at start 0, as a column.
  have e : (Vr3 m c main_v48 : S128x1.Idx → EReal)
      = shapeCast S128x1
          (Host.scatter scatter_S128_S1_S100_0_n_0_0 (fun _ b => b)
            (broadcastInDim S128 ![] bcast_S_S128 (constant (F := Ideal) S_ .f32 0x00000000#32))
            (broadcastInDim S1 ![] bcast_S_S1 (constantI S_ 32 0#32))
            (Host.scatterAdd (F := Ideal) scatter_S100_S50000x1_S50000_n_0_0_1
               (broadcastInDim S100 ![] bcast_S_S100 (constant (F := Ideal) S_ .f32 0x00000000#32))
               (broadcastInDim S50000x1 ![0] bcast_S50000_S50000x1_0 (W2 m c main_arg2))
               (broadcastInDim S50000 ![] bcast_S_S50000 (constant (F := Ideal) S_ .f32 0x3F800000#32))))
          shapeCasts_S128_S128x1 := by
    show StableHlo.after hostOps1 (W2 m c) (Proc.devRef .tc main_v48) = _
    after_results <;> rfl
  -- The graph ids are still the launch's.
  have a : W2 m c main_arg2 = A2 m c :=
    (W2_of m c main_arg2 (by decide)).trans ((V1_of m c main_arg2 (by decide)).trans rfl)
  -- The sizes are formed by the reference's own operations, operand by operand.
  have h64 : (broadcastInDim S100 ![] bcast_S_S100 (constant (F := Ideal) S_ .f32 0x00000000#32))
      = Cert.ReferenceIdeal.Read.val_main_v64 (F := Ideal) := by
    unfold Cert.ReferenceIdeal.Read.val_main_v64 Cert.ReferenceIdeal.Read.val_main_cst_12
    rfl
  have h65 : (broadcastInDim S50000x1 ![0] bcast_S50000_S50000x1_0 (A2 m c))
      = Cert.ReferenceIdeal.Read.val_main_v65 (F := Ideal) (A2 m c) := by
    unfold Cert.ReferenceIdeal.Read.val_main_v65
    rfl
  have h63 : (broadcastInDim S50000 ![] bcast_S_S50000 (constant (F := Ideal) S_ .f32 0x3F800000#32))
      = Cert.ReferenceIdeal.Read.val_main_v63 (F := Ideal) := by
    unfold Cert.ReferenceIdeal.Read.val_main_v63 Cert.ReferenceIdeal.Read.val_main_cst_11
    rfl
  have hcnt : Host.scatterAdd (F := Ideal) scatter_S100_S50000x1_S50000_n_0_0_1
               (broadcastInDim S100 ![] bcast_S_S100 (constant (F := Ideal) S_ .f32 0x00000000#32))
               (broadcastInDim S50000x1 ![0] bcast_S50000_S50000x1_0 (W2 m c main_arg2))
               (broadcastInDim S50000 ![] bcast_S_S50000 (constant (F := Ideal) S_ .f32 0x3F800000#32))
      = Cert.ReferenceIdeal.Read.val_main_v66 (F := Ideal) (A2 m c) := by
    rw [a, h64, h65, h63]
    unfold Cert.ReferenceIdeal.Read.val_main_v66
    rfl
  -- The one index word is 0.
  have hidx : ((broadcastInDim S1 ![] bcast_S_S1 (constantI S_ 32 0#32) : IVec S1 32) (ix1 (0 : Fin 1))).toInt = 0 := by
    rfl
  refine e.trans ?_
  rw [hcnt]
  refine (shapeCast_eq_colOf (a := 128) _ shapeCasts_S128_S128x1).trans ?_
  funext i
  obtain ⟨p, u, rfl⟩ : ∃ (p : Fin 128) (u : Fin 1), i = ix2 p u := ⟨i 0, i 1, eq_ix2 i⟩
  -- Entry p of the padded vector: the size of graph p below 100, the zero the vector was filled with from 100 on.
  show Host.scatter (⟨[0], [], [0], 0, scatter_S128_S1_S100_0_n_0_0_wf⟩ : ScatterDims ⟨1, ![128]⟩ ⟨1, ![1]⟩ ⟨1, ![100]⟩)
      (fun _ b => b) _ _ _ (ix1 p)
    = if h : p.val < 100 then Cert.ReferenceIdeal.Read.val_main_v66 (F := Ideal) (A2 m c) (ix1 ⟨p.val, h⟩) else Cert.Sage.zero
  rw [scatter_set_at_zero scatter_S128_S1_S100_0_n_0_0_wf _ _ hidx _ p]
  by_cases h : p.val < 100
  · rw [dif_pos h, dif_pos h]
  · rw [dif_neg h, dif_neg h]
    rfl

/-! ## After the second call -/

/-- The result: rows 0 … 99 of the second call's result array. -/
theorem v5_out (g : Fin 100) (o : Fin 2) :
    (V5 m (outs m) c main_v50 : S100x2.Idx → EReal) (ix2 g o)
      = (outArr m c : S128x2.Idx → EReal) (ix2 (⟨g.val, by omega⟩ : Fin 128) o) := by
  have e : (V5 m (outs m) c main_v50 : S100x2.Idx → EReal)
      = extractStridedSlice S100x2 ![0, 0] (V4 m (outs m) c main_v49) slices_S128x2_S100x2_0_0 := by
    show StableHlo.after hostOps2 (V4 m (outs m) c) (Proc.devRef .tc main_v50) = _
    after_results <;> rfl
  have a : V4 m (outs m) c main_v49 = outArr m c := by
    refine (Function.update_self _ _ _).trans ?_
    show outs m 4 main_v49 c = _
    have hne : ¬ (main_v49 : Ref sig .tc) = main_v27 := by decide
    unfold outs
    rw [dif_neg hne, dif_pos rfl]
  rw [e, a]
  exact extractStridedSlice_apply ![0, 0] _ slices_S128x2_S100x2_0_0 (ix2 g o) (ix2 (⟨g.val, by omega⟩ : Fin 128) o)
    (fun ax => match ax with
      | ⟨0, _⟩ => by show g.val = 0 + g.val; omega
      | ⟨1, _⟩ => by show o.val = 0 + o.val; omega)

end Cert.KernelIdeal.HostSide

end
-- ==== Proof.RefRead.lean ====
/-
  The reference, entry by entry, at the ideal values. Read one operation at a time, its first-layer activations are
  the layer's entries over x, the neighbour sums of x, the in-degrees, the weights and the bias; its second-layer
  activations the same over the first layer's; and its result at graph g, class o is the classifier's entry over the
  rows' shares added up at once, the graph sizes, the classifier's weights and bias. A host matrix product read at an
  entry is the sum over the contracted coordinate; an accumulating scatter read at an entry is the operand's entry plus
  the sum of the updates that land there; a maximum against a broadcast scalar is the maximum with that scalar.
-/
import proofs.«426971_j26585847562498_2_alg».proof.Proof.RefShared
import proofs.«426971_j26585847562498_2_alg».proof.Proof.LibDenseLayer
import proofs.«426971_j26585847562498_2_alg».proof.Proof.LibScatterAddRows
import proofs.«426971_j26585847562498_2_alg».proof.Proof.LibRowOps
import proofs.«426971_j26585847562498_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

variable (x0 : (⟨S50000x20, .f32⟩ : BufTy).Contents (Elt Ideal)) (x1 : (⟨S2x640000, .i32⟩ : BufTy).Contents (Elt Ideal))
  (x2 : (⟨S50000, .i32⟩ : BufTy).Contents (Elt Ideal)) (x3 : (⟨S128x20, .f32⟩ : BufTy).Contents (Elt Ideal))
  (x4 : (⟨S128, .f32⟩ : BufTy).Contents (Elt Ideal)) (x5 : (⟨S128x20, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S2x128, .f32⟩ : BufTy).Contents (Elt Ideal))
  (x10 : (⟨S2, .f32⟩ : BufTy).Contents (Elt Ideal))

/-- The reference's first-layer activations are the layer's entries. -/
theorem ref_h1 :
    val_main_v31 (F := Ideal) x0 x1 x3 x4 x5
      = Cert.Sage.layer (x0 : S50000x20.Idx → EReal) (val_main_v13 (F := Ideal) x0 x1) (Cert.Sage.colOf (val_main_v17 (F := Ideal) x1))
          (Cert.Sage.transposeOf (x3 : S128x20.Idx → EReal)) (Cert.Sage.transposeOf (x5 : S128x20.Idx → EReal))
          (Cert.Sage.rowOf (x4 : S128.Idx → EReal)) := by
  funext i
  obtain ⟨r, h, rfl⟩ : ∃ (r : Fin 50000) (h : Fin 128), i = ix2 r h := ⟨i 0, i 1, eq_ix2 i⟩
  -- the float operations at the ideal values and the element-wise stages, as equations between entries
  have hmax : ∀ a b : Ideal FTy.f32, FloatOps.maximumf a b = max a b := fun _ _ => rfl
  have hadd : ∀ a b : Ideal FTy.f32, FloatOps.addf a b = a + b := fun _ _ => rfl
  have hdiv : ∀ a b : Ideal FTy.f32, FloatOps.hostDivf a b = Ideal.div a b := fun _ _ => rfl
  have hbits : ∀ w : BitVec 32, FloatOps.ofBits (F := Ideal) FTy.f32 w = Ideal.ofBits FTy.f32 w := fun _ => rfl
  have h22 := val_main_v22_apply (F := Ideal) x0 x1
  have h19 := val_main_v19_apply (F := Ideal) x1
  have h3 := val_main_cst_3_apply (F := Ideal)
  rw [val_main_v31_apply, val_main_v30_apply, val_main_v27_apply, val_main_v24_apply, val_main_v29_apply,
      val_main_v26_apply, val_main_v25_apply, val_main_call0_v0_apply, val_main_call0_cst_apply]
  simp only [h22, val_main_v21_apply, val_main_v20_apply, h19, val_main_v18_apply, h3, val_main_v23_apply,
    val_main_v28_apply, hmax, hadd, hdiv, hbits]
  -- the specification's entry at (r, h), its column, row and transposes read at their coordinates
  have hlayer : ∀ (X A : S50000x20.Idx → EReal) (D : (⟨2, ![50000, 1]⟩ : Shape).Idx → EReal)
      (Wl Wr : S20x128.Idx → EReal) (B : (⟨2, ![1, 128]⟩ : Shape).Idx → EReal),
      Cert.Sage.layer X A D Wl Wr B (ix2 r h)
        = max (((∑ k : Fin 20, Ideal.div (A (ix2 r k)) (max (D (ix2 r (0 : Fin 1))) Cert.Sage.one) * Wl (ix2 k h))
            + B (ix2 (0 : Fin 1) h)) + ∑ k : Fin 20, X (ix2 r k) * Wr (ix2 k h)) Cert.Sage.zero :=
    fun _ _ _ _ _ _ => rfl
  have hcol : ∀ (v : S50000.Idx → EReal) (a : Fin 50000) (b : Fin 1), Cert.Sage.colOf v (ix2 a b) = v (ix1 a) :=
    fun _ _ _ => rfl
  have hrow : ∀ (v : S128.Idx → EReal) (a : Fin 1) (b : Fin 128), Cert.Sage.rowOf v (ix2 a b) = v (ix1 b) :=
    fun _ _ _ => rfl
  have htr : ∀ (M : S128x20.Idx → EReal) (a : Fin 20) (b : Fin 128), Cert.Sage.transposeOf M (ix2 a b) = M (ix2 b a) :=
    fun _ _ _ => rfl
  rw [hlayer]
  simp only [hcol, hrow, htr]
  -- the indices the operations read are the coordinates
  have eAgg : ∀ k : Fin 20, lidx_main_v24 (ix2 r h) k = ix2 r k := fun k => funext fun a => Fin.ext (by
    match a with | ⟨0, _⟩ => rfl | ⟨1, _⟩ => rfl)
  have eDeg : ∀ k : Fin 20, idx_main_v20 (idx_main_v21 (ix2 r k)) = ix1 r := fun k => funext fun a => Fin.ext (by
    match a with | ⟨0, _⟩ => rfl)
  have eWl : ∀ k : Fin 20, idx_main_v23 (ridx_main_v24 (ix2 r h) k) = ix2 h k := fun k => funext fun a => Fin.ext (by
    match a with | ⟨0, _⟩ => rfl | ⟨1, _⟩ => rfl)
  have eB : idx_main_v25 (idx_main_v26 (ix2 r h)) = ix1 h := funext fun a => Fin.ext (by
    match a with | ⟨0, _⟩ => rfl)
  have eX : ∀ k : Fin 20, lidx_main_v29 (ix2 r h) k = ix2 r k := fun k => funext fun a => Fin.ext (by
    match a with | ⟨0, _⟩ => rfl | ⟨1, _⟩ => rfl)
  have eWr : ∀ k : Fin 20, idx_main_v28 (ridx_main_v29 (ix2 r h) k) = ix2 h k := fun k => funext fun a => Fin.ext (by
    match a with | ⟨0, _⟩ => rfl | ⟨1, _⟩ => rfl)
  simp only [eAgg, eDeg, eWl, eB, eX, eWr]

/-- The reference's second-layer activations are the layer's entries over the first layer's. -/
theorem ref_h2 :
    val_main_v59 (F := Ideal) x0 x1 x3 x4 x5 x6 x7 x8
      = Cert.Sage.layer (val_main_v31 (F := Ideal) x0 x1 x3 x4 x5) (val_main_v41 (F := Ideal) x0 x1 x3 x4 x5)
          (Cert.Sage.colOf (val_main_v17 (F := Ideal) x1))
          (Cert.Sage.transposeOf (x6 : S128x128.Idx → EReal)) (Cert.Sage.transposeOf (x8 : S128x128.Idx → EReal))
          (Cert.Sage.rowOf (x7 : S128.Idx → EReal)) := by
  funext i
  obtain ⟨r, h, rfl⟩ : ∃ (r : Fin 50000) (h : Fin 128), i = ix2 r h := ⟨i 0, i 1, eq_ix2 i⟩
  -- the second layer counts the in-degrees again, by the same operations on the same operands
  have hdeg : val_main_v45 (F := Ideal) x1 = val_main_v17 (F := Ideal) x1 := rfl
  -- the float operations at the ideal values and the element-wise stages, as equations between entries
  have hmax : ∀ a b : Ideal FTy.f32, FloatOps.maximumf a b = max a b := fun _ _ => rfl
  have hadd : ∀ a b : Ideal FTy.f32, FloatOps.addf a b = a + b := fun _ _ => rfl
  have hdiv : ∀ a b : Ideal FTy.f32, FloatOps.hostDivf a b = Ideal.div a b := fun _ _ => rfl
  have hbits : ∀ w : BitVec 32, FloatOps.ofBits (F := Ideal) FTy.f32 w = Ideal.ofBits FTy.f32 w := fun _ => rfl
  have h50 := val_main_v50_apply (F := Ideal) x0 x1 x3 x4 x5
  have h47 := val_main_v47_apply (F := Ideal) x1
  have h9 := val_main_cst_9_apply (F := Ideal)
  rw [val_main_v59_apply, val_main_v58_apply, val_main_v55_apply, val_main_v52_apply, val_main_v57_apply,
      val_main_v54_apply, val_main_v53_apply, val_main_call1_v0_apply, val_main_call1_cst_apply]
  simp only [h50, val_main_v49_apply, val_main_v48_apply, h47, val_main_v46_apply, h9, val_main_v51_apply,
    val_main_v56_apply, hdeg, hmax, hadd, hdiv, hbits]
  -- the specification's entry at (r, h), its column, row and transposes read at their coordinates
  have hlayer : ∀ (X A : S50000x128.Idx → EReal) (D : (⟨2, ![50000, 1]⟩ : Shape).Idx → EReal)
      (Wl Wr : S128x128.Idx → EReal) (B : (⟨2, ![1, 128]⟩ : Shape).Idx → EReal),
      Cert.Sage.layer X A D Wl Wr B (ix2 r h)
        = max (((∑ k : Fin 128, Ideal.div (A (ix2 r k)) (max (D (ix2 r (0 : Fin 1))) Cert.Sage.one) * Wl (ix2 k h))
            + B (ix2 (0 : Fin 1) h)) + ∑ k : Fin 128, X (ix2 r k) * Wr (ix2 k h)) Cert.Sage.zero :=
    fun _ _ _ _ _ _ => rfl
  have hcol : ∀ (v : S50000.Idx → EReal) (a : Fin 50000) (b : Fin 1), Cert.Sage.colOf v (ix2 a b) = v (ix1 a) :=
    fun _ _ _ => rfl
  have hrow : ∀ (v : S128.Idx → EReal) (a : Fin 1) (b : Fin 128), Cert.Sage.rowOf v (ix2 a b) = v (ix1 b) :=
    fun _ _ _ => rfl
  have htr : ∀ (M : S128x128.Idx → EReal) (a b : Fin 128), Cert.Sage.transposeOf M (ix2 a b) = M (ix2 b a) :=
    fun _ _ _ => rfl
  rw [hlayer]
  simp only [hcol, hrow, htr]
  -- the indices the operations read are the coordinates
  have eAgg : ∀ k : Fin 128, lidx_main_v52 (ix2 r h) k = ix2 r k := fun k => funext fun a => Fin.ext (by
    match a with | ⟨0, _⟩ => rfl | ⟨1, _⟩ => rfl)
  have eDeg : ∀ k : Fin 128, idx_main_v48 (idx_main_v49 (ix2 r k)) = ix1 r := fun k => funext fun a => Fin.ext (by
    match a with | ⟨0, _⟩ => rfl)
  have eWl : ∀ k : Fin 128, idx_main_v51 (ridx_main_v52 (ix2 r h) k) = ix2 h k := fun k => funext fun a => Fin.ext (by
    match a with | ⟨0, _⟩ => rfl | ⟨1, _⟩ => rfl)
  have eB : idx_main_v53 (idx_main_v54 (ix2 r h)) = ix1 h := funext fun a => Fin.ext (by
    match a with | ⟨0, _⟩ => rfl)
  have eX : ∀ k : Fin 128, lidx_main_v57 (ix2 r h) k = ix2 r k := fun k => funext fun a => Fin.ext (by
    match a with | ⟨0, _⟩ => rfl | ⟨1, _⟩ => rfl)
  have eWr : ∀ k : Fin 128, idx_main_v56 (ridx_main_v57 (ix2 r h) k) = ix2 h k := fun k => funext fun a => Fin.ext (by
    match a with | ⟨0, _⟩ => rfl | ⟨1, _⟩ => rfl)
  simp only [eAgg, eDeg, eWl, eB, eX, eWr]

/-- The pooled sums stage at an entry: the accumulating scatter of the second layer's rows into the zero array, read at
    graph g', channel h, is zero plus the rows' shares of that graph added up at once. A row whose graph word reads no
    number below 100 lands nowhere, and it is no graph's share either. -/
theorem ref_pool_at (g' : Fin 100) (h : Fin 128) :
    val_main_v62 (F := Ideal) x0 x1 x2 x3 x4 x5 x6 x7 x8 (ix2 g' h)
      = Cert.Sage.zero + Cert.Sage.pooled (val_main_v59 (F := Ideal) x0 x1 x3 x4 x5 x6 x7 x8)
          (Cert.Sage.colOf (x2 : S50000.Idx → BitVec 32)) (⟨g'.val, by omega⟩ : Fin 128) h := by
  have hsum : (∑ n : Fin 50000, if ((val_main_v61 (F := Ideal) x2) (ix2 n (0 : Fin 1))).toInt = (g'.val : ℤ)
        then (val_main_v59 (F := Ideal) x0 x1 x3 x4 x5 x6 x7 x8) (ix2 n h) else 0)
      = Cert.Sage.pooled (val_main_v59 (F := Ideal) x0 x1 x3 x4 x5 x6 x7 x8)
          (Cert.Sage.colOf (x2 : S50000.Idx → BitVec 32)) (⟨g'.val, by omega⟩ : Fin 128) h := by
    unfold Cert.Sage.pooled Cert.Sage.share Cert.Sage.colOf
    refine Finset.sum_congr rfl fun n _ => ?_
    have e61 : idx_main_v61 (ix2 n (0 : Fin 1)) = ix1 n := funext fun a => Fin.ext (by
      match a with | ⟨0, _⟩ => rfl)
    rw [val_main_v61_apply, e61]
  unfold val_main_v62
  show Ideal.hostScatterAdd (⟨[1], [0], [0], 1, scatter_S100x128_S50000x1_S50000x128_1_0_0_1_wf⟩ :
      ScatterDims ⟨2, ![100, 128]⟩ ⟨2, ![50000, 1]⟩ ⟨2, ![50000, 128]⟩) _ _ _ (ix2 g' h) = _
  rw [Idealize.ShloMosaic.ScatterAddRows.scatterAdd_rows_apply, val_main_v60_apply, val_main_cst_10_apply,
    Ideal.ofBits_def, hsum]

/-- The clamped count at a row, broadcast along the channels: the maximum of the graph's count with one. -/
theorem ref_cnt_at (g' : Fin 100) (h : Fin 128) :
    val_main_v70 (F := Ideal) x2 (ix2 g' h) = max (val_main_v66 (F := Ideal) x2 (ix1 g')) Cert.Sage.one := by
  have e70 : idx_main_v69 (idx_main_v70 (ix2 g' h)) = ix1 g' := funext fun a => Fin.ext (by
    match a with | ⟨0, _⟩ => rfl)
  rw [val_main_v70_apply, val_main_v69_apply, val_main_v68_apply, val_main_v67_apply, val_main_cst_13_apply,
    Ideal.maximumf_def, Ideal.ofBits_def, e70]

/-- The padded count column at a row below 100 is the graph's count. -/
theorem padCnt_at (cnt : (⟨1, ![100]⟩ : Shape).Idx → EReal) (g' : Fin 100) :
    Cert.Sage.padCnt cnt (ix2 (⟨g'.val, by omega⟩ : Fin 128) (0 : Fin 1)) = cnt (ix1 g') := by
  unfold Cert.Sage.padCnt
  exact dif_pos g'.isLt

/-- The reference's result at graph g, class o: the classifier's entry over the rows' shares added up at once from
    zero, the graph sizes (padded: only rows below 100 are read), the classifier's weights and bias. -/
theorem ref_out (g : Fin 100) (o : Fin 2) :
    val_main_v76 (F := Ideal) x0 x1 x2 x3 x4 x5 x6 x7 x8 x9 x10 (ix2 g o)
      = Cert.Sage.classAt
          (fun g' h => Cert.Sage.zero + Cert.Sage.pooled (val_main_v59 (F := Ideal) x0 x1 x3 x4 x5 x6 x7 x8)
            (Cert.Sage.colOf (x2 : S50000.Idx → BitVec 32)) g' h)
          (Cert.Sage.padCnt (val_main_v66 (F := Ideal) x2)) (Cert.Sage.transposeOf (x9 : S2x128.Idx → EReal))
          (Cert.Sage.rowOf (x10 : S2.Idx → EReal)) (⟨g.val, by omega⟩ : Fin 128) o := by
  have eL : ∀ k : Fin 128, lidx_main_v73 (ix2 g o) k = ix2 g k := fun k => funext fun a => Fin.ext (by
    match a with | ⟨0, _⟩ => rfl | ⟨1, _⟩ => rfl)
  have eW : ∀ k : Fin 128, idx_main_v72 (ridx_main_v73 (ix2 g o) k) = ix2 o k := fun k => funext fun a => Fin.ext (by
    match a with | ⟨0, _⟩ => rfl | ⟨1, _⟩ => rfl)
  have eB : idx_main_v74 (idx_main_v75 (ix2 g o)) = ix1 o := funext fun a => Fin.ext (by
    match a with | ⟨0, _⟩ => rfl)
  have hterm : ∀ k : Fin 128,
      val_main_v71 (F := Ideal) x0 x1 x2 x3 x4 x5 x6 x7 x8 (lidx_main_v73 (ix2 g o) k)
          * val_main_v72 (F := Ideal) x9 (ridx_main_v73 (ix2 g o) k)
        = Ideal.div (Cert.Sage.zero + Cert.Sage.pooled (val_main_v59 (F := Ideal) x0 x1 x3 x4 x5 x6 x7 x8)
              (Cert.Sage.colOf (x2 : S50000.Idx → BitVec 32)) (⟨g.val, by omega⟩ : Fin 128) k)
            (max (val_main_v66 (F := Ideal) x2 (ix1 g)) Cert.Sage.one) * x9 (ix2 o k) := by
    intro k
    rw [eL, val_main_v72_apply, eW, val_main_v71_apply, Ideal.hostDivf_def, ref_pool_at, ref_cnt_at]
  rw [val_main_v76_apply, val_main_v73_apply, val_main_v75_apply, val_main_v74_apply, Ideal.addf_def, eB,
    Finset.sum_congr rfl fun k _ => hterm k]
  unfold Cert.Sage.classAt
  rw [padCnt_at]
  unfold Cert.Sage.transposeOf Cert.Sage.rowOf
  rfl

end Cert.ReferenceIdeal.RefValue

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.SpecSums.lean ====
/-
  Ten blocks of 5000 rows added one after the other are all 50000 rows added at once: addition of extended reals is
  commutative and associative, so a finite sum does not depend on how its terms are grouped.
-/
import proofs.«426971_j26585847562498_2_alg».proof.Proof.Spec
import proofs.«426971_j26585847562498_2_alg».proof.Proof.LibBlockSums

noncomputable section

namespace Cert.Sage

open Idealize.ShloMosaic Idealize.ShloMosaic.ValueIdx
open scoped BigOperators

/-- A row's share, with nothing past the last row. -/
def shareN (act : (⟨2, ![50000, 128]⟩ : Shape).Idx → EReal) (ids : IVec ⟨2, ![50000, 1]⟩ 32) (g h : Fin 128) (n : ℕ) : EReal :=
  if hn : n < 50000 then share act ids g h ⟨n, hn⟩ else 0

/-- After block t the kernel's running sum is zero plus the first t + 1 blocks' sums. -/
theorem pooledBlocks_eq (act : (⟨2, ![50000, 128]⟩ : Shape).Idx → EReal) (ids : IVec ⟨2, ![50000, 1]⟩ 32) (g h : Fin 128) :
    ∀ t : ℕ, pooledBlocks act ids g h t
      = zero + ∑ s ∈ Finset.range (t + 1), ∑ j : Fin 5000, shareN act ids g h (5000 * s + j.val)
  | 0 => by
    rw [pooledBlocks, Finset.sum_range_one]; rfl
  | t + 1 => by
    rw [pooledBlocks, pooledBlocks_eq act ids g h t, Finset.sum_range_succ _ (t + 1), add_assoc]; rfl

/-- Ten blocks of 5000 rows added one after the other from zero are all 50000 rows added at once. -/
theorem pooledBlocks_nine (act : (⟨2, ![50000, 128]⟩ : Shape).Idx → EReal) (ids : IVec ⟨2, ![50000, 1]⟩ 32) (g h : Fin 128) :
    pooledBlocks act ids g h 9 = zero + pooled act ids g h := by
  rw [pooledBlocks_eq, Idealize.ShloMosaic.BlockSums.sum_blocks (shareN act ids g h) 5000 10,
    show 10 * 5000 = 50000 from rfl, ← Fin.sum_univ_eq_sum_range (shareN act ids g h) 50000]
  refine congrArg (zero + ·) (Finset.sum_congr rfl fun n _ => ?_)
  unfold shareN
  rw [dif_pos n.isLt]

end Cert.Sage

end
-- ==== Proof.Bridge.lean ====
/-
  The two programs' results are equal, entry by entry, at the ideal values. The kernel's first call leaves the first
  layer's activations, which are the reference's; the neighbour sums of the second layer are the same function of them
  in both programs; so the second layer's activations agree; the kernel's pooled sums, formed block by block from zero,
  are the reference's, formed at once; and the classifier reads the same sizes, weights and bias. Only the grouping of
  the pooled sums differs, and a finite sum of extended reals does not depend on it.
-/
import proofs.«426971_j26585847562498_2_alg».proof.Proof.KernelIdeal.Value0
import proofs.«426971_j26585847562498_2_alg».proof.Proof.KernelIdeal.Value1
import proofs.«426971_j26585847562498_2_alg».proof.Proof.KernelIdeal.HostSide
import proofs.«426971_j26585847562498_2_alg».proof.Proof.RefRead
import proofs.«426971_j26585847562498_2_alg».proof.Proof.SpecSums

noncomputable section

namespace Cert.KernelIdeal.Bridge

open Cert.KernelIdeal Cert.KernelIdeal.Gen Cert.KernelIdeal.Hand Cert.KernelIdeal.HostSide
open Idealize.ShloMosaic Idealize.ShloMosaic.TcCoe Idealize.ShloMosaic.ValueIdx Idealize.SL.Sem

variable (m : (ℓ : Loc nD τ sig) → Buf (Elt Ideal) ℓ) (c : Dev nD)

/-- The first call's result array is the reference's first-layer activations of the same arguments. -/
theorem h1_eq : h1Arr m c
    = Cert.ReferenceIdeal.Read.val_main_v31 (F := Ideal) (A0 m c) (A1 m c) (A3 m c) (A4 m c) (A5 m c) := by
  rw [Cert.ReferenceIdeal.RefValue.ref_h1]
  unfold h1Arr
  exact Cert.KernelIdeal.HandValue.arr0_eq (Vr1 m) c _ _ _ _ _ _ (v1_x m c) (v1_agg m c) (v1_deg m c) (v1_wl m c)
    (v1_b m c) (v1_wr m c)

/-- The program's result at graph g, class o is the reference's result of the same arguments there. -/
theorem out_eq (g : Fin 100) (o : Fin 2) :
    (V5 m (outs m) c main_v50 : S100x2.Idx → EReal) (ix2 g o)
      = Cert.ReferenceIdeal.Read.val_main_v76 (F := Ideal) (A0 m c) (A1 m c) (A2 m c) (A3 m c) (A4 m c) (A5 m c) (A6 m c)
          (A7 m c) (A8 m c) (A9 m c) (A10 m c) (ix2 g o) := by
  rw [v5_out, Cert.ReferenceIdeal.RefValue.ref_out]
  unfold outArr
  rw [Cert.KernelIdeal.HandValue.arr1_eq (Vr3 m) c _ _ _ _ _ _ _ _ _ _ (v3_h1 m c) (v3_agg m c) (v3_deg m c) (v3_wl m c)
    (v3_b m c) (v3_wr m c) (v3_ids m c) (v3_cnt m c) (v3_wlin m c) (v3_blin m c)]
  simp only [h1_eq, ← Cert.Sage.ref_agg2, Cert.Sage.pooledBlocks_nine]
  rw [Cert.ReferenceIdeal.RefValue.ref_h2]

end Cert.KernelIdeal.Bridge

end
-- ==== Proof.lean ====
/-
  The kernel forms two SAGE layers and a mean pool over graphs followed by a linear classifier; the reference forms the
  same network with plain array operations. Entry by entry both give
      max( Σ_k (agg(r,k) / max(deg(r), 1)) · Wl(h,k) + b(h) + Σ_k x(r,k) · Wr(h,k), 0 )
  for each layer, with the same gathers and sums along the edges, and for graph g, class o
      Σ_h (pooled(g,h) / max(size(g), 1)) · Wlin(o,h) + blin(o),
  where pooled(g,h) adds the second layer's rows whose graph id reads g. The kernel adds those rows in ten blocks of
  5000, selecting a graph's rows with a one-hot matrix; the reference adds them at once. On the extended reals a finite
  sum does not depend on its grouping, one times a value is the value and zero times it is zero, so the results are
  equal; no finiteness of the inputs is used. Each program terminates without a fault and leaves its arguments as
  launched: the kernel programs by running their two pallas_calls point by point between the host operations, the
  reference by its host operations alone. The idealization rewrote nothing, so there is nothing to preserve.
-/
import proofs.«426971_j26585847562498_2_alg».proof.Defs
import proofs.«426971_j26585847562498_2_alg».proof.Proof.Gen.Kernel
import proofs.«426971_j26585847562498_2_alg».proof.Proof.Gen.KernelIdeal
import proofs.«426971_j26585847562498_2_alg».proof.Proof.Gen.ReferenceIdeal
import proofs.«426971_j26585847562498_2_alg».proof.Proof.Gen.ReferenceIdeal.Run
import proofs.«426971_j26585847562498_2_alg».proof.Proof.Gen.ReferenceIdeal.Read
import proofs.«426971_j26585847562498_2_alg».proof.Proof.Gen.Pre_finite_inputs
import proofs.«426971_j26585847562498_2_alg».proof.Proof.Kernel.Frame
import proofs.«426971_j26585847562498_2_alg».proof.Proof.KernelIdeal.Frame
import proofs.«426971_j26585847562498_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs to the end and leaves its arguments as launched. -/
theorem frame_k : Cert.frame_Kernel := fun m ρ _ =>
  (θ_run Cert.Kernel.defs _ _).mono (fun _ h c => (h c).2) (Cert.Kernel.Hand.run_main m ρ)

/-- So does the idealized program. -/
theorem frame_ki : Cert.frame_KernelIdeal := fun m ρ _ =>
  (θ_run Cert.KernelIdeal.defs _ _).mono (fun _ h c => (h c).2) (Cert.KernelIdeal.Hand.run_main m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result, entry by entry. -/
theorem algebraic : Cert.algebraic_KernelIdeal_ReferenceIdeal := by
  intro m ρ m' ρ' _ hagree
  refine ⟨fun c => Cert.KernelIdeal.Gen.V5 m (Cert.KernelIdeal.Hand.outs m) c Cert.KernelIdeal.main_v50,
    Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq]
  obtain ⟨e0, e1, e2, e3, e4, e5, e6, e7, e8, e9, e10⟩ := hagree c
  rw [e0, e1, e2, e3, e4, e5, e6, e7, e8, e9, e10]
  funext i
  obtain ⟨g, o, rfl⟩ : ∃ (g : Fin 100) (o : Fin 2), i = ix2 g o := ⟨i 0, i 1, eq_ix2 i⟩
  exact (Cert.KernelIdeal.Bridge.out_eq m c g o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
